-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1x64 : Shape := ⟨2, ![1, 64]⟩
abbrev S64x64 : Shape := ⟨2, ![64, 64]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64x64 : S_.BroadcastsInDim S64x64 (![] : Fin 0 → Fin S64x64.rank)
  reducesTo_S64x64_S_d0_1 : S64x64.ReducesTo [0, 1] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg3 : IVec S800000 32) (main_v13 : IVec S_ 1) (main_v15 : IVec S800000 1) (main_c_5 : IVec S_ 1) : IVec S_ 1 :=
  let main_v16 : IVec S_ 1 := (fun x v => Host.reduce IntOp.andi x v reducesTo_S800000_S_d0 h_S_) main_v15 main_c_5
  let main_v17 : IVec S_ 1 := andi main_v13 main_v16
  let main_c_6 : IVec S_ 32 := constantI S_ 32 50000#32
  let main_v18 : IVec S800000 32 := broadcastInDim S800000 ![] bcast_S_S800000 main_c_6
  let main_v19 : IVec S800000 1 := cmpi .slt main_arg3 main_v18
  let main_c_7 : IVec S_ 1 := constantI S_ 1 1#1
  let main_v20 : IVec S_ 1 := (fun x v => Host.reduce IntOp.andi x v reducesTo_S800000_S_d0 h_S_) main_v19 main_c_7
  let main_v21 : IVec S_ 1 := andi main_v17 main_v20
  main_v21

def fn {F : FTy → Type} [FloatOps F] (main_arg0 : FVec F S50000x64 .f32) (main_arg1 : FVec F S1x64 .f32) (main_arg2 : FVec F S64x64 .f32) (main_arg3 : IVec S800000 32) (main_arg4 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_c_4 : IVec S_ 32 := constantI S_ 32 0#32
  let main_v14 : IVec S800000 32 := broadcastInDim S800000 ![] bcast_S_S800000 main_c_4
  let main_v15 : IVec S800000 1 := cmpi .sge main_arg3 main_v14
  let main_c_5 : IVec S_ 1 := constantI S_ 1 1#1
  fn_part1 (F := F) main_arg3 main_v13 main_v15 main_c_5
-- ==== Kernel.lean ====
abbrev S50000x64 : Shape := ⟨2, ![50000, 64]⟩
abbrev S1x64 : Shape := ⟨2, ![1, 64]⟩
abbrev S64x64 : Shape := ⟨2, ![64, 64]⟩
abbrev S800000 : Shape := ⟨1, ![800000]⟩
abbrev S800000x1 : Shape := ⟨2, ![800000, 1]⟩
abbrev S50000x65 : Shape := ⟨2, ![50000, 65]⟩
abbrev S256x1 : Shape := ⟨2, ![256, 1]⟩
abbrev S256x64 : Shape := ⟨2, ![256, 64]⟩
abbrev S1x2000 : Shape := ⟨2, ![1, 2000]⟩
abbrev S256x2000 : Shape := ⟨2, ![256, 2000]⟩
abbrev S2000x64 : Shape := ⟨2, ![2000, 64]⟩
abbrev S256x65 : Shape := ⟨2, ![256, 65]⟩
abbrev S2000x65 : Shape := ⟨2, ![2000, 65]⟩
abbrev S2000x1 : Shape := ⟨2, ![2000, 1]⟩

abbrev nBuf : Space → Nat
  | .hbm => 10
  | .vmem => 13
  | .smem => 0
  | _ => 0

abbrev bufTy : (tb : Table) → Fin (tcTables nBuf tb) → BufTy
  | .hbm, ⟨0, _⟩ => ⟨S50000x64, .f32⟩
  | .hbm, ⟨1, _⟩ => ⟨S1x64, .f32⟩
  | .hbm, ⟨2, _⟩ => ⟨S64x64, .f32⟩
  | .hbm, ⟨3, _⟩ => ⟨S800000, .i32⟩
  | .hbm, ⟨4, _⟩ => ⟨S800000, .i32⟩
  | .hbm, ⟨5, _⟩ => ⟨S800000x1, .i32⟩
  | .hbm, ⟨6, _⟩ => ⟨S800000x1, .i32⟩
  | .hbm, ⟨7, _⟩ => ⟨S50000x64, .bf16⟩
  | .hbm, ⟨8, _⟩ => ⟨S50000x65, .f32⟩
  | .hbm, ⟨9, _⟩ => ⟨S50000x64, .f32⟩
  | .local _ .vmem, ⟨0, _⟩ => ⟨S50000x64, .bf16⟩
  | .local _ .vmem, ⟨1, _⟩ => ⟨S256x1, .i32⟩
  | .local _ .vmem, ⟨2, _⟩ => ⟨S256x1, .i32⟩
  | .local _ .vmem, ⟨3, _⟩ => ⟨S256x1, .i32⟩
  | .local _ .vmem, ⟨4, _⟩ => ⟨S256x1, .i32⟩
  | .local _ .vmem, ⟨5, _⟩ => ⟨S50000x65, .f32⟩
  | .local _ .vmem, ⟨6, _⟩ => ⟨S256x64, .f32⟩
  | .local _ .vmem, ⟨7, _⟩ => ⟨S2000x65, .f32⟩
  | .local _ .vmem, ⟨8, _⟩ => ⟨S2000x65, .f32⟩
  | .local _ .vmem, ⟨9, _⟩ => ⟨S64x64, .f32⟩
  | .local _ .vmem, ⟨10, _⟩ => ⟨S1x64, .f32⟩
  | .local _ .vmem, ⟨11, _⟩ => ⟨S2000x64, .f32⟩
  | .local _ .vmem, ⟨12, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![3125], ![false]⟩

@[reducible] def k0_t1_loop : Scf.Loop 32 :=
  let c0_i32_6 : BitVec 32 := 0#32
  let c25_i32 : BitVec 32 := 25#32
  let v11 : BitVec 32 := Scalar.addi c0_i32_6 c25_i32
  let c1_i32 : BitVec 32 := 1#32
  ⟨c0_i32_6, v11, c1_i32⟩
def k0_mult1 (k0_t1 : Fin k0_t1_loop.trips) : BitVec 32 :=
  let c0_i32_16 : BitVec 32 := 0#32
  let c0_i32_6 : BitVec 32 := 0#32
  let c1_i32 : BitVec 32 := 1#32
  let arg6 : BitVec 32 := Scf.iv c0_i32_6 c1_i32 k0_t1
  let c1_i32_15 : BitVec 32 := 1#32
  let v17 : BitVec 32 := Scalar.muli arg6 c1_i32_15
  let v18 : BitVec 32 := Scalar.addi c0_i32_16 v17
  let c2000_i32 : BitVec 32 := 2000#32
  let v19 : BitVec 32 := Scalar.muli v18 c2000_i32
  v19
def k0_off1 (k0_t1 : Fin k0_t1_loop.trips) : Fin 2 → Nat :=
  let c0_i32_16 : BitVec 32 := 0#32
  let c0_i32_6 : BitVec 32 := 0#32
  let c1_i32 : BitVec 32 := 1#32
  let arg6 : BitVec 32 := Scf.iv c0_i32_6 c1_i32 k0_t1
  let c1_i32_15 : BitVec 32 := 1#32
  let v17 : BitVec 32 := Scalar.muli arg6 c1_i32_15
  let v18 : BitVec 32 := Scalar.addi c0_i32_16 v17
  let c2000_i32 : BitVec 32 := 2000#32
  let v19 : BitVec 32 := Scalar.muli v18 c2000_i32
  let v20 : BitVec 32 := v19
  let v30 : Index := Scalar.indexCast v20
  let c0_17 : Index := 0#32
  ![v30.toNat, 0]
@[reducible] def k0_t2_loop : Scf.Loop 32 :=
  let c0_i32_11 : BitVec 32 := 0#32
  let c25_i32_12 : BitVec 32 := 25#32
  let v16 : BitVec 32 := Scalar.addi c0_i32_11 c25_i32_12
  let c1_i32_13 : BitVec 32 := 1#32
  ⟨c0_i32_11, v16, c1_i32_13⟩
def k0_mult2 (k0_t2 : Fin k0_t2_loop.trips) : BitVec 32 :=
  let c0_i32_16 : BitVec 32 := 0#32
  let c0_i32_11 : BitVec 32 := 0#32
  let c1_i32_13 : BitVec 32 := 1#32
  let arg6 : BitVec 32 := Scf.iv c0_i32_11 c1_i32_13 k0_t2
  let c1_i32_15 : BitVec 32 := 1#32
  let v17 : BitVec 32 := Scalar.muli arg6 c1_i32_15
  let v18 : BitVec 32 := Scalar.addi c0_i32_16 v17
  let c2000_i32 : BitVec 32 := 2000#32
  let v19 : BitVec 32 := Scalar.muli v18 c2000_i32
  v19
def k0_off2 (k0_t2 : Fin k0_t2_loop.trips) : Fin 2 → Nat :=
  let c0_i32_16 : BitVec 32 := 0#32
  let c0_i32_11 : BitVec 32 := 0#32
  let c1_i32_13 : BitVec 32 := 1#32
  let arg6 : BitVec 32 := Scf.iv c0_i32_11 c1_i32_13 k0_t2
  let c1_i32_15 : BitVec 32 := 1#32
  let v17 : BitVec 32 := Scalar.muli arg6 c1_i32_15
  let v18 : BitVec 32 := Scalar.addi c0_i32_16 v17
  let c2000_i32 : BitVec 32 := 2000#32
  let v19 : BitVec 32 := Scalar.muli v18 c2000_i32
  let v20 : BitVec 32 := v19
  let v31 : Index := Scalar.indexCast v20
  let c0_18 : Index := 0#32
  ![v31.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S50000x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S50000x65 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x65 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S800000_S800000x1 : S800000.ShapeCasts S800000x1
  bitsLt_bf16_f32 : FTy.bits .bf16 < FTy.bits .f32
  inb_S50000x65_S50000x65_0_0 : ∀ a, (![0, 0] : Fin 2 → Nat) a + S50000x65.size a ≤ S50000x65.size a
  h_S50000x65 : 0 < S50000x65.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  iota_S1x2000_d1_w32 : S1x2000.Iotas .tc 32 [1]
  broadcasts_S256x1_S256x2000 : S256x1.Broadcasts S256x2000
  broadcasts_S1x2000_S256x2000 : S1x2000.Broadcasts S256x2000
  natLt_1_32 : 1 < 32
  h_S2000x64 : 0 < S2000x64.numel
  shapeCasts_S2000x64_S2000x64 : S2000x64.ShapeCasts S2000x64
  concatenates_S256x64_S256x1_S256x65_d1 : Shape.Concatenates [S256x64, S256x1] S256x65 1
  h_S2000x65 : 0 < S2000x65.numel
  shapeCasts_S2000x65_S2000x65 : S2000x65.ShapeCasts S2000x65
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  inb_S2000x65_S2000x65_0_0 : ∀ a, (![0, 0] : Fin 2 → Nat) a + S2000x65.size a ≤ S2000x65.size a
  slices_S2000x65_o0_0_S2000x64 : S2000x65.Slices ![0, 0] S2000x64
  slices_S2000x65_o0_64_S2000x1 : S2000x65.Slices ![0, 64] S2000x1
  broadcasts_S2000x1_S2000x64 : S2000x1.Broadcasts S2000x64
  broadcasts_S1x64_S2000x64 : S1x64.Broadcasts S2000x64
  inb_S2000x64_S2000x64_0_0 : ∀ a, (![0, 0] : Fin 2 → Nat) a + S2000x64.size a ≤ S2000x64.size a
  dot_S256x2000_S2000x64_S256x64_1_0_0_1_n_n_wf : DotDims.WF S256x2000 S2000x64 S256x64 [1] [0] [0] [1] [] []
  dot_S256x2000_S256x65_S2000x65_0_0_1_1_n_n_wf : DotDims.WF S256x2000 S256x65 S2000x65 [0] [0] [1] [1] [] []
  dot_S1x64_S64x64_S1x64_1_0_0_1_n_n_wf : DotDims.WF S1x64 S64x64 S1x64 [1] [0] [0] [1] [] []
  dot_S2000x64_S64x64_S2000x64_1_0_0_1_n_n_wf : DotDims.WF S2000x64 S64x64 S2000x64 [1] [0] [0] [1] [] []
  hrank0 : 0 < grid0.rank
  k0_t1_ok : k0_t1_loop.OK
  k0_mult1_dvd : ∀ k0_t1 : Fin k0_t1_loop.trips, 2000 ∣ (k0_mult1 k0_t1).toNat
  k0_off1_inb : ∀ k0_t1 : Fin k0_t1_loop.trips, ∀ a, (k0_off1 k0_t1) a + S2000x64.size a ≤ S50000x64.size a
  k0_t2_ok : k0_t2_loop.OK
  k0_mult2_dvd : ∀ k0_t2 : Fin k0_t2_loop.trips, 2000 ∣ (k0_mult2 k0_t2).toNat
  k0_off2_inb : ∀ k0_t2 : Fin k0_t2_loop.trips, ∀ a, (k0_off2 k0_t2) a + S2000x65.size a ≤ S50000x65.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S50000x64.size a ≤ S50000x64.size a
  hwx0_0 : ∀ i : grid0.Coords, EltTy.bits .bf16 = 32 ∨ (Rect.block (s := S50000x64) S50000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S800000x1.size a
  hwx0_1 : ∀ i : grid0.Coords, EltTy.bits .i32 = 32 ∨ (Rect.block (s := S800000x1) S256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S800000x1.size a
  hwx0_2 : ∀ i : grid0.Coords, EltTy.bits .i32 = 32 ∨ (Rect.block (s := S800000x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50000x65.size a ≤ S50000x65.size a
  hwx0_3 : ∀ i : grid0.Coords, EltTy.bits .f32 = 32 ∨ (Rect.block (s := S50000x65) S50000x65.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x65.size a ≤ S50000x65.size a
  hwx1_0 : ∀ i : grid1.Coords, EltTy.bits .f32 = 32 ∨ (Rect.block (s := S50000x65) S2000x65.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)

variable [Facts₀]

def dot_S256x2000_S2000x64_S256x64_1_0_0_1_n_n : DotDims S256x2000 S2000x64 S256x64 where
  lhsContracting := [1]
  rhsContracting := [0]
  lhsNonContracting := [0]
  rhsNonContracting := [1]
  lhsBatch := []
  rhsBatch := []
  wf := dot_S256x2000_S2000x64_S256x64_1_0_0_1_n_n_wf
def dot_S256x2000_S256x65_S2000x65_0_0_1_1_n_n : DotDims S256x2000 S256x65 S2000x65 where
  lhsContracting := [0]
  rhsContracting := [0]
  lhsNonContracting := [1]
  rhsNonContracting := [1]
  lhsBatch := []
  rhsBatch := []
  wf := dot_S256x2000_S256x65_S2000x65_0_0_1_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v2) S50000x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S50000x65.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S2000x65.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x64 : Shape := ⟨2, ![50000, 64]⟩
abbrev S1x64 : Shape := ⟨2, ![1, 64]⟩
abbrev S64x64 : Shape := ⟨2, ![64, 64]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩

abbrev nBuf : Space → Nat
  | .hbm => 33
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S1x64, .f32⟩
  | .hbm, ⟨2, _⟩ => ⟨S64x64, .f32⟩
  | .hbm, ⟨3, _⟩ => ⟨S800000, .i32⟩
  | .hbm, ⟨4, _⟩ => ⟨S800000, .i32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x64, .f32⟩
  | .hbm, ⟨14, _⟩ => ⟨S800000x64, .f32⟩
  | .hbm, ⟨15, _⟩ => ⟨S800000x64, .f32⟩
  | .hbm, ⟨16, _⟩ => ⟨S800000x64, .f32⟩
  | .hbm, ⟨17, _⟩ => ⟨S_, .f32⟩
  | .hbm, ⟨18, _⟩ => ⟨S50000x64, .f32⟩
  | .hbm, ⟨19, _⟩ => ⟨S800000x1, .i32⟩
  | .hbm, ⟨20, _⟩ => ⟨S50000x64, .f32⟩
  | .hbm, ⟨21, _⟩ => ⟨S_, .f32⟩
  | .hbm, ⟨22, _⟩ => ⟨S800000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x64, .f32⟩
  | .hbm, ⟨32, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.Quantities.lean ====
/-
  The quantities both programs compute, as functions of explicit coordinates over the extended reals.

  An edge `e` carries a source word `s e` and a destination word `d e`. The kernel never indexes with a word: it
  weighs row `n` of a table by `hot (s e) n`, one where the word is `n` and zero elsewhere, and sums over all rows.
  So row `e` of the gathered block is `picked tbl s e`, and the extended aggregate at node `u` is the sum over all
  edges of `hot (d e) u` times the gathered row with a one appended (`aggOf`): columns 0 to 63 hold the sum of the
  gathered rows of the edges into `u`, column 64 counts those edges. The second kernel multiplies the aggregate by
  the weight matrix, scales by the reciprocal of the count clamped below by one, and takes off the transformed edge
  feature wherever the count is positive (`normOut`). The reference transforms each edge's message
  `tbl (s e) - h` first and then sums and divides (`refOut`).
-/
import Idealize.ShloMosaic.PureOps.Ideal
import Idealize.ShloMosaic.Lib.ValueIdx
import Mathlib.Algebra.BigOperators.Group.Finset.Basic
import Mathlib.Data.EReal.Basic

noncomputable section

namespace Cert.EdgeAgg

open Idealize.ShloMosaic
open scoped BigOperators

/-- One where the two words are the same word, zero elsewhere. -/
def hot (a b : BitVec 32) : EReal := if a = b then 1 else 0

/-- Row `q` of a block of 256 edges, gathered by weights: the sum over the table's rows `n` of
    `hot (ws q) n · tbl n k`. -/
def pickedBlk (tbl : Fin 50000 → Fin 64 → EReal) (ws : Fin 256 → BitVec 32) (q : Fin 256) (k : Fin 64) : EReal :=
  ∑ n : Fin 50000, hot (ws q) (BitVec.ofNat 32 n.val) * tbl n k

/-- A block of 64 columns with a 65th column of ones. -/
def withOnes (g : Fin 256 → Fin 64 → EReal) (q : Fin 256) (j : Fin 65) : EReal :=
  if h : j.val < 64 then g q ⟨j.val, h⟩ else 1

/-- What one block of 256 edges, with destination words `ws` and gathered rows `g`, adds to entry `(u, j)` of the
    extended aggregate. -/
def contrib (ws : Fin 256 → BitVec 32) (g : Fin 256 → Fin 64 → EReal) (u : Fin 50000) (j : Fin 65) : EReal :=
  ∑ q : Fin 256, hot (ws q) (BitVec.ofNat 32 u.val) * withOnes g q j

/-- Row `e` of the table gathered by weights, over all 800000 edges. -/
def picked (tbl : Fin 50000 → Fin 64 → EReal) (s : Fin 800000 → BitVec 32) (e : Fin 800000) (k : Fin 64) : EReal :=
  ∑ n : Fin 50000, hot (s e) (BitVec.ofNat 32 n.val) * tbl n k

/-- The extended aggregate: at `(u, j)` the sum over all edges of `hot (d e) u` times the gathered row of `e` with
    a one appended. -/
def aggOf (tbl : Fin 50000 → Fin 64 → EReal) (s d : Fin 800000 → BitVec 32) (u : Fin 50000) (j : Fin 65) : EReal :=
  ∑ e : Fin 800000, hot (d e) (BitVec.ofNat 32 u.val) * (if h : j.val < 64 then picked tbl s e ⟨j.val, h⟩ else 1)

/-- The second kernel's result from an extended aggregate `a`, the weights `W` and the edge feature `h`. -/
def normOut (a : Fin 50000 → Fin 65 → EReal) (W : Fin 64 → Fin 64 → EReal) (h : Fin 64 → EReal)
    (u : Fin 50000) (j : Fin 64) : EReal :=
  (∑ k : Fin 64, a u (Fin.castSucc k) * W k j) * Ideal.div 1 (max (a u (Fin.last 64)) 1)
    - (if 0 < a u (Fin.last 64) then (1 : EReal) else 0) * (∑ k : Fin 64, h k * W k j)

/-- The reference's result: the transformed messages of the edges into `u`, summed, over their number clamped below
    by one. An edge is into `u` when its destination word, read signed, is `u`; its source row is the source word's
    position, which `hs` says is a row of the table. -/
def refOut (tbl : Fin 50000 → Fin 64 → EReal) (h : Fin 64 → EReal) (W : Fin 64 → Fin 64 → EReal)
    (s d : Fin 800000 → BitVec 32) (hs : ∀ e, (s e).toNat < 50000) (u : Fin 50000) (j : Fin 64) : EReal :=
  Ideal.div
    (∑ e ∈ Finset.univ.filter (fun e : Fin 800000 => (d e).toInt = (u.val : ℤ)),
      ∑ k : Fin 64, (tbl ⟨(s e).toNat, hs e⟩ k - h k) * W k j)
    (max (∑ e ∈ Finset.univ.filter (fun e : Fin 800000 => (d e).toInt = (u.val : ℤ)), (1 : EReal)) 1)

end Cert.EdgeAgg

end
-- ==== Proof.LibPlainDot.lean ====
/-
  A matrix product contracted over ONE axis, read at an index.

  For an `A × K` left operand and a `K × B` right operand whose dimension numbers contract the left operand's
  second axis against the right operand's first (no batch axes), the contraction index has one coordinate
  `k : Fin K`, the left operand is read at `(p, k)` and the right one at `(k, q)`. So the sum over the contraction
  index that the product's value is stated with is the textbook `∑ k, f (p, k) · g (k, q)`, whatever the sizes.
  `eq_plain` identifies any record with these dimension numbers with the library's `DotDims.plain`, for which the
  two operand indices compute.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

/-- The contraction shape has one axis … -/
theorem plain_rank : (DotDims.plain A K B).contr.rank = 1 := rfl
/-- … of extent `K`. -/
theorem plain_size : (DotDims.plain A K B).contr.size ⟨0, by rw [plain_rank]; exact Nat.one_pos⟩ = K := rfl

/-- At result index `(p, q)` and contraction coordinate `k` the left operand is read at `(p, k)`. -/
theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

/-- At result index `(p, q)` and contraction coordinate `k` the right operand is read at `(k, q)`. -/
theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A block product into the zero accumulator, at `(p, q)`: `∑ k, lhs (p, k) · rhs (k, q)`. -/
theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-- The host's product at `(p, q)`, whatever its schedule key: the same sum. -/
theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.LibBlockSum.lean ====
/-
  Sums over blocks of consecutive indices, and running sums: a sum over B blocks of S consecutive indices is the sum
  over all B·S indices; a sequence that starts at its first term and adds one more term at each step is the partial sum.
-/
import Mathlib.Algebra.BigOperators.Fin
import Mathlib.Data.Fintype.BigOperators
import Mathlib.Logic.Equiv.Fin.Basic

namespace Cert.BlockSum

open scoped BigOperators

/-- The `r`-th index of the `b`-th block of `S` consecutive indices, among `B` blocks, is below `B * S`. -/
theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- A sum over `B` blocks of `S` consecutive indices is the sum over all `B * S` indices: every index below
    `B * S` is `S * b + r` for exactly one block `b` and one offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

/-- Twelve blocks of 1024 consecutive indices make up the 12288 indices. -/
theorem sum_12x1024 {M : Type*} [AddCommMonoid M] (f : Fin 12288 → M) :
    ∑ b : Fin 12, ∑ r : Fin 1024, f ⟨1024 * b.val + r.val, by omega⟩ = ∑ n : Fin 12288, f n :=
  sum_blocks 12 1024 f

/-- Four blocks of 1536 consecutive indices make up the 6144 indices. -/
theorem sum_4x1536 {M : Type*} [AddCommMonoid M] (f : Fin 6144 → M) :
    ∑ b : Fin 4, ∑ r : Fin 1536, f ⟨1536 * b.val + r.val, by omega⟩ = ∑ n : Fin 6144, f n :=
  sum_blocks 4 1536 f

/-- A running sum from its first term: if `a 0 = g 0` and `a (j + 1) = a j + g (j + 1)` for every `j`, then
    `a j` is the sum of `g` over the first `j + 1` indices. -/
theorem running_sum {M : Type*} [AddCommMonoid M] (a g : ℕ → M) (h0 : a 0 = g 0)
    (hs : ∀ j, a (j + 1) = a j + g (j + 1)) (j : ℕ) : a j = ∑ i ∈ Finset.range (j + 1), g i := by
  induction j with
  | zero => rw [h0, Finset.sum_range_one]
  | succ j ih => rw [hs, ih, Finset.sum_range_succ _ (j + 1)]

/-- The sum over the first twelve naturals is the sum over `Fin 12`. -/
theorem sum_range_12 {M : Type*} [AddCommMonoid M] (g : ℕ → M) :
    ∑ i ∈ Finset.range 12, g i = ∑ b : Fin 12, g b.val :=
  Finset.sum_range g

/-- The sum over the first four naturals is the sum over `Fin 4`. -/
theorem sum_range_4 {M : Type*} [AddCommMonoid M] (g : ℕ → M) :
    ∑ i ∈ Finset.range 4, g i = ∑ b : Fin 4, g b.val :=
  Finset.sum_range g

end Cert.BlockSum
-- ==== Proof.LibIdealReal.lean ====
/-
  The float operations at the ideal values — a float is an extended real — on arguments that are coerced reals:
  each gives the coerced real operation. The arithmetic of coerced reals, the absolute value, minimum and
  maximum; the exponential and the logarithm; the quotient by a nonzero real; the extended reals that six
  32-bit patterns denote; the conversions of a one-bit word and of a signed word; the comparison of two
  coerced reals; a finite sum of coerced reals; and the maximum of finitely many coerced reals, folded from
  the bottom element.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Log.Basic
import Mathlib.Algebra.BigOperators.Group.Finset.Basic
import Mathlib.Data.Finset.Lattice.Fold

noncomputable section

namespace Cert.LibIdealReal

open Idealize.ShloMosaic
open scoped BigOperators

variable {φ : FTy}

/-! ## Arithmetic of coerced reals -/

/-- The product of two coerced reals is the coerced product. -/
theorem mul_coe (a b : ℝ) : (a : EReal) * (b : EReal) = ((a * b : ℝ) : EReal) := (EReal.coe_mul a b).symm

/-- The sum of two coerced reals is the coerced sum. -/
theorem add_coe (a b : ℝ) : (a : EReal) + (b : EReal) = ((a + b : ℝ) : EReal) := (EReal.coe_add a b).symm

/-- The difference of two coerced reals is the coerced difference. -/
theorem sub_coe (a b : ℝ) : (a : EReal) - (b : EReal) = ((a - b : ℝ) : EReal) := (EReal.coe_sub a b).symm

/-- The negation of a coerced real is the coerced negation. -/
theorem neg_coe (a : ℝ) : -(a : EReal) = ((-a : ℝ) : EReal) := (EReal.coe_neg a).symm

/-- The maximum of two coerced reals is the coerced maximum. -/
theorem max_coe (a b : ℝ) : max (a : EReal) (b : EReal) = ((max a b : ℝ) : EReal) :=
  (EReal.coe_strictMono.monotone.map_max (a := a) (b := b)).symm

/-- The minimum of two coerced reals is the coerced minimum. -/
theorem min_coe (a b : ℝ) : min (a : EReal) (b : EReal) = ((min a b : ℝ) : EReal) :=
  (EReal.coe_strictMono.monotone.map_min (a := a) (b := b)).symm

/-- The larger of a coerced real and its negation is the coerced absolute value. -/
theorem abs_coe (a : ℝ) : max (a : EReal) (-(a : EReal)) = ((|a| : ℝ) : EReal) := by
  rw [neg_coe, max_coe, abs_eq_max_neg]

/-- The coerced real zero is the extended real zero. -/
theorem zero_coe : (0 : EReal) = ((0 : ℝ) : EReal) := EReal.coe_zero.symm

/-- The coerced real one is the extended real one. -/
theorem one_coe : (1 : EReal) = ((1 : ℝ) : EReal) := EReal.coe_one.symm

/-! ## Exponential, logarithm, quotient -/

/-- The exponential of a coerced real is the coerced real exponential. -/
theorem exp_coe (a : ℝ) : Ideal.exp (a : EReal) = ((Real.exp a : ℝ) : EReal) := rfl

/-- The logarithm of a coerced positive real is the coerced real logarithm. -/
theorem log_coe {a : ℝ} (h : 0 < a) : Ideal.log (a : EReal) = ((Real.log a : ℝ) : EReal) := by
  rw [Ideal.log_coe, if_neg (not_le.mpr h)]

/-- The logarithm of a coerced real that is not positive is the bottom element. -/
theorem log_coe_nonpos {a : ℝ} (h : a ≤ 0) : Ideal.log (a : EReal) = ⊥ := by
  rw [Ideal.log_coe, if_pos h]

/-- The quotient of a coerced real by a coerced nonzero real is the coerced quotient. -/
theorem div_coe (a : ℝ) {b : ℝ} (h : b ≠ 0) : Ideal.div (a : EReal) (b : EReal) = ((a / b : ℝ) : EReal) := by
  rw [Ideal.div_coe h, mul_coe, mul_one_div]

/-! ## Six patterns -/

/-- The all-zero pattern denotes zero. -/
theorem ofBits_zero : Ideal.ofBits .f32 0x00000000#32 = 0 := Ideal.ofBits_zero_f32

/-- The all-zero pattern denotes the coerced real zero. -/
theorem ofBits_zero_coe : Ideal.ofBits .f32 0x00000000#32 = ((0 : ℝ) : EReal) := by
  rw [ofBits_zero, zero_coe]

/-- The pattern of one denotes the coerced real one. -/
theorem ofBits_one_coe : Ideal.ofBits .f32 0x3F800000#32 = ((1 : ℝ) : EReal) := by
  simp [Ideal.ofBits, Ideal.ieee, -EReal.coe_mul]; norm_num

/-- The pattern of one denotes one. -/
theorem ofBits_one : Ideal.ofBits .f32 0x3F800000#32 = 1 := by
  rw [ofBits_one_coe, one_coe]

/-- The pattern of one half denotes the coerced real one half. -/
theorem ofBits_half : Ideal.ofBits .f32 0x3F000000#32 = ((1 / 2 : ℝ) : EReal) := by
  simp [Ideal.ofBits, Ideal.ieee, -EReal.coe_mul]; norm_num

/-- The pattern of 4096 denotes the coerced real 4096. -/
theorem ofBits_4096 : Ideal.ofBits .f32 0x45800000#32 = ((4096 : ℝ) : EReal) := by
  simp [Ideal.ofBits, Ideal.ieee, -EReal.coe_mul]; norm_num

/-- The pattern of 32 denotes the coerced real 32. -/
theorem ofBits_32 : Ideal.ofBits .f32 0x42000000#32 = ((32 : ℝ) : EReal) := by
  simp [Ideal.ofBits, Ideal.ieee, -EReal.coe_mul]; norm_num

/-- The pattern of minus infinity denotes the bottom element. -/
theorem ofBits_neg_inf : Ideal.ofBits .f32 0xFF800000#32 = ⊥ := by
  simp [Ideal.ofBits, Ideal.ieee]

/-! ## Conversions of words -/

/-- A one-bit word is zero or one. -/
theorem bit_cases (b : BitVec 1) : b = 0#1 ∨ b = 1#1 := by
  have h := b.isLt
  rcases (by omega : b.toNat = 0 ∨ b.toNat = 1) with h0 | h1
  · left; exact BitVec.eq_of_toNat_eq (by simpa using h0)
  · right; exact BitVec.eq_of_toNat_eq (by simpa using h1)

/-- The signed conversion of a word is the coerced real of its signed value. -/
theorem sitofp_def {w : Nat} (b : BitVec w) : FloatOps.sitofp (F := Ideal) φ b = (((b.toInt : ℤ) : ℝ) : EReal) := rfl

/-- The unsigned conversion of a word is the coerced real of its unsigned value. -/
theorem uitofp_def {w : Nat} (b : BitVec w) : FloatOps.uitofp (F := Ideal) φ b = (((b.toNat : ℕ) : ℝ) : EReal) := rfl

/-- The signed conversion of a word whose signed value is `n` is the coerced real `n`. -/
theorem sitofp_of_toInt {w : Nat} (b : BitVec w) (n : ℤ) (h : b.toInt = n) :
    FloatOps.sitofp (F := Ideal) φ b = ((n : ℝ) : EReal) := by
  rw [sitofp_def, h]

/-- The unsigned conversion of the one-bit word one is the coerced real one. -/
theorem uitofp_bit_one : FloatOps.uitofp (F := Ideal) φ (1#1) = ((1 : ℝ) : EReal) := by
  rw [uitofp_def]; norm_num

/-- The unsigned conversion of the one-bit word zero is the coerced real zero. -/
theorem uitofp_bit_zero : FloatOps.uitofp (F := Ideal) φ (0#1) = ((0 : ℝ) : EReal) := by
  rw [uitofp_def]; norm_num

/-- The unsigned conversion of a one-bit word is one or zero as the word is one or not. -/
theorem uitofp_bit (b : BitVec 1) :
    FloatOps.uitofp (F := Ideal) φ b = ((if b = 1#1 then (1 : ℝ) else 0 : ℝ) : EReal) := by
  rcases bit_cases b with rfl | rfl
  · rw [uitofp_bit_zero, if_neg (by decide)]
  · rw [uitofp_bit_one, if_pos rfl]

/-- The signed conversion of the one-bit word one, zero-extended to 32 bits, is the coerced real one. -/
theorem sitofp_extui_bit_one : FloatOps.sitofp (F := Ideal) φ ((1#1 : BitVec 1).setWidth 32) = ((1 : ℝ) : EReal) := by
  rw [sitofp_of_toInt _ 1 (by decide)]; norm_num

/-- The signed conversion of the one-bit word zero, zero-extended to 32 bits, is the coerced real zero. -/
theorem sitofp_extui_bit_zero : FloatOps.sitofp (F := Ideal) φ ((0#1 : BitVec 1).setWidth 32) = ((0 : ℝ) : EReal) := by
  rw [sitofp_of_toInt _ 0 (by decide)]; norm_num

/-- The signed conversion of a zero-extended one-bit word is one or zero as the word is one or not. -/
theorem sitofp_extui_bit (b : BitVec 1) :
    FloatOps.sitofp (F := Ideal) φ (b.setWidth 32) = ((if b = 1#1 then (1 : ℝ) else 0 : ℝ) : EReal) := by
  rcases bit_cases b with rfl | rfl
  · rw [sitofp_extui_bit_zero, if_neg (by decide)]
  · rw [sitofp_extui_bit_one, if_pos rfl]

/-! ## Comparison -/

/-- The strict comparison of two coerced reals is the one-bit word one exactly when the first is below the second. -/
theorem cmp_olt_coe (a b : ℝ) : Ideal.cmp .olt (a : EReal) (b : EReal) = if a < b then 1#1 else 0#1 := by
  by_cases h : a < b
  · simp [Ideal.cmp, h]
  · simp [Ideal.cmp, h]

/-- A choice by the strict comparison of two coerced reals is the choice by the comparison of the reals. -/
theorem select_cmp_olt_coe {α : Type} (a b : ℝ) (x y : α) :
    Scalar.select (Ideal.cmp .olt (a : EReal) (b : EReal)) x y = if a < b then x else y := by
  rw [cmp_olt_coe]
  by_cases h : a < b
  · rw [if_pos h, if_pos h]; exact if_pos rfl
  · rw [if_neg h, if_neg h]; exact if_neg (by decide)

/-! ## Finite sums -/

/-- A finite sum of coerced reals is the coerced sum. -/
theorem sum_coe {ι : Type*} (s : Finset ι) (f : ι → ℝ) :
    ∑ i ∈ s, ((f i : ℝ) : EReal) = ((∑ i ∈ s, f i : ℝ) : EReal) := by
  classical
  refine Finset.induction_on s (by simp) ?_
  intro i s hi ih
  rw [Finset.sum_insert hi, Finset.sum_insert hi, ih, EReal.coe_add]

/-- A sum over a finite type of coerced reals is the coerced sum. -/
theorem sum_univ_coe {ι : Type*} [Fintype ι] (f : ι → ℝ) :
    ∑ i, ((f i : ℝ) : EReal) = ((∑ i, f i : ℝ) : EReal) := sum_coe Finset.univ f

/-- A finite sum of extended reals, each a coerced real, is the coerced sum of the reals. -/
theorem sum_of_eq {ι : Type*} (s : Finset ι) (g : ι → EReal) (f : ι → ℝ) (hg : ∀ i ∈ s, g i = ((f i : ℝ) : EReal)) :
    ∑ i ∈ s, g i = ((∑ i ∈ s, f i : ℝ) : EReal) := by
  rw [Finset.sum_congr rfl hg, sum_coe]

/-! ## Finite maxima from the bottom element -/

/-- The maximum of finitely many coerced reals over a nonempty set, folded from the bottom element, is the
coerced maximum of the reals. -/
theorem fold_max_bot_coe {ι : Type*} (s : Finset ι) (H : s.Nonempty) (f : ι → ℝ) :
    s.fold max (⊥ : EReal) (fun i => ((f i : ℝ) : EReal)) = ((s.sup' H f : ℝ) : EReal) := by
  have h1 : s.fold max (⊥ : EReal) (fun i => ((f i : ℝ) : EReal)) = s.sup (fun i => ((f i : ℝ) : EReal)) := rfl
  rw [h1, ← Finset.sup'_eq_sup H]
  exact (Finset.comp_sup'_eq_sup'_comp H (fun r : ℝ => (r : EReal)) (fun x y => (max_coe x y).symm)).symm

/-- The same for extended reals each known to be a coerced real. -/
theorem fold_max_bot_of_eq {ι : Type*} (s : Finset ι) (H : s.Nonempty) (g : ι → EReal) (f : ι → ℝ)
    (hg : ∀ i, g i = ((f i : ℝ) : EReal)) :
    s.fold max (⊥ : EReal) g = ((s.sup' H f : ℝ) : EReal) := by
  have : g = fun i => ((f i : ℝ) : EReal) := funext hg
  rw [this, fold_max_bot_coe]

/-- The same with the float maximum as the folded operation. -/
theorem fold_maximumf_bot_of_eq {ι : Type*} (s : Finset ι) (H : s.Nonempty) (g : ι → EReal) (f : ι → ℝ)
    (hg : ∀ i, g i = ((f i : ℝ) : EReal)) :
    s.fold (FloatOps.maximumf (F := Ideal) (φ := φ)) (⊥ : EReal) g = ((s.sup' H f : ℝ) : EReal) :=
  fold_max_bot_of_eq s H g f hg

end Cert.LibIdealReal

end
-- ==== Proof.LibColumn.lean ====
/-
  A column of row values read at an index.

  A row reduction that keeps its reduced axis produces an `[a]` array given a trailing unit axis, `[a, 1]`, and then
  spread along that axis to `[a, b]`: entry `(i, 0)` of the cast is the array's entry `i`, and entry `(i, j)` of the
  spread column is the column's entry `(i, 0)`, whatever the sizes and the element type.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.ScratchLoop.lean ====
/-
  The first loop of the first kernel: the scratch block after its 25 trips.
  The scratch is zeroed, and trip `g` adds the product of the weights `hot (source word of row q) (2000 g + p)` with
  rows `2000 g … 2000 g + 1999` of the table. After the 25 trips entry `(q, k)` is the sum over all 50000 rows
  `n` of `hot (word q) n · table n k`.
-/
import proofs.«406064_j10290741641561_2_alg».proof.Proof.Gen.KernelIdeal.Frame
import proofs.«406064_j10290741641561_2_alg».proof.Proof.Quantities
import proofs.«406064_j10290741641561_2_alg».proof.Proof.LibPlainDot
import proofs.«406064_j10290741641561_2_alg».proof.Proof.LibBlockSum
import proofs.«406064_j10290741641561_2_alg».proof.Proof.LibIdealReal
import proofs.«406064_j10290741641561_2_alg».proof.Proof.LibColumn
import Idealize.ShloMosaic.Lib.ValueIdx
import Idealize.ShloMosaic.Lib.ValueLayout
import Idealize.ShloMosaic.Lib.Pipeline.Value

set_option maxRecDepth 16384

noncomputable section

namespace Cert.KernelIdeal.Edge

open Idealize.ShloMosaic Idealize.ShloMosaic.ValueIdx Idealize.SL.Sem
open Cert.KernelIdeal Cert.KernelIdeal.Gen Cert.EdgeAgg
open scoped BigOperators

/-- The loop makes 25 trips. -/
private theorem trips_eq : k0_t1_loop.trips = 25 := by decide

/-- The word trip g compares at column p is the row number 2000 g + p. -/
private theorem word_eq (g : Fin k0_t1_loop.trips) (p : Fin 2000) :
    IntOp.addi (Scalar.muli (Scalar.addi 0#32 (Scalar.muli (Scf.iv 0#32 1#32 g.val) 1#32)) 2000#32) (BitVec.ofNat 32 p.val)
      = BitVec.ofNat 32 (2000 * g.val + p.val) := by
  have hg : g.val < 25 := lt_of_lt_of_eq g.isLt trips_eq
  have hp := p.isLt
  apply BitVec.eq_of_toNat_eq
  simp only [Scalar.muli, Scalar.addi, IntOp.muli, IntOp.addi, Scf.iv, BitVec.toNat_add, BitVec.toNat_mul, BitVec.toNat_ofNat]
  omega

/-- The equality bit of two words, widened and converted, is one where they are the same word and zero elsewhere. -/
private theorem bit_hot (a b : BitVec 32) :
    FloatOps.sitofp (F := Ideal) .f32 (BitVec.setWidth 32 (IntOp.cmpi .eq a b)) = hot a b := by
  rw [Cert.LibIdealReal.sitofp_extui_bit, show IntOp.cmpi .eq a b = BitVec.ofBool (a == b) from rfl]
  unfold hot
  by_cases h : a = b
  · subst h; simp
  · rw [show (a == b) = false from beq_eq_false_iff_ne.mpr h, if_neg h, if_neg (by decide)]
    exact EReal.coe_zero

/-- The weight trip g's product reads at (q, p): one where row q's word is the row number 2000 g + p, zero elsewhere. -/
private theorem onehot_apply (v3 : Vec Ideal S256x1 .i32) (g : Fin k0_t1_loop.trips) (q : Fin 256) (p : Fin 2000) :
    (truncf .bf16 (sitofp .f32 (extui 32 (cmpi .eq (broadcastTo S256x2000 (shapeCast S256x1 v3 shapeCasts_S256x1_S256x1) broadcasts_S256x1_S256x2000) (broadcastTo S256x2000 (addi (broadcast S1x2000 (Scalar.muli (Scalar.addi 0#32 (Scalar.muli (Scf.iv 0#32 1#32 g.val) 1#32)) 2000#32)) (iota .tc S1x2000 32 [1] iota_S1x2000_d1_w32)) broadcasts_S1x2000_S256x2000)) natLt_1_32)) bitsLt_bf16_f32 : FVec Ideal S256x2000 .bf16) (ix2 q p)
      = hot (v3 (ix2 q 0)) (BitVec.ofNat 32 (2000 * g.val + p.val)) := by
  rw [truncf_apply, sitofp_apply, extui_apply]
  unfold cmpi
  rw [Cert.LibColumn.broadcastTo_a1_ab_apply, broadcastTo_1b_ab_apply, shapeCast_self]
  unfold addi
  rw [broadcast_apply, iota_single_apply]
  show FloatOps.sitofp (F := Ideal) .f32 (BitVec.setWidth 32 (IntOp.cmpi .eq (v3 (ix2 q 0))
    (IntOp.addi (Scalar.muli (Scalar.addi 0#32 (Scalar.muli (Scf.iv 0#32 1#32 g.val) 1#32)) 2000#32) (BitVec.ofNat 32 p.val)))) = _
  rw [word_eq, bit_hot]

/-- The block product into the zero accumulator, at (q, kk), whatever the operands' formats: the textbook sum. -/
private theorem dot_apply {φ₁ φ₂ : FTy} (lhs : FVec Ideal S256x2000 φ₁) (rhs : FVec Ideal S2000x64 φ₂) (q : Fin 256) (kk : Fin 64) :
    FloatOps.matmul dot_S256x2000_S2000x64_S256x64_1_0_0_1_n_n none lhs rhs (constant S256x64 .f32 0x00000000#32) (ix2 q kk)
      = ∑ p : Fin 2000, (lhs (ix2 q p) : EReal) * (rhs (ix2 p kk) : EReal) :=
  Cert.LibPlainDot.matmul_zero_apply dot_S256x2000_S2000x64_S256x64_1_0_0_1_n_n rfl rfl rfl rfl rfl rfl none lhs rhs q kk

/-- A trip's payload at (q, kk): the scratch it found there plus the block's weighted sum of the loaded rows. -/
private theorem pay3_apply (v3 : Vec Ideal S256x1 .i32) (g : Fin k0_t1_loop.trips) (A : Vec Ideal S2000x64 .bf16) (B : Vec Ideal S256x64 .f32) (q : Fin 256) (kk : Fin 64) :
    (k0_pay3 (F := Ideal) v3 g A B : FVec Ideal S256x64 .f32) (ix2 q kk) = (B (ix2 q kk) : EReal) + ∑ p : Fin 2000, hot (v3 (ix2 q 0)) (BitVec.ofNat 32 (2000 * g.val + p.val)) * (A (ix2 p kk) : EReal) := by
  unfold k0_pay3
  dsimp only
  rw [shapeCast_self, addf_apply]
  simp only [matmul]
  rw [dot_apply]
  congr 1
  refine Finset.sum_congr rfl fun p _ => ?_
  rw [onehot_apply, shapeCast_self]

/-- The offsets written 0, 0 are the zero offsets. -/
private theorem hz2 : (![0, 0] : Fin 2 → Nat) = fun _ => 0 := funext fun a => by fin_cases a <;> rfl

/-- Trip g loads the table from row 2000 g, column 0. -/
private theorem off1_eq (g : Fin k0_t1_loop.trips) : k0_off1 g = ![2000 * g.val, 0] := by
  have hg : g.val < 25 := lt_of_lt_of_eq g.isLt trips_eq
  unfold k0_off1
  dsimp only
  congr 1
  simp only [Scalar.indexCast, Scalar.muli, Scalar.addi, IntOp.muli, IntOp.addi, Scf.iv, BitVec.toNat_add, BitVec.toNat_mul, BitVec.toNat_ofNat]
  omega

/-- The block trip g loads, at (p, kk), is the table at row 2000 g + p. -/
private theorem tbl_read (arg1 : Memref sig .tc .vmem S50000x64 .bf16) (harg1 : arg1.IsWhole) (x0 : Vec Ideal S50000x64 .bf16)
    (g : Fin k0_t1_loop.trips) (inb : ∀ a, (k0_off1 g) a + (![2000, 64] : Fin 2 → Nat) a ≤ S50000x64.size a)
    (p : Fin 2000) (kk : Fin 64) (h : 2000 * g.val + p.val < 50000) :
    View.readAt (Elt Ideal) arg1.view (Rect.unit (s := S50000x64) (k0_off1 g) ![2000, 64] inb).toLoadRect (harg1.unread x0) (ix2 p kk)
      = x0 (ix2 ⟨2000 * g.val + p.val, h⟩ kk) := by
  rw [View.readAt_eq_ld, Memref.IsWhole.read_unread]
  show x0 ((Rect.unit (s := S50000x64) (k0_off1 g) ![2000, 64] inb).toLoadRect.idx (ix2 p kk)) = _
  congr 1
  apply Shape.idx_ext₂
  · show (k0_off1 g) 0 + 1 * p.val = 2000 * g.val + p.val
    rw [off1_eq]; simp
  · show (k0_off1 g) 1 + 1 * kk.val = kk.val
    rw [off1_eq]; simp

/-- A last store through the whole rectangle reads back its payload. -/
private theorem read_cons_whole {sig : RefSig} {κ : Kind} {sp : Space} {S : Shape} {e : EltTy} {Val : EltTy → Type}
    (v : View sig κ sp S e) (f : v.ty.Contents Val) {off : Fin S.rank → Nat} (h : off = fun _ => 0)
    (inb : ∀ a, off a + S.size a ≤ S.size a) (w : S.Idx → Val e) (L : List (View.Piece Val S e)) (y : S.Idx) :
    v.read Val (v.writes Val f ((⟨Rect.unit off S.size inb, w⟩ : View.Piece Val S e) :: L)) y = w y := by
  subst h
  have e := View.read_writes_cons_emb v f (Rect.whole S) w L y
  rw [Rect.emb_whole_apply] at e
  exact e

/-- One trip writes one piece: the whole scratch, with the trip's payload over the block it loads and the scratch it finds. -/
private theorem trip_open (𝒱 : Variants) (c : Dev nD) (bd : Option 𝒱.V) (i : grid0.Coords) (arg1 : Memref sig .tc .vmem S50000x64 .bf16) (harg1 : arg1.IsWhole) (arg2 : Memref sig .tc .vmem S256x1 .i32) (harg2 : arg2.IsWhole) (arg3 : Memref sig .tc .vmem S256x1 .i32) (harg3 : arg3.IsWhole) (arg4 : Memref sig .tc .vmem S50000x65 .f32) (harg4 : arg4.IsWhole) (arg5 : Memref sig .tc .vmem S256x64 .f32) (harg5 : arg5.IsWhole)
    (v3 : Vec Ideal S256x1 .i32) (X : BufTy.Contents (Elt Ideal) arg1.view.ty) (k : Fin k0_t1_loop.trips) (f : BufTy.Contents (Elt Ideal) arg5.view.ty) :
    tripL_k0_t1 (F := Ideal) 𝒱 c bd i arg1 harg1 arg2 harg2 arg3 harg3 arg4 harg4 arg5 harg5 v3 X k f
      = [⟨Rect.unit (s := S256x64) ![0, 0] ![256, 64] inb_S256x64_S256x64_0_0,
          k0_pay3 v3 k (View.readAt (Elt Ideal) arg1.view (Rect.unit (s := S50000x64) (k0_off1 k) ![2000, 64] (k0_off1_inb k)).toLoadRect X)
            (View.readAt (Elt Ideal) arg5.view (Rect.unit (s := S256x64) ![0, 0] ![256, 64] inb_S256x64_S256x64_0_0).toLoadRect f)⟩] := by
  unfold tripL_k0_t1 trip_k0_t1
  rfl

/-- Block g's share of entry (·, kk) for the word w: the sum over its 2000 rows of the weight times the table's row. -/
private def blk (x0 : Vec Ideal S50000x64 .bf16) (w : BitVec 32) (kk : Fin 64) (g : ℕ) : EReal :=
  ∑ p : Fin 2000, if h : 2000 * g + p.val < 50000 then hot w (BitVec.ofNat 32 (2000 * g + p.val)) * (x0 (ix2 ⟨2000 * g + p.val, h⟩ kk) : EReal) else 0

/-- After j trips the scratch reads what it held at entry plus the shares of blocks 0 … j - 1. -/
private theorem loop_inv (𝒱 : Variants) (c : Dev nD) (bd : Option 𝒱.V) (i : grid0.Coords) (arg1 : Memref sig .tc .vmem S50000x64 .bf16) (harg1 : arg1.IsWhole) (arg2 : Memref sig .tc .vmem S256x1 .i32) (harg2 : arg2.IsWhole) (arg3 : Memref sig .tc .vmem S256x1 .i32) (harg3 : arg3.IsWhole) (arg4 : Memref sig .tc .vmem S50000x65 .f32) (harg4 : arg4.IsWhole) (arg5 : Memref sig .tc .vmem S256x64 .f32) (harg5 : arg5.IsWhole)
    (x0 : Vec Ideal S50000x64 .bf16) (v3 : Vec Ideal S256x1 .i32) (G : BufTy.Contents (Elt Ideal) arg5.view.ty) (q : Fin 256) (kk : Fin 64) :
    ∀ j : ℕ, j ≤ 25 →
      (arg5.view.read (Elt Ideal) (arg5.view.writes (Elt Ideal) G (pb_k0_t1 (F := Ideal) 𝒱 c bd i arg1 harg1 arg2 harg2 arg3 harg3 arg4 harg4 arg5 harg5 v3 (harg1.unread x0) G j)) (ix2 q kk) : EReal)
        = (arg5.view.read (Elt Ideal) G (ix2 q kk) : EReal) + ∑ g ∈ Finset.range j, blk x0 (v3 (ix2 q 0)) kk g := by
  intro j
  induction j with
  | zero =>
    intro _
    rw [show pb_k0_t1 (F := Ideal) 𝒱 c bd i arg1 harg1 arg2 harg2 arg3 harg3 arg4 harg4 arg5 harg5 v3 (harg1.unread x0) G 0 = [] from rfl, View.writes_nil, Finset.sum_range_zero, add_zero]
  | succ j ih =>
    intro hj
    have hj' : j < k0_t1_loop.trips := by rw [trips_eq]; omega
    have e := pb_k0_t1_succ (F := Ideal) 𝒱 c bd i arg1 harg1 arg2 harg2 arg3 harg3 arg4 harg4 arg5 harg5 v3 (harg1.unread x0) G ⟨j, hj'⟩
    rw [show pb_k0_t1 (F := Ideal) 𝒱 c bd i arg1 harg1 arg2 harg2 arg3 harg3 arg4 harg4 arg5 harg5 v3 (harg1.unread x0) G (j + 1) = _ from e, trip_open, List.singleton_append]
    rw [read_cons_whole (S := S256x64) _ _ hz2, pay3_apply, View.readAt_eq_ld, View.ld_unit_zero (S := S256x64) hz2, ih (by omega), Finset.sum_range_succ, add_assoc]
    congr 2
    unfold blk
    refine Finset.sum_congr rfl fun p _ => ?_
    have h : 2000 * j + p.val < 50000 := by have := p.isLt; omega
    rw [dif_pos h, tbl_read]

/-- The zeroing store's payload is zero everywhere. -/
private theorem pay2_apply (y : S256x64.Idx) : (k0_pay2 (F := Ideal) y : EReal) = 0 := by
  unfold k0_pay2
  rw [shapeCast_self, broadcast_apply]
  exact Ideal.ofBits_zero_f32

/-- The 25 blocks of 2000 rows are the 50000 rows. -/
private theorem sum_blk (x0 : Vec Ideal S50000x64 .bf16) (w : BitVec 32) (kk : Fin 64) :
    ∑ g ∈ Finset.range 25, blk x0 w kk g = ∑ n : Fin 50000, hot w (BitVec.ofNat 32 n.val) * (x0 (ix2 n kk) : EReal) := by
  have key := Cert.BlockSum.sum_blocks (M := EReal) 25 2000 (fun n : Fin 50000 => hot w (BitVec.ofNat 32 n.val) * (x0 (ix2 n kk) : EReal))
  rw [Finset.sum_range]
  refine (Finset.sum_congr rfl fun g _ => ?_).trans (key.trans rfl)
  unfold blk
  refine Finset.sum_congr rfl fun p _ => ?_
  rw [dif_pos (Cert.BlockSum.block_lt g p)]

/-- The scratch read back after the loop, over any zeroing list that is the one whole store of zeros. -/
private theorem gathered_gen (c : Dev nD) (i : grid0.Coords) (arg1 : Memref sig .tc .vmem S50000x64 .bf16) (harg1 : arg1.IsWhole) (arg2 : Memref sig .tc .vmem S256x1 .i32) (harg2 : arg2.IsWhole) (arg3 : Memref sig .tc .vmem S256x1 .i32) (harg3 : arg3.IsWhole) (arg4 : Memref sig .tc .vmem S50000x65 .f32) (harg4 : arg4.IsWhole) (arg5 : Memref sig .tc .vmem S256x64 .f32) (harg5 : arg5.IsWhole)
    (x0 : Vec Ideal S50000x64 .bf16) (x1 : Vec Ideal S256x1 .i32) (q : Fin 256) (k : Fin 64)
    (HS : List (View.Piece (Elt Ideal) S256x64 .f32))
    (hHS : HS = [(⟨Rect.unit (s := S256x64) ![0, 0] S256x64.size inb_S256x64_S256x64_0_0, k0_pay2 (F := Ideal)⟩ : View.Piece (Elt Ideal) S256x64 .f32)]) :
    (View.readAt (Elt Ideal) arg5.view (Rect.unit ![0, 0] S256x64.size inb_S256x64_S256x64_0_0).toLoadRect
        (arg5.view.writes (Elt Ideal) arg5.view.junk
          (pb_k0_t1 (F := Ideal) Variants.none c none i arg1 harg1 arg2 harg2 arg3 harg3 arg4 harg4 arg5 harg5
              (View.readAt (Elt Ideal) arg2.view (Rect.unit ![0, 0] S256x1.size inb_S256x1_S256x1_0_0).toLoadRect (harg2.unread x1))
              (harg1.unread x0) (arg5.view.writes (Elt Ideal) arg5.view.junk HS)
              (Scf.trips k0_t1_loop.lb k0_t1_loop.ub k0_t1_loop.st) ++ HS)) : Vec Ideal S256x64 .f32) (ix2 q k)
      = pickedBlk (fun n k => x0 (ix2 n k)) (fun q => x1 (ix2 q 0)) q k := by
  rw [View.readAt_eq_ld, View.ld_unit_zero (S := S256x64) hz2, View.writes_append]
  rw [show Scf.trips k0_t1_loop.lb k0_t1_loop.ub k0_t1_loop.st = 25 from trips_eq]
  rw [loop_inv Variants.none c none i arg1 harg1 arg2 harg2 arg3 harg3 arg4 harg4 arg5 harg5 x0 _ _ q k 25 le_rfl]
  subst hHS
  rw [read_cons_whole (S := S256x64) _ _ hz2, pay2_apply, zero_add, sum_blk]
  rw [View.readAt_eq_ld, Memref.IsWhole.read_unread, View.ld_unit_zero (S := S256x1) hz2]
  rfl

/-- The scratch block the later points' run reads back after the first loop. -/
theorem gathered_later (c : Dev nD) (i : grid0.Coords) (arg1 : Memref sig .tc .vmem S50000x64 .bf16) (harg1 : arg1.IsWhole) (arg2 : Memref sig .tc .vmem S256x1 .i32) (harg2 : arg2.IsWhole) (arg3 : Memref sig .tc .vmem S256x1 .i32) (harg3 : arg3.IsWhole) (arg4 : Memref sig .tc .vmem S50000x65 .f32) (harg4 : arg4.IsWhole) (arg5 : Memref sig .tc .vmem S256x64 .f32) (harg5 : arg5.IsWhole)
    (x0 : Vec Ideal S50000x64 .bf16) (x1 : Vec Ideal S256x1 .i32) (q : Fin 256) (k : Fin 64) :
    (kernelRun0_B.sl.v12 (F := Ideal) c i arg1 harg1 arg2 harg2 arg3 harg3 arg4 harg4 arg5 harg5 x0 x1 : Vec Ideal S256x64 .f32) (ix2 q k)
      = pickedBlk (fun n k => x0 (ix2 n k)) (fun q => x1 (ix2 q 0)) q k := by
  exact gathered_gen c i arg1 harg1 arg2 harg2 arg3 harg3 arg4 harg4 arg5 harg5 x0 x1 q k kernelRun0_B.sl.HS0_1 rfl

/-- The same for the first point's run. -/
theorem gathered_first (c : Dev nD) (i : grid0.Coords) (arg1 : Memref sig .tc .vmem S50000x64 .bf16) (harg1 : arg1.IsWhole) (arg2 : Memref sig .tc .vmem S256x1 .i32) (harg2 : arg2.IsWhole) (arg3 : Memref sig .tc .vmem S256x1 .i32) (harg3 : arg3.IsWhole) (arg4 : Memref sig .tc .vmem S50000x65 .f32) (harg4 : arg4.IsWhole) (arg5 : Memref sig .tc .vmem S256x64 .f32) (harg5 : arg5.IsWhole)
    (x0 : Vec Ideal S50000x64 .bf16) (x1 : Vec Ideal S256x1 .i32) (q : Fin 256) (k : Fin 64) :
    (kernelRun0_A.sl.v12 (F := Ideal) c i arg1 harg1 arg2 harg2 arg3 harg3 arg4 harg4 arg5 harg5 x0 x1 : Vec Ideal S256x64 .f32) (ix2 q k)
      = pickedBlk (fun n k => x0 (ix2 n k)) (fun q => x1 (ix2 q 0)) q k := by
  exact gathered_gen c i arg1 harg1 arg2 harg2 arg3 harg3 arg4 harg4 arg5 harg5 x0 x1 q k kernelRun0_A.sl.HS0_1 rfl

end Cert.KernelIdeal.Edge

end
-- ==== Proof.ScatterLoop.lean ====
/-
  The second loop of the first kernel: what its 25 stores leave in the aggregate's buffer.
  Trip `g` loads rows `2000 g … 2000 g + 1999` of the buffer, adds the product of the transposed weights
  `hot (destination word of row q) (2000 g + p)` with the gathered block extended by a column of ones, and stores
  the rows back. The trips touch disjoint row ranges, so each loads what the buffer held at loop entry, and after
  the 25 trips entry `(u, j)` is the entry-time contents plus `contrib`.

  The steps: the product contracted over the first axis of both operands read at an index; the trip's payload at
  `(p, j)`; the trip's rectangle and its one store; an invariant over the number of trips done; the statement.
-/
import proofs.«406064_j10290741641561_2_alg».proof.Proof.Gen.KernelIdeal.Frame
import proofs.«406064_j10290741641561_2_alg».proof.Proof.Quantities
import Idealize.ShloMosaic.Lib.ValueIdx
import Idealize.ShloMosaic.Lib.Pipeline.Value
import proofs.«406064_j10290741641561_2_alg».proof.Proof.LibIdealReal
import Idealize.ShloMosaic.Lib.Pipeline.CanonAppend
import Idealize.ShloMosaic.PureOps.Ideal.Laws

set_option maxRecDepth 16384

noncomputable section

namespace Cert.KernelIdeal.Edge

open Idealize.ShloMosaic Idealize.ShloMosaic.ValueIdx Idealize.SL.Sem
open Cert.KernelIdeal Cert.KernelIdeal.Gen Cert.EdgeAgg
open scoped BigOperators

/-! ### The product contracted over the first axis of both operands, at an index -/

/-- The left operand's first coordinate is the contraction coordinate … -/
private theorem lhsT_0 (i : S2000x65.Idx) (q : dot_S256x2000_S256x65_S2000x65_0_0_1_1_n_n.contr.Idx) :
    (dot_S256x2000_S256x65_S2000x65_0_0_1_1_n_n.lhsIdx i q 0).val = (q ⟨0, by decide⟩).val :=
  dot_S256x2000_S256x65_S2000x65_0_0_1_1_n_n.lhsIdx_val_of_single rfl i q
/-- … its second the result's row; -/
private theorem lhsT_1 (i : S2000x65.Idx) (q : dot_S256x2000_S256x65_S2000x65_0_0_1_1_n_n.contr.Idx) :
    (dot_S256x2000_S256x65_S2000x65_0_0_1_1_n_n.lhsIdx i q 1).val = (i 0).val := by
  unfold DotDims.lhsIdx
  rw [dif_neg (show ¬(1 : Fin S256x2000.rank) ∈ dot_S256x2000_S256x65_S2000x65_0_0_1_1_n_n.lhsBatch by decide), dif_pos (show (1 : Fin S256x2000.rank) ∈ dot_S256x2000_S256x65_S2000x65_0_0_1_1_n_n.lhsNonContracting by decide)]
  rfl
/-- the right operand's first coordinate is the contraction coordinate … -/
private theorem rhsT_0 (i : S2000x65.Idx) (q : dot_S256x2000_S256x65_S2000x65_0_0_1_1_n_n.contr.Idx) :
    (dot_S256x2000_S256x65_S2000x65_0_0_1_1_n_n.rhsIdx i q 0).val = (q ⟨0, by decide⟩).val :=
  dot_S256x2000_S256x65_S2000x65_0_0_1_1_n_n.rhsIdx_val_of_single rfl i q
/-- … its second the result's column. -/
private theorem rhsT_1 (i : S2000x65.Idx) (q : dot_S256x2000_S256x65_S2000x65_0_0_1_1_n_n.contr.Idx) :
    (dot_S256x2000_S256x65_S2000x65_0_0_1_1_n_n.rhsIdx i q 1).val = (i 1).val := by
  unfold DotDims.rhsIdx
  rw [dif_neg (show ¬(1 : Fin S256x65.rank) ∈ dot_S256x2000_S256x65_S2000x65_0_0_1_1_n_n.rhsBatch by decide), dif_pos (show (1 : Fin S256x65.rank) ∈ dot_S256x2000_S256x65_S2000x65_0_0_1_1_n_n.rhsNonContracting by decide)]
  rfl

/-- The product into the zero accumulator at `(p, j)`: the sum over the 256 rows `q` of `lhs (q, p) · rhs (q, j)`. -/
private theorem dotT_apply (lhs : FVec Ideal S256x2000 .bf16) (rhs : FVec Ideal S256x65 .bf16) (p : Fin 2000) (j : Fin 65) :
    FloatOps.matmul dot_S256x2000_S256x65_S2000x65_0_0_1_1_n_n none lhs rhs (constant S2000x65 .f32 0x00000000#32) (ix2 p j)
      = ∑ q : Fin 256, lhs (ix2 q p) * rhs (ix2 q j) := by
  rw [Ideal.matmul_constant_zero_apply, ← Equiv.sum_comp (contrEquiv1 dot_S256x2000_S256x65_S2000x65_0_0_1_1_n_n 256 rfl rfl).symm]
  refine Finset.sum_congr rfl fun k _ => ?_
  have hk := contrEquiv1_symm_val dot_S256x2000_S256x65_S2000x65_0_0_1_1_n_n 256 rfl rfl k
  have el : dot_S256x2000_S256x65_S2000x65_0_0_1_1_n_n.lhsIdx (ix2 p j) ((contrEquiv1 dot_S256x2000_S256x65_S2000x65_0_0_1_1_n_n 256 rfl rfl).symm k) = ix2 k p := funext fun a => Fin.ext (by
    match a with
    | ⟨0, _⟩ => exact (lhsT_0 _ _).trans hk
    | ⟨1, _⟩ => exact lhsT_1 _ _)
  have er : dot_S256x2000_S256x65_S2000x65_0_0_1_1_n_n.rhsIdx (ix2 p j) ((contrEquiv1 dot_S256x2000_S256x65_S2000x65_0_0_1_1_n_n 256 rfl rfl).symm k) = ix2 k j := funext fun a => Fin.ext (by
    match a with
    | ⟨0, _⟩ => exact (rhsT_0 _ _).trans hk
    | ⟨1, _⟩ => exact rhsT_1 _ _)
  rw [el, er]

/-! ### The trip's payload at an index -/

/-- The word the trip's columns start from: `2000 k`. -/
private theorem mult_word : ∀ k : Fin k0_t2_loop.trips,
    Scalar.muli (Scalar.addi 0#32 (Scalar.muli (Scf.iv 0#32 1#32 k) 1#32)) 2000#32 = BitVec.ofNat 32 (2000 * k.val) := by
  decide +kernel

/-- The converted comparison bit of two words is one when they are the same word and zero otherwise. -/
private theorem hot_of_cmp (a b : BitVec 32) :
    FloatOps.sitofp (F := Ideal) .f32 ((IntOp.cmpi .eq a b).setWidth 32) = hot a b := by
  rw [Cert.LibIdealReal.sitofp_extui_bit]
  unfold hot
  by_cases h : a = b
  · rw [if_pos (IntOp.cmpi_eq.mpr h), if_pos h]; exact EReal.coe_one
  · rw [if_neg (fun hc => h (IntOp.cmpi_eq.mp hc)), if_neg h]; exact EReal.coe_zero

/-- The column of destination words, broadcast along the 2000 columns, at `(q, p)`: row `q`'s word. -/
private theorem dstWord_apply (v5 : Vec Ideal S256x1 .i32) (q : Fin 256) (p : Fin 2000) :
    broadcastTo S256x2000 (shapeCast S256x1 v5 shapeCasts_S256x1_S256x1) broadcasts_S256x1_S256x2000 (ix2 q p) = v5 (ix2 q 0) := by
  rw [shapeCast_self]
  refine broadcastTo_apply _ _ _ (ix2 q 0) fun a => ?_
  match a with
  | ⟨0, _⟩ => rfl
  | ⟨1, _⟩ => rfl

/-- The row of compared words, broadcast along the 256 rows, at `(q, p)`: the word `w + p`. -/
private theorem cmpWord_apply (w : BitVec 32) (q : Fin 256) (p : Fin 2000) :
    broadcastTo S256x2000 (addi (broadcast S1x2000 w) (iota .tc S1x2000 32 [1] iota_S1x2000_d1_w32)) broadcasts_S1x2000_S256x2000 (ix2 q p)
      = w + BitVec.ofNat 32 p.val := by
  rw [broadcastTo_apply _ _ _ (ix2 (0 : Fin 1) p) fun a => by
    match a with
    | ⟨0, _⟩ => rfl
    | ⟨1, _⟩ => rfl]
  show IntOp.addi (broadcast S1x2000 w (ix2 0 p)) (iota .tc S1x2000 32 [1] iota_S1x2000_d1_w32 (ix2 0 p)) = _
  rw [iota_single_apply, broadcast_apply]
  rfl

/-- The gathered block with its column of ones appended, at `(q, j)`. -/
private theorem ext_apply (v12 : Vec Ideal S256x64 .f32) (q : Fin 256) (j : Fin 65) :
    concatenate S256x65 1 [⟨S256x64, v12⟩, ⟨S256x1, broadcast S256x1 (FloatOps.ofBits (F := Ideal) .f32 0x3F800000#32)⟩]
        concatenates_S256x64_S256x1_S256x65_d1 (ix2 q j)
      = withOnes (fun q k => v12 (ix2 q k)) q j := by
  unfold withOnes
  by_cases h : j.val < 64
  · rw [dif_pos h]
    refine concatenate_pair_apply_left (t := S256x65) (s₁ := S256x64) (s₂ := S256x1) 1 v12 _
      concatenates_S256x64_S256x1_S256x65_d1 (ix2 q j) rfl (ix2 q ⟨j.val, h⟩) fun b => ?_
    match b with
    | ⟨0, _⟩ => rfl
    | ⟨1, _⟩ => rfl
  · rw [dif_neg h]
    have hj : j.val = 64 := by have := j.isLt; omega
    rw [concatenate_pair_apply_right (t := S256x65) (s₁ := S256x64) (s₂ := S256x1) 1 v12 _
      concatenates_S256x64_S256x1_S256x65_d1 (ix2 q j) rfl rfl (ix2 q (0 : Fin 1)) (fun b hb => by
      match b with
      | ⟨0, _⟩ => rfl
      | ⟨1, _⟩ => exact absurd rfl hb) (by show (0 : ℕ) + 64 = j.val; omega)]
    rw [broadcast_apply]
    exact Cert.LibIdealReal.ofBits_one

/-- The payload at `(p, j)`: what was loaded there plus the sum over the block's 256 edges `q` of
    `hot (word of q) (2000 k + p)` times the extended gathered row of `q` at `j`. -/
private theorem pay4_apply (v5 : Vec Ideal S256x1 .i32) (v12 : Vec Ideal S256x64 .f32) (k : Fin k0_t2_loop.trips)
    (X : Vec Ideal S2000x65 .f32) (p : Fin 2000) (j : Fin 65) :
    k0_pay4 (F := Ideal) v5 v12 k X (ix2 p j)
      = X (ix2 p j) + ∑ q : Fin 256, hot (v5 (ix2 q 0)) (BitVec.ofNat 32 (2000 * k.val + p.val))
          * withOnes (fun q k => v12 (ix2 q k)) q j := by
  unfold k0_pay4
  dsimp only
  rw [addf_apply, shapeCast_self]
  simp only [matmul]
  rw [dotT_apply]
  refine congrArg (X (ix2 p j) + ·) (Finset.sum_congr rfl fun q _ => ?_)
  rw [truncf_apply, truncf_apply, ext_apply, sitofp_apply, extui_apply]
  show FloatOps.sitofp (F := Ideal) .f32 ((IntOp.cmpi .eq _ _).setWidth 32) * _ = _
  rw [dstWord_apply, cmpWord_apply, mult_word, ← BitVec.ofNat_add, hot_of_cmp]

/-! ### One trip's store -/

/-- Trip `k`'s rectangle: rows `2000 k … 2000 k + 1999`, every column. -/
private abbrev rowsRect (k : Fin k0_t2_loop.trips) : Rect S50000x65 :=
  Rect.unit (s := S50000x65) (k0_off2 k) S2000x65.size (k0_off2_inb k)

private theorem off_row (k : Fin k0_t2_loop.trips) : k0_off2 k 0 = 2000 * k.val := by rw [k0_off2_eq]; rfl
private theorem off_col (k : Fin k0_t2_loop.trips) : k0_off2 k 1 = 0 := by rw [k0_off2_eq]; rfl

/-- An index lies in trip `k`'s rectangle exactly when its row does. -/
private theorem mem_rows (k : Fin k0_t2_loop.trips) (y : S50000x65.Idx) :
    y ∈ (rowsRect k).set ↔ 2000 * k.val ≤ (y 0).val ∧ (y 0).val < 2000 * k.val + 2000 := by
  rw [Rect.mem_set_unit]
  constructor
  · intro h
    have h0 := h 0
    rw [off_row] at h0
    exact h0
  · intro h a
    match a with
    | ⟨0, _⟩ =>
      show k0_off2 k 0 ≤ (y 0).val ∧ (y 0).val < k0_off2 k 0 + 2000
      rw [off_row]; exact h
    | ⟨1, _⟩ =>
      show k0_off2 k 1 ≤ (y 1).val ∧ (y 1).val < k0_off2 k 1 + 65
      rw [off_col]; exact ⟨Nat.zero_le _, by have := idx2_lt1 y; omega⟩

/-- The rectangle's own index `(p, j)` is the buffer's `(2000 k + p, j)`. -/
private theorem emb_rows (k : Fin k0_t2_loop.trips) (p : Fin 2000) (j : Fin 65) (hp : 2000 * k.val + p.val < 50000) :
    (rowsRect k).emb (ix2 p j) = ix2 (⟨2000 * k.val + p.val, hp⟩ : Fin 50000) j := by
  refine Shape.idx_ext₂ ?_ ?_
  · show k0_off2 k 0 + 1 * p.val = 2000 * k.val + p.val
    rw [off_row, Nat.one_mul]
  · show k0_off2 k 1 + 1 * j.val = j.val
    rw [off_col, Nat.one_mul, Nat.zero_add]

private theorem tripL_open (c : Dev nD) (i : grid0.Coords) (arg1 : Memref sig .tc .vmem S50000x64 .bf16) (harg1 : arg1.IsWhole) (arg2 : Memref sig .tc .vmem S256x1 .i32) (harg2 : arg2.IsWhole) (arg3 : Memref sig .tc .vmem S256x1 .i32) (harg3 : arg3.IsWhole) (arg4 : Memref sig .tc .vmem S50000x65 .f32) (harg4 : arg4.IsWhole) (arg5 : Memref sig .tc .vmem S256x64 .f32) (harg5 : arg5.IsWhole)
    (v5 : Vec Ideal S256x1 .i32) (v12 : Vec Ideal S256x64 .f32) (k : Fin k0_t2_loop.trips) (f : BufTy.Contents (Elt Ideal) arg4.view.ty) :
    tripL_k0_t2 (F := Ideal) Variants.none c none i arg1 harg1 arg2 harg2 arg3 harg3 arg4 harg4 arg5 harg5 v5 v12 k f
      = [⟨rowsRect k, k0_pay4 v5 v12 k (View.readAt (Elt Ideal) arg4.view (rowsRect k).toLoadRect f)⟩] := by
  unfold tripL_k0_t2 trip_k0_t2
  rfl

private theorem trips_eq : k0_t2_loop.trips = 25 := by decide

/-! ### The 25 trips -/

/-- The aggregate's buffer after the block: the contents `G` at loop entry plus the block's contribution. -/
private def afterBlk (arg4 : Memref sig .tc .vmem S50000x65 .f32) (v5 : Vec Ideal S256x1 .i32) (v12 : Vec Ideal S256x64 .f32)
    (G : BufTy.Contents (Elt Ideal) arg4.view.ty) : S50000x65.Idx → Elt Ideal .f32 :=
  fun y => (arg4.view.read (Elt Ideal) G : Vec Ideal S50000x65 .f32) y
    + contrib (fun q => v5 (ix2 q 0)) (fun q k => v12 (ix2 q k)) (y 0) (y 1)

/-- After `n` trips: every store made so far holds `afterBlk` on its rectangle, the stores lie in the rows below
    `2000 n`, and they cover those rows. The first part for trip `n` uses the second for the trips before it: the
    rows trip `n` loads are untouched, so it loads the contents at loop entry. -/
private theorem pieces_inv (c : Dev nD) (i : grid0.Coords) (arg1 : Memref sig .tc .vmem S50000x64 .bf16) (harg1 : arg1.IsWhole) (arg2 : Memref sig .tc .vmem S256x1 .i32) (harg2 : arg2.IsWhole) (arg3 : Memref sig .tc .vmem S256x1 .i32) (harg3 : arg3.IsWhole) (arg4 : Memref sig .tc .vmem S50000x65 .f32) (harg4 : arg4.IsWhole) (arg5 : Memref sig .tc .vmem S256x64 .f32) (harg5 : arg5.IsWhole)
    (v5 : Vec Ideal S256x1 .i32) (v12 : Vec Ideal S256x64 .f32) (G : BufTy.Contents (Elt Ideal) arg4.view.ty) :
    ∀ n : ℕ, n ≤ 25 →
      (∀ p ∈ pb_k0_t2 (F := Ideal) Variants.none c none i arg1 harg1 arg2 harg2 arg3 harg3 arg4 harg4 arg5 harg5 v5 v12 G n,
          ∀ x : p.1.shape.Idx, p.2 x = afterBlk arg4 v5 v12 G (p.1.emb x))
      ∧ (∀ p ∈ pb_k0_t2 (F := Ideal) Variants.none c none i arg1 harg1 arg2 harg2 arg3 harg3 arg4 harg4 arg5 harg5 v5 v12 G n,
          ∀ y ∈ p.1.set, (y 0).val < 2000 * n)
      ∧ (∀ y : S50000x65.Idx, (y 0).val < 2000 * n →
          ∃ p ∈ pb_k0_t2 (F := Ideal) Variants.none c none i arg1 harg1 arg2 harg2 arg3 harg3 arg4 harg4 arg5 harg5 v5 v12 G n, y ∈ p.1.set)
  | 0, _ => by
    refine ⟨fun p hp => ?_, fun p hp => ?_, fun y hy => ?_⟩
    · exact absurd hp List.not_mem_nil
    · exact absurd hp List.not_mem_nil
    · exact absurd hy (Nat.not_lt_zero _)
  | n + 1, hn => by
    obtain ⟨ih1, ih2, ih3⟩ := pieces_inv c i arg1 harg1 arg2 harg2 arg3 harg3 arg4 harg4 arg5 harg5 v5 v12 G n (Nat.le_of_succ_le hn)
    have hk : n < k0_t2_loop.trips := by rw [trips_eq]; omega
    have hs := pb_k0_t2_succ (F := Ideal) Variants.none c none i arg1 harg1 arg2 harg2 arg3 harg3 arg4 harg4 arg5 harg5 v5 v12 G ⟨n, hk⟩
    rw [tripL_open] at hs
    change pb_k0_t2 (F := Ideal) Variants.none c none i arg1 harg1 arg2 harg2 arg3 harg3 arg4 harg4 arg5 harg5 v5 v12 G (n + 1) = _ at hs
    rw [hs]
    refine ⟨fun p hp => ?_, fun p hp y hy => ?_, fun y hy => ?_⟩
    · rcases List.mem_cons.mp hp with rfl | hp'
      · intro x
        obtain ⟨pp, jj, rfl⟩ : ∃ (pp : Fin 2000) (jj : Fin 65), x = ix2 pp jj := ⟨x 0, x 1, eq_ix2 x⟩
        have hrow : 2000 * n + pp.val < 50000 := by have := pp.isLt; omega
        show k0_pay4 v5 v12 ⟨n, hk⟩ _ (ix2 pp jj) = afterBlk arg4 v5 v12 G ((rowsRect ⟨n, hk⟩).emb (ix2 pp jj))
        rw [pay4_apply, emb_rows ⟨n, hk⟩ pp jj hrow]
        show arg4.view.read (Elt Ideal) _ ((rowsRect ⟨n, hk⟩).emb (ix2 pp jj)) + _ = _
        rw [emb_rows ⟨n, hk⟩ pp jj hrow, View.read_writes_apply_of_forall_not_mem _ _ _ _ fun p' hp' hmem => by
          have := ih2 p' hp' _ hmem
          exact absurd this (by show ¬ (2000 * n + pp.val < 2000 * n); omega)]
        rfl
      · exact ih1 p hp'
    · rcases List.mem_cons.mp hp with rfl | hp'
      · have h2 : (y 0).val < 2000 * n + 2000 := ((mem_rows ⟨n, hk⟩ y).mp hy).2
        show (y 0).val < 2000 * (n + 1)
        omega
      · have := ih2 p hp' y hy
        omega
    · by_cases hlt : (y 0).val < 2000 * n
      · obtain ⟨p, hp, hy'⟩ := ih3 y hlt
        exact ⟨p, List.mem_cons_of_mem _ hp, hy'⟩
      · refine ⟨_, List.mem_cons_self, (mem_rows ⟨n, hk⟩ y).mpr ⟨?_, ?_⟩⟩
        · show 2000 * n ≤ (y 0).val
          omega
        · show (y 0).val < 2000 * n + 2000
          omega

/-- The stores of the second loop, whatever stores `L'` were made before it, read back at `(u, j)`: the contents `G`
    at loop entry plus the block's contribution. -/
theorem canon_scatter (c : Dev nD) (i : grid0.Coords) (arg1 : Memref sig .tc .vmem S50000x64 .bf16) (harg1 : arg1.IsWhole) (arg2 : Memref sig .tc .vmem S256x1 .i32) (harg2 : arg2.IsWhole) (arg3 : Memref sig .tc .vmem S256x1 .i32) (harg3 : arg3.IsWhole) (arg4 : Memref sig .tc .vmem S50000x65 .f32) (harg4 : arg4.IsWhole) (arg5 : Memref sig .tc .vmem S256x64 .f32) (harg5 : arg5.IsWhole)
    (v5 : Vec Ideal S256x1 .i32) (v12 : Vec Ideal S256x64 .f32) (G : BufTy.Contents (Elt Ideal) arg4.view.ty)
    (L' : List (View.Piece (Elt Ideal) S50000x65 .f32)) (u : Fin 50000) (j : Fin 65) :
    View.canon (pb_k0_t2 (F := Ideal) Variants.none c none i arg1 harg1 arg2 harg2 arg3 harg3 arg4 harg4 arg5 harg5 v5 v12 G
        k0_t2_loop.trips ++ L') (ix2 u j)
      = (arg4.view.read (Elt Ideal) G : Vec Ideal S50000x65 .f32) (ix2 u j)
        + contrib (fun q => v5 (ix2 q 0)) (fun q k => v12 (ix2 q k)) u j := by
  obtain ⟨h1, -, h3⟩ := pieces_inv c i arg1 harg1 arg2 harg2 arg3 harg3 arg4 harg4 arg5 harg5 v5 v12 G 25 (Nat.le_refl _)
  rw [trips_eq]
  exact View.canon_append_of_pieces (afterBlk arg4 v5 v12 G) L' _ h1 (ix2 u j)
    (h3 (ix2 u j) (by show u.val < 2000 * 25; have := u.isLt; omega))

end Cert.KernelIdeal.Edge

end
-- ==== Proof.EdgePoints.lean ====
/-
  One grid point of the first kernel, in its two cases.
  At the first point the aggregate's buffer is zeroed before the loops, so the point leaves the block's contribution
  alone; at every later point it leaves what the point before left plus the block's contribution.
-/
import proofs.«406064_j10290741641561_2_alg».proof.Proof.Gen.KernelIdeal.Frame
import proofs.«406064_j10290741641561_2_alg».proof.Proof.Quantities
import proofs.«406064_j10290741641561_2_alg».proof.Proof.ScratchLoop
import proofs.«406064_j10290741641561_2_alg».proof.Proof.ScatterLoop
import Idealize.ShloMosaic.Lib.ValueIdx
import Idealize.ShloMosaic.Lib.Pipeline.Value
import Idealize.ShloMosaic.PureOps.Ideal.Laws

set_option maxRecDepth 16384

noncomputable section

namespace Cert.KernelIdeal.Edge

open Idealize.ShloMosaic Idealize.ShloMosaic.ValueIdx Idealize.SL.Sem
open Cert.KernelIdeal Cert.KernelIdeal.Gen Cert.EdgeAgg
open scoped BigOperators

/-- A load through the whole 256-by-1 rectangle at offset zero reads the column of destination words as it is. -/
private theorem read_col (arg3 : Memref sig .tc .vmem S256x1 .i32) (harg3 : arg3.IsWhole) (x2 : Vec Ideal S256x1 .i32) :
    ((View.readAt (Elt Ideal) arg3.view (Rect.unit (s := S256x1) ![0, 0] S256x1.size inb_S256x1_S256x1_0_0).toLoadRect (harg3.unread x2)) : Vec Ideal S256x1 .i32) = x2 := by
  rw [View.readAt_eq_ld, harg3.read_unread]
  exact View.ld_unit_zero (by funext a; fin_cases a <;> rfl) _ x2

/-- After the one store of zeros through the whole rectangle, the aggregate's buffer reads zero at every entry:
    the store covers every index, so the read-back is its payload, the constant of bit pattern zero. -/
private theorem read_zeroed (arg4 : Memref sig .tc .vmem S50000x65 .f32) (u : Fin 50000) (j : Fin 65) :
    (arg4.view.read (Elt Ideal) (arg4.view.writes (Elt Ideal) arg4.view.junk (kernelRun0_A.sl.H3_1 (F := Ideal)))
      : Vec Ideal S50000x65 .f32) (ix2 u j) = 0 := by
  unfold kernelRun0_A.sl.H3_1
  rw [View.read_writes_eq_canon _ _ _ (fun y => ⟨_, List.mem_singleton_self _,
    View.mem_set_unit_zero (by funext a; fin_cases a <;> rfl) inb_S50000x65_S50000x65_0_0 y⟩)]
  rw [View.canon_unit_zero (by funext a; fin_cases a <;> rfl)]
  unfold k0_pay1
  exact Ideal.ofBits_zero_f32

/-- The first point: zero plus the block's contribution. -/
theorem out_first (c : Dev nD) (i : grid0.Coords) (arg1 : Memref sig .tc .vmem S50000x64 .bf16) (harg1 : arg1.IsWhole) (arg2 : Memref sig .tc .vmem S256x1 .i32) (harg2 : arg2.IsWhole) (arg3 : Memref sig .tc .vmem S256x1 .i32) (harg3 : arg3.IsWhole) (arg4 : Memref sig .tc .vmem S50000x65 .f32) (harg4 : arg4.IsWhole) (arg5 : Memref sig .tc .vmem S256x64 .f32) (harg5 : arg5.IsWhole) (hc0 : cond0_0 i)
    (x0 : Vec Ideal S50000x64 .bf16) (x1 : Vec Ideal S256x1 .i32) (x2 : Vec Ideal S256x1 .i32) (u : Fin 50000) (j : Fin 65) :
    (out0_A_3 (F := Ideal) c i arg1 harg1 arg2 harg2 arg3 harg3 arg4 harg4 arg5 harg5 hc0 x0 x1 x2 : Vec Ideal S50000x65 .f32) (ix2 u j)
      = contrib (fun q => x2 (ix2 q 0)) (pickedBlk (fun n k => x0 (ix2 n k)) (fun q => x1 (ix2 q 0))) u j := by
  -- The stores cover the block, so the read-back is the stores' canonical contents.
  unfold out0_A_3
  rw [View.read_writes_eq_canon _ _ _ (cover0_A_3 c i arg1 harg1 arg2 harg2 arg3 harg3 arg4 harg4 arg5 harg5 hc0 x0 x1 x2)]
  -- The stores are the second loop's 25, made over the buffer the zeroing store left, followed by that store.
  unfold kernelRun0_A
  dsimp only
  have h := canon_scatter c i arg1 harg1 arg2 harg2 arg3 harg3 arg4 harg4 arg5 harg5
    (View.readAt (Elt Ideal) arg3.view (Rect.unit (s := S256x1) ![0, 0] S256x1.size inb_S256x1_S256x1_0_0).toLoadRect (harg3.unread x2))
    (kernelRun0_A.sl.v12 c i arg1 harg1 arg2 harg2 arg3 harg3 arg4 harg4 arg5 harg5 x0 x1)
    (arg4.view.writes (Elt Ideal) arg4.view.junk (kernelRun0_A.sl.H3_1 (F := Ideal)))
    (kernelRun0_A.sl.H3_1 (F := Ideal)) u j
  refine h.trans ?_
  -- Loop-entry contents are zero; the words are the destination column; the block is the gathered rows.
  rw [read_zeroed arg4 u j, zero_add, read_col arg3 harg3 x2]
  have e2 : (fun q k => (kernelRun0_A.sl.v12 (F := Ideal) c i arg1 harg1 arg2 harg2 arg3 harg3 arg4 harg4 arg5 harg5 x0 x1 : Vec Ideal S256x64 .f32) (ix2 q k))
      = pickedBlk (fun n k => x0 (ix2 n k)) (fun q => x1 (ix2 q 0)) := by
    funext q k; exact gathered_first c i arg1 harg1 arg2 harg2 arg3 harg3 arg4 harg4 arg5 harg5 x0 x1 q k
  rw [e2]

/-- A later point: what the point before left, plus the block's contribution. -/
theorem out_later (c : Dev nD) (i : grid0.Coords) (arg1 : Memref sig .tc .vmem S50000x64 .bf16) (harg1 : arg1.IsWhole) (arg2 : Memref sig .tc .vmem S256x1 .i32) (harg2 : arg2.IsWhole) (arg3 : Memref sig .tc .vmem S256x1 .i32) (harg3 : arg3.IsWhole) (arg4 : Memref sig .tc .vmem S50000x65 .f32) (harg4 : arg4.IsWhole) (arg5 : Memref sig .tc .vmem S256x64 .f32) (harg5 : arg5.IsWhole) (hc0 : ¬cond0_0 i)
    (x0 : Vec Ideal S50000x64 .bf16) (x1 : Vec Ideal S256x1 .i32) (x2 : Vec Ideal S256x1 .i32) (xo3 : Vec Ideal S50000x65 .f32)
    (u : Fin 50000) (j : Fin 65) :
    (out0_B_3 (F := Ideal) c i arg1 harg1 arg2 harg2 arg3 harg3 arg4 harg4 arg5 harg5 hc0 x0 x1 x2 xo3 : Vec Ideal S50000x65 .f32) (ix2 u j)
      = xo3 (ix2 u j) + contrib (fun q => x2 (ix2 q 0)) (pickedBlk (fun n k => x0 (ix2 n k)) (fun q => x1 (ix2 q 0))) u j := by
  -- The stores cover the block, so the read-back is the stores' canonical contents.
  unfold out0_B_3
  rw [View.read_writes_eq_canon _ _ _ (cover0_B_3 c i arg1 harg1 arg2 harg2 arg3 harg3 arg4 harg4 arg5 harg5 hc0 x0 x1 x2 xo3)]
  -- The stores are the second loop's 25, made over the buffer holding what the point before left.
  unfold kernelRun0_B
  dsimp only
  have h := canon_scatter c i arg1 harg1 arg2 harg2 arg3 harg3 arg4 harg4 arg5 harg5
    (View.readAt (Elt Ideal) arg3.view (Rect.unit (s := S256x1) ![0, 0] S256x1.size inb_S256x1_S256x1_0_0).toLoadRect (harg3.unread x2))
    (kernelRun0_B.sl.v12 c i arg1 harg1 arg2 harg2 arg3 harg3 arg4 harg4 arg5 harg5 x0 x1) (harg4.unread xo3) [] u j
  rw [List.append_nil] at h
  refine h.trans ?_
  -- Loop-entry contents read back as `xo3`; the words are the destination column; the block is the gathered rows.
  rw [harg4.read_unread, read_col arg3 harg3 x2]
  have e2 : (fun q k => (kernelRun0_B.sl.v12 (F := Ideal) c i arg1 harg1 arg2 harg2 arg3 harg3 arg4 harg4 arg5 harg5 x0 x1 : Vec Ideal S256x64 .f32) (ix2 q k))
      = pickedBlk (fun n k => x0 (ix2 n k)) (fun q => x1 (ix2 q 0)) := by
    funext q k; exact gathered_later c i arg1 harg1 arg2 harg2 arg3 harg3 arg4 harg4 arg5 harg5 x0 x1 q k
  rw [e2]

end Cert.KernelIdeal.Edge

end
-- ==== Proof.EdgeBlocks.lean ====
/-
  The 800000 edges as 3125 blocks of 256: edge `256 t + q` is the `q`-th edge of block `t`, every edge is exactly one
  such, and sums regroup accordingly. So the sum over the blocks of each block's contribution, the block's words
  being the words of its edges, is the extended aggregate over all edges.
-/
import proofs.«406064_j10290741641561_2_alg».proof.Proof.Quantities
import proofs.«406064_j10290741641561_2_alg».proof.Proof.LibBlockSum

noncomputable section

namespace Cert.EdgeAgg

open Idealize.ShloMosaic
open scoped BigOperators

/-- The sum of the 3125 blocks' contributions is the extended aggregate. -/
theorem aggOf_eq_sum_blocks (tbl : Fin 50000 → Fin 64 → EReal) (s d : Fin 800000 → BitVec 32)
    (hb : ∀ (t : Fin 3125) (q : Fin 256), 256 * t.val + q.val < 800000) (u : Fin 50000) (j : Fin 65) :
    (∑ t : Fin 3125, contrib (fun q : Fin 256 => d ⟨256 * t.val + q.val, hb t q⟩)
        (pickedBlk tbl (fun q : Fin 256 => s ⟨256 * t.val + q.val, hb t q⟩)) u j)
      = aggOf tbl s d u j := by
  unfold aggOf contrib
  exact Cert.BlockSum.sum_blocks (M := EReal) 3125 256
    (fun e : Fin (3125 * 256) => hot (d e) (BitVec.ofNat 32 u.val) * (if h : j.val < 64 then picked tbl s e ⟨j.val, h⟩ else 1))

end Cert.EdgeAgg

end
-- ==== Proof.EdgeTotals.lean ====
/-
  The first kernel's result array: the extended aggregate over all 800000 edges.
  Point `t` of the 3125 handles edges `256 t … 256 t + 255`; the aggregate's one block is carried from point to
  point and written back after the last. By induction on the point the block after point `n` is the sum of the
  contributions of points `0 … n`; the sum over 3125 blocks of 256 edges is the sum over all edges.
-/
import proofs.«406064_j10290741641561_2_alg».proof.Proof.Gen.KernelIdeal.Frame
import proofs.«406064_j10290741641561_2_alg».proof.Proof.Quantities
import proofs.«406064_j10290741641561_2_alg».proof.Proof.EdgePoints
import proofs.«406064_j10290741641561_2_alg».proof.Proof.LibBlockSum
import proofs.«406064_j10290741641561_2_alg».proof.Proof.EdgeBlocks
import Idealize.ShloMosaic.Lib.ValueIdx
import Idealize.ShloMosaic.Lib.Pipeline.Value

set_option maxRecDepth 16384

noncomputable section

namespace Cert.KernelIdeal.Edge

open Idealize.ShloMosaic Idealize.ShloMosaic.TcCoe Idealize.ShloMosaic.ValueIdx Idealize.SL.Sem
open Cert.KernelIdeal Cert.KernelIdeal.Gen Cert.EdgeAgg
open scoped BigOperators

section
variable (V : (c : Dev nD) → (b : Ref sig .tc) → Buf (Elt Ideal) ((c : Thread nD τ).loc b))

/-! ## The three input blocks at a point, and the arrays they are read from -/

/-- The table's block at point `t`. -/
abbrev tblBlk (c : Dev nD) (t : Fin cfg0.N) : Vec Ideal S50000x64 .bf16 := iblk0 (F := Ideal) V c 0 t
/-- The block of 256 source words at point `t`. -/
abbrev srcBlk (c : Dev nD) (t : Fin cfg0.N) : Vec Ideal S256x1 .i32 := iblk0 (F := Ideal) V c 1 t
/-- The block of 256 destination words at point `t`. -/
abbrev dstBlk (c : Dev nD) (t : Fin cfg0.N) : Vec Ideal S256x1 .i32 := iblk0 (F := Ideal) V c 2 t

/-- The block indices of the three inputs at every point: the table's is zero on both axes, the words' is the point
    on the long axis and zero on the other. -/
private theorem inIndex : ∀ t : Fin cfg0.N, (win0_0.index t 0 = 0 ∧ win0_0.index t 1 = 0)
    ∧ (win0_1.index t 0 = t.val ∧ win0_1.index t 1 = 0) ∧ (win0_2.index t 0 = t.val ∧ win0_2.index t 1 = 0) :=
  (by decide +kernel : ∀ t : Fin grid0.N, (win0_0.index t 0 = 0 ∧ win0_0.index t 1 = 0)
    ∧ (win0_1.index t 0 = t.val ∧ win0_1.index t 1 = 0) ∧ (win0_2.index t 0 = t.val ∧ win0_2.index t 1 = 0))

/-- Row `q` of the source words' block at point `t` is the source word of edge `256 t + q`: the block sits at
    block index `t` of blocks of 256 rows. -/
private theorem srcBlk_apply (c : Dev nD) (t : Fin cfg0.N) (q : Fin 256) (e : Fin 800000) (he : e.val = 256 * t.val + q.val) :
    srcBlk V c t (ix2 q 0) = (V c main_v0 : IVec S800000x1 32) (ix2 e 0) := by
  show ((cfg0.win 1).blk t).view.read (Elt Ideal) (V c (Pipeline.arrRef spec0 1)) (ix2 q 0) = _
  rw [View.read_apply]
  show (V c main_v0 : IVec S800000x1 32) (((cfg0.win 1).blk t).view.emb (ix2 q 0)) = (V c main_v0 : IVec S800000x1 32) (ix2 e 0)
  refine congrArg (V c main_v0 : IVec S800000x1 32) (funext fun a => Fin.ext ?_)
  show ((win0_1.rect t).emb (ix2 q 0) a).val = (ix2 e (0 : Fin 1) a).val
  rw [Pipeline.Window.rect_emb_val]
  match a with
  | ⟨0, _⟩ => show win0_1.index t 0 * 256 + q.val = e.val; rw [(inIndex t).2.1.1, he]; omega
  | ⟨1, _⟩ => show win0_1.index t 1 * 1 + 0 = 0; rw [(inIndex t).2.1.2]

/-- The same for the destination words. -/
private theorem dstBlk_apply (c : Dev nD) (t : Fin cfg0.N) (q : Fin 256) (e : Fin 800000) (he : e.val = 256 * t.val + q.val) :
    dstBlk V c t (ix2 q 0) = (V c main_v1 : IVec S800000x1 32) (ix2 e 0) := by
  show ((cfg0.win 2).blk t).view.read (Elt Ideal) (V c (Pipeline.arrRef spec0 2)) (ix2 q 0) = _
  rw [View.read_apply]
  show (V c main_v1 : IVec S800000x1 32) (((cfg0.win 2).blk t).view.emb (ix2 q 0)) = (V c main_v1 : IVec S800000x1 32) (ix2 e 0)
  refine congrArg (V c main_v1 : IVec S800000x1 32) (funext fun a => Fin.ext ?_)
  show ((win0_2.rect t).emb (ix2 q 0) a).val = (ix2 e (0 : Fin 1) a).val
  rw [Pipeline.Window.rect_emb_val]
  match a with
  | ⟨0, _⟩ => show win0_2.index t 0 * 256 + q.val = e.val; rw [(inIndex t).2.2.1, he]; omega
  | ⟨1, _⟩ => show win0_2.index t 1 * 1 + 0 = 0; rw [(inIndex t).2.2.2]

/-- The table's block is the whole table at every point: its block index is zero. -/
private theorem tblBlk_apply (c : Dev nD) (t : Fin cfg0.N) (n : Fin 50000) (k : Fin 64) :
    tblBlk V c t (ix2 n k) = (V c main_v2 : Vec Ideal S50000x64 .bf16) (ix2 n k) := by
  show ((cfg0.win 0).blk t).view.read (Elt Ideal) (V c (Pipeline.arrRef spec0 0)) (ix2 n k) = _
  rw [View.read_apply]
  show (V c main_v2 : Vec Ideal S50000x64 .bf16) (((cfg0.win 0).blk t).view.emb (ix2 n k)) = (V c main_v2 : Vec Ideal S50000x64 .bf16) (ix2 n k)
  refine congrArg (V c main_v2 : Vec Ideal S50000x64 .bf16) (funext fun a => Fin.ext ?_)
  show ((win0_0.rect t).emb (ix2 n k) a).val = (ix2 n k a).val
  rw [Pipeline.Window.rect_emb_val]
  match a with
  | ⟨0, _⟩ => show win0_0.index t 0 * 50000 + n.val = n.val; rw [(inIndex t).1.1]; omega
  | ⟨1, _⟩ => show win0_0.index t 1 * 64 + k.val = k.val; rw [(inIndex t).1.2]; omega

/-! ## The running sum over the points -/

/-- What the block of point `t` adds at `(u, j)`. -/
def blockTerm (c : Dev nD) (u : Fin 50000) (j : Fin 65) (t : Fin cfg0.N) : EReal :=
  contrib (fun q => dstBlk V c t (ix2 q 0))
    (pickedBlk (fun n k => tblBlk V c t (ix2 n k)) (fun q => srcBlk V c t (ix2 q 0))) u j

/-- The same indexed by every natural: zero past the grid. -/
def pointTerm (c : Dev nD) (u : Fin 50000) (j : Fin 65) (t : ℕ) : EReal :=
  if h : t < cfg0.N then blockTerm V c u j ⟨t, h⟩ else 0

private theorem pointTerm_of_lt (c : Dev nD) (u : Fin 50000) (j : Fin 65) (t : ℕ) (h : t < cfg0.N) :
    pointTerm V c u j t = blockTerm V c u j ⟨t, h⟩ := dif_pos h

/-- After point `n` the aggregate's buffer holds, at `(u, j)`, the contributions of points `0 … n` added up:
    the first point leaves its own contribution, each later point adds its own to what the point before left. -/
theorem outsAt_sum (c : Dev nD) (u : Fin 50000) (j : Fin 65) : ∀ (n : ℕ) (hn : n < cfg0.N),
    (outsAt0 (F := Ideal) V c n hn : Vec Ideal S50000x65 .f32) (ix2 u j)
      = ∑ t ∈ Finset.range (n + 1), pointTerm V c u j t
  | 0, hn => by
    rw [Finset.sum_range_one, pointTerm_of_lt V c u j 0 hn]
    refine (congrFun (outsAt0_A (F := Ideal) V c ⟨0, hn⟩ (Nat.zero_mod _)) (ix2 u j)).trans ?_
    exact out_first c (grid0.coords ⟨0, hn⟩) (ms0_0 ⟨0, hn⟩) (hs0_0 ⟨0, hn⟩) (ms0_1 ⟨0, hn⟩) (hs0_1 ⟨0, hn⟩)
      (ms0_2 ⟨0, hn⟩) (hs0_2 ⟨0, hn⟩) (ms0_3 ⟨0, hn⟩) (hs0_3 ⟨0, hn⟩) scM0_0 (Memref.isWhole_whole _)
      ((hcond0_0 ⟨0, hn⟩).mpr (Nat.zero_mod _)) (tblBlk V c ⟨0, hn⟩) (srcBlk V c ⟨0, hn⟩) (dstBlk V c ⟨0, hn⟩) u j
  | n + 1, hn => by
    have hN : n + 1 < 3125 := lt_of_lt_of_eq hn (show cfg0.N = 3125 from N_0)
    have hB : ¬ (⟨n + 1, hn⟩ : Fin cfg0.N).val % 3125 = 0 := by dsimp only; omega
    rw [Finset.sum_range_succ _ (n + 1), pointTerm_of_lt V c u j (n + 1) hn,
      ← outsAt_sum c u j n (Nat.lt_of_succ_lt hn)]
    refine (congrFun (outsAt0_B (F := Ideal) V c ⟨n + 1, hn⟩ hB) (ix2 u j)).trans ?_
    exact out_later c (grid0.coords ⟨n + 1, hn⟩) (ms0_0 ⟨n + 1, hn⟩) (hs0_0 ⟨n + 1, hn⟩) (ms0_1 ⟨n + 1, hn⟩) (hs0_1 ⟨n + 1, hn⟩)
      (ms0_2 ⟨n + 1, hn⟩) (hs0_2 ⟨n + 1, hn⟩) (ms0_3 ⟨n + 1, hn⟩) (hs0_3 ⟨n + 1, hn⟩) scM0_0 (Memref.isWhole_whole _)
      (fun h => hB ((hcond0_0 ⟨n + 1, hn⟩).mp h)) (tblBlk V c ⟨n + 1, hn⟩) (srcBlk V c ⟨n + 1, hn⟩) (dstBlk V c ⟨n + 1, hn⟩)
      (outsAt0 (F := Ideal) V c n (Nat.lt_of_succ_lt hn)) u j

/-! ## From the buffer after the last point to the array -/

private theorem last_lt : 3124 < cfg0.N := by rw [show cfg0.N = 3125 from N_0]; omega

/-- The last point of the grid. -/
abbrev tLast : Fin cfg0.N := ⟨3124, last_lt⟩

/-- What the aggregate's buffer holds after the last point. -/
abbrev lastOut (c : Dev nD) : Vec Ideal S50000x65 .f32 := outsAt0 (F := Ideal) V c 3124 last_lt

/-- The aggregate's block index is zero on both axes at every point: its one block is the whole array. -/
private theorem aggIndex (t : Fin cfg0.N) (a : Fin 2) : win0_3.index t a = 0 := by
  fin_cases a <;> rfl

/-- The only point that writes the aggregate back is the last, and what it writes, read as the block of the whole
    array at block index zero, is the buffer after the last point, entry by entry. -/
private theorem flushed_last (c : Dev nD) (t : Fin cfg0.N) (hf : (cfg0.win 3).flush t = true) :
    (dat0 (F := Ideal) V c).flushed 3 t = ((cfg0.win 3).blk t).view.read (Elt Ideal) (lastOut V c) := by
  have hN : cfg0.N = 3125 := N_0
  have h3 : t.val = 3124 := by have := (flush0_3 t).mp hf; have := t.isLt; omega
  obtain rfl : t = tLast := Fin.ext h3
  show (cfg0.win 3).cut (grid0.coords tLast) ((dat0 (F := Ideal) V c).after 3 tLast) = _
  rw [after0_3]
  funext y
  rw [View.read_apply]
  show (lastOut V c) (win0_3.xinj (grid0.coords tLast) y) = (lastOut V c) (((cfg0.win 3).blk tLast).view.emb y)
  refine congrArg (lastOut V c) (funext fun a => Fin.ext ?_)
  show (y a).val = ((win0_3.rect tLast).emb y a).val
  rw [Pipeline.Window.rect_emb_val, aggIndex tLast a]
  omega

/-- So the array ends holding the buffer after the last point: that point's block covers every index. -/
private theorem final_agg (c : Dev nD) : (dat0 (F := Ideal) V c).arrAt 3 cfg0.N = lastOut V c :=
  (dat0 (F := Ideal) V c).arrAt_eq_of_cover 3 (lastOut V c) (flushed_last V c) fun i =>
    ⟨tLast, (flush0_3 tLast).mpr rfl, by
      show i ∈ ((View.whole main_v3).slice (win0_3.rect tLast)).set
      rw [View.set_slice_whole, Rect.mem_set_unit]
      intro a
      rw [aggIndex tLast a, Nat.zero_mul, Nat.zero_add]
      exact ⟨Nat.zero_le _, (i a).isLt⟩⟩

/-! ## The block's contribution over the arrays -/

/-- Point `t`'s contribution over the arrays: its destination and source words are those of edges
    `256 t … 256 t + 255`, its table the whole table. -/
private theorem blockTerm_eq (c : Dev nD) (u : Fin 50000) (j : Fin 65) (t : Fin cfg0.N)
    (hb : ∀ q : Fin 256, 256 * t.val + q.val < 800000) :
    blockTerm V c u j t
      = contrib (fun q : Fin 256 => (V c main_v1 : IVec S800000x1 32) (ix2 (⟨256 * t.val + q.val, hb q⟩ : Fin 800000) 0))
          (pickedBlk (fun n k => (V c main_v2 : Vec Ideal S50000x64 .bf16) (ix2 n k))
            (fun q : Fin 256 => (V c main_v0 : IVec S800000x1 32) (ix2 (⟨256 * t.val + q.val, hb q⟩ : Fin 800000) 0))) u j := by
  unfold blockTerm
  rw [show (fun q : Fin 256 => dstBlk V c t (ix2 q 0))
        = fun q : Fin 256 => (V c main_v1 : IVec S800000x1 32) (ix2 (⟨256 * t.val + q.val, hb q⟩ : Fin 800000) 0)
      from funext fun q => dstBlk_apply V c t q ⟨256 * t.val + q.val, hb q⟩ rfl,
    show (fun q : Fin 256 => srcBlk V c t (ix2 q 0))
        = fun q : Fin 256 => (V c main_v0 : IVec S800000x1 32) (ix2 (⟨256 * t.val + q.val, hb q⟩ : Fin 800000) 0)
      from funext fun q => srcBlk_apply V c t q ⟨256 * t.val + q.val, hb q⟩ rfl,
    show (fun (n : Fin 50000) (k : Fin 64) => tblBlk V c t (ix2 n k))
        = fun n k => (V c main_v2 : Vec Ideal S50000x64 .bf16) (ix2 n k)
      from funext fun n => funext fun k => tblBlk_apply V c t n k]

end

/-- The array the first kernel leaves, at `(u, j)`, from the three arrays it reads as it finds them. -/
theorem region0_value (V : (c : Dev nD) → (b : Ref sig .tc) → Buf (Elt Ideal) ((c : Thread nD τ).loc b)) (c : Dev nD) (u : Fin 50000) (j : Fin 65) :
    ((dat0 (F := Ideal) V c).arrAt 3 cfg0.N : Vec Ideal S50000x65 .f32) (ix2 u j)
      = aggOf (fun n k => (V c main_v2 : Vec Ideal S50000x64 .bf16) (ix2 n k))
          (fun e => (V c main_v0 : IVec S800000x1 32) (ix2 e 0))
          (fun e => (V c main_v1 : IVec S800000x1 32) (ix2 e 0)) u j := by
  have hb : ∀ (t : Fin 3125) (q : Fin 256), 256 * t.val + q.val < 800000 := fun t q => by
    have := t.isLt; have := q.isLt; omega
  have hN : cfg0.N = 3125 := N_0
  -- the array is the buffer after the last point, which is the contributions of all 3125 points added up
  refine (congrFun (final_agg V c) (ix2 u j)).trans ?_
  refine (outsAt_sum V c u j 3124 last_lt).trans ?_
  show ∑ t ∈ Finset.range 3125, pointTerm V c u j t = _
  rw [Finset.sum_range]
  -- point by point over the arrays, then regrouped over the edges
  refine Eq.trans (Finset.sum_congr rfl fun t _ => ?_)
    (aggOf_eq_sum_blocks (fun n k => (V c main_v2 : Vec Ideal S50000x64 .bf16) (ix2 n k))
      (fun e => (V c main_v0 : IVec S800000x1 32) (ix2 e 0))
      (fun e => (V c main_v1 : IVec S800000x1 32) (ix2 e 0)) hb u j)
  rw [pointTerm_of_lt V c u j t.val (lt_of_lt_of_eq t.isLt hN.symm)]
  exact blockTerm_eq V c u j ⟨t.val, lt_of_lt_of_eq t.isLt hN.symm⟩ (hb t)

end Cert.KernelIdeal.Edge

end
-- ==== Proof.Finalize.lean ====
/-
  The second kernel's result array.
  Point `t` of the 25 reads rows `2000 t … 2000 t + 1999` of the extended aggregate, multiplies its first 64 columns
  by the weight matrix, scales each row by the reciprocal of its 65th column clamped below by one, and subtracts the
  edge feature times the weights wherever that column is positive. Every row is written by exactly one point.
-/
import proofs.«406064_j10290741641561_2_alg».proof.Proof.Gen.KernelIdeal.Frame
import proofs.«406064_j10290741641561_2_alg».proof.Proof.Quantities
import proofs.«406064_j10290741641561_2_alg».proof.Proof.LibPlainDot
import proofs.«406064_j10290741641561_2_alg».proof.Proof.LibColumn
import proofs.«406064_j10290741641561_2_alg».proof.Proof.LibIdealReal
import Idealize.ShloMosaic.Lib.ValueIdx
import Idealize.ShloMosaic.Lib.Pipeline.Value

set_option maxRecDepth 16384

noncomputable section

namespace Cert.KernelIdeal.Edge

open Idealize.ShloMosaic Idealize.ShloMosaic.TcCoe Idealize.ShloMosaic.ValueIdx Idealize.SL.Sem
open Cert.KernelIdeal Cert.KernelIdeal.Gen Cert.EdgeAgg
open scoped BigOperators

/-! ## One block's payload at a row and a column -/

/-- The first 64 columns of a block of the extended aggregate, read at `(p, k)`. -/
private theorem feature_cols (v5 : Vec Ideal S2000x65 .f32) (p : Fin 2000) (k : Fin 64) :
    extractStridedSlice S2000x64 ![0, 0] (shapeCast S2000x65 v5 shapeCasts_S2000x65_S2000x65) slices_S2000x65_o0_0_S2000x64 (ix2 p k)
      = v5 (ix2 p (Fin.castSucc k)) := by
  rw [shapeCast_self]
  refine extractStridedSlice_apply _ _ _ _ _ fun a => ?_
  match a with
  | ⟨0, _⟩ => exact (Nat.zero_add _).symm
  | ⟨1, _⟩ => exact (Nat.zero_add _).symm

/-- Its 65th column, the count, read at row `p`. -/
private theorem count_col (v5 : Vec Ideal S2000x65 .f32) (p : Fin 2000) :
    extractStridedSlice S2000x1 ![0, 64] (shapeCast S2000x65 v5 shapeCasts_S2000x65_S2000x65) slices_S2000x65_o0_64_S2000x1 (ix2 p (0 : Fin 1))
      = v5 (ix2 p (Fin.last 64)) := by
  rw [shapeCast_self]
  refine extractStridedSlice_apply _ _ _ _ _ fun a => ?_
  match a with
  | ⟨0, _⟩ => exact (Nat.zero_add _).symm
  | ⟨1, _⟩ => rfl

/-- The product of a block of 2000 rows with the weights, at `(p, j)`: the sum over the 64 shared positions. -/
private theorem rows_dot (x : FVec Ideal S2000x64 .bf16) (w : FVec Ideal S64x64 .bf16) (p : Fin 2000) (j : Fin 64) :
    matmul dot_S2000x64_S64x64_S2000x64_1_0_0_1_n_n none x w (constant (F := Ideal) S2000x64 .f32 0x00000000#32) (ix2 p j)
      = ∑ k : Fin 64, x (ix2 p k) * w (ix2 k j) :=
  Cert.LibPlainDot.matmul_zero_apply _ rfl rfl rfl rfl rfl rfl none x w p j

/-- The product of the one feature row with the weights, at column `j`. -/
private theorem row_dot (x : FVec Ideal S1x64 .bf16) (w : FVec Ideal S64x64 .bf16) (j : Fin 64) :
    matmul dot_S1x64_S64x64_S1x64_1_0_0_1_n_n none x w (constant (F := Ideal) S1x64 .f32 0x00000000#32) (ix2 (0 : Fin 1) j)
      = ∑ k : Fin 64, x (ix2 0 k) * w (ix2 k j) :=
  Cert.LibPlainDot.matmul_zero_apply _ rfl rfl rfl rfl rfl rfl none x w 0 j

/-- "Is `a` above zero" as a number: the ordered compare against the zero word, widened to 32 bits and converted,
    is one when `0 < a` and zero otherwise. -/
private theorem pos_flag (a : EReal) :
    FloatOps.sitofp (F := Ideal) .f32
        ((FloatOps.cmpf (F := Ideal) (φ := .f32) .ogt a (FloatOps.ofBits (F := Ideal) .f32 0x00000000#32)).setWidth 32)
      = if 0 < a then (1 : EReal) else 0 := by
  rw [Cert.LibIdealReal.sitofp_extui_bit]
  show ((if Ideal.cmp .ogt a (Ideal.ofBits .f32 0x00000000#32) = 1#1 then (1 : ℝ) else 0 : ℝ) : EReal) = _
  rw [Cert.LibIdealReal.ofBits_zero]
  by_cases h : 0 < a
  · rw [if_pos h, if_pos (by simp [Ideal.cmp, h])]; exact EReal.coe_one
  · rw [if_neg h, if_neg (by simp [Ideal.cmp, h])]; exact EReal.coe_zero

/-- The body's payload at `(p, j)`: the row's first 64 entries times the weights, over the row's count clamped
    below by one, less the feature row times the weights where the count is positive. The narrowing format
    changes are the identity on extended reals; the two broadcasts read the column at row `p` and the row at
    column `j`. -/
private theorem payload_at (v0 : Vec Ideal S64x64 .f32) (v2 : Vec Ideal S1x64 .f32) (v5 : Vec Ideal S2000x65 .f32)
    (p : Fin 2000) (j : Fin 64) :
    k1_pay1 (F := Ideal) v0 v2 v5 (ix2 p j)
      = (∑ k : Fin 64, v5 (ix2 p (Fin.castSucc k)) * v0 (ix2 k j))
          * Ideal.div 1 (max (v5 (ix2 p (Fin.last 64))) 1)
        - (if 0 < v5 (ix2 p (Fin.last 64)) then (1 : EReal) else 0) * (∑ k : Fin 64, v2 (ix2 0 k) * v0 (ix2 k j)) := by
  unfold k1_pay1
  refine congrArg₂ (· - ·) (congrArg₂ (· * ·) ?_ ?_) (congrArg₂ (· * ·) ?_ ?_)
  · refine (rows_dot _ _ p j).trans (Finset.sum_congr rfl fun k _ => ?_)
    exact congrArg (· * v0 (ix2 k j)) (feature_cols v5 p k)
  · refine (Cert.LibColumn.broadcastTo_a1_ab_apply _ _ p j).trans ?_
    refine congrArg₂ Ideal.div ?_ (congrArg₂ max ?_ ?_)
    · exact Cert.LibIdealReal.ofBits_one
    · exact count_col v5 p
    · exact Cert.LibIdealReal.ofBits_one
  · refine (Cert.LibColumn.broadcastTo_a1_ab_apply _ _ p j).trans ?_
    refine Eq.trans ?_ (pos_flag (v5 (ix2 p (Fin.last 64))))
    exact congrArg (fun a : EReal => FloatOps.sitofp (F := Ideal) .f32
      ((FloatOps.cmpf (F := Ideal) (φ := .f32) .ogt a (FloatOps.ofBits (F := Ideal) .f32 0x00000000#32)).setWidth 32)) (count_col v5 p)
  · refine (broadcastTo_apply _ _ (ix2 p j) (ix2 (0 : Fin 1) j) fun a => ?_).trans (row_dot _ _ j)
    match a with
    | ⟨0, _⟩ => rfl
    | ⟨1, _⟩ => rfl

/-! ## From the blocks to the array -/

private theorem origin_zero : (![0, 0] : Fin 2 → Nat) = fun _ => 0 := funext fun a => by fin_cases a <;> rfl

/-- The second kernel's result as one function of the three arrays it reads: `normOut` of their entries. -/
private def normArr (a : Vec Ideal S50000x65 .f32) (W : Vec Ideal S64x64 .f32) (h : Vec Ideal S1x64 .f32) : Vec Ideal S50000x64 .f32 :=
  fun i => normOut (fun u j => a (ix2 u j)) (fun k j => W (ix2 k j)) (fun k => h (ix2 0 k)) (i 0) (i 1)

/-- Where each window's block sits at point `t`: the aggregate's and the result's at block row `t`, the weights'
    and the feature's at the origin. -/
private theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The payload of block `b` of the aggregate's rows (`hx0`), with the whole weight matrix and feature row, at a
    row and column of the block is the result function `2000 b` rows further down the array. -/
private theorem block_value (a : Vec Ideal S50000x65 .f32) (W : Vec Ideal S64x64 .f32) (h : Vec Ideal S1x64 .f32)
    (x0 : Vec Ideal S2000x65 .f32) (x1 : Vec Ideal S64x64 .f32) (x2 : Vec Ideal S1x64 .f32) (b : ℕ)
    (hx0 : ∀ (p : Fin 2000) (k : Fin 65) (u : Fin 50000), u.val = b * 2000 + p.val → x0 (ix2 p k) = a (ix2 u k))
    (hx1 : x1 = W) (hx2 : x2 = h)
    (y : S2000x64.Idx) (i : S50000x64.Idx) (hi0 : (i 0).val = b * 2000 + (y 0).val) (hi1 : (i 1).val = (y 1).val) :
    k1_pay1 (F := Ideal) x1 x2 x0 y = normArr a W h i := by
  subst hx1 hx2
  obtain ⟨p, j, rfl⟩ : ∃ (p : Fin 2000) (j : Fin 64), y = ix2 p j := ⟨y 0, y 1, eq_ix2 y⟩
  obtain ⟨u, j', rfl⟩ : ∃ (u : Fin 50000) (j' : Fin 64), i = ix2 u j' := ⟨i 0, i 1, eq_ix2 i⟩
  obtain rfl : j' = j := Fin.ext hi1
  have hu : u.val = b * 2000 + p.val := hi0
  rw [payload_at]
  unfold normArr normOut
  show _ = (∑ k : Fin 64, a (ix2 u (Fin.castSucc k)) * x1 (ix2 k j')) * Ideal.div 1 (max (a (ix2 u (Fin.last 64))) 1)
      - (if 0 < a (ix2 u (Fin.last 64)) then (1 : EReal) else 0) * ∑ k : Fin 64, x2 (ix2 0 k) * x1 (ix2 k j')
  rw [hx0 p (Fin.last 64) u hu]
  simp only [hx0 p _ u hu]

/-- What point `t` writes back is block `t` of the result function of the three arrays as the region finds them. -/
private theorem written_block (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal) (normArr (V c main_v3) (V c main_arg2) (V c main_arg1)) := by
  show (cfg1.win 3).cut (grid1.coords t) ((dat1 V c).after 3 t) = _
  rw [after1_3]
  unfold out1_3
  rw [View.canon_unit_zero origin_zero]
  simp only [View.ld_unit_zero (S := S64x64) origin_zero, View.ld_unit_zero (S := S1x64) origin_zero,
    View.ld_unit_zero (S := S2000x65) origin_zero]
  obtain ⟨e00, e01, e10, e11, e20, e21, e30, e31⟩ := block_indices t
  funext y
  show k1_pay1 (F := Ideal) (iblk1 V c 1 t) (iblk1 V c 2 t) (iblk1 V c 0 t) y
    = normArr (V c main_v3) (V c main_arg2) (V c main_arg1) (((cfg1.win 3).blk t).view.emb y)
  refine block_value (V c main_v3) (V c main_arg2) (V c main_arg1) (iblk1 V c 0 t) (iblk1 V c 1 t) (iblk1 V c 2 t) t.val ?_ ?_ ?_
    y (((cfg1.win 3).blk t).view.emb y) ?_ ?_
  · -- the aggregate's block at point `t` is its rows from `2000 t` on
    intro p k u hu
    unfold iblk1
    rw [View.read_apply]
    show V c main_v3 _ = V c main_v3 _
    congr 1
    funext a; apply Fin.ext
    match a with
    | ⟨0, _⟩ => show win1_0.index t (0 : Fin 2) * 2000 + 1 * p.val = u.val; omega
    | ⟨1, _⟩ => show win1_0.index t (1 : Fin 2) * 65 + 1 * k.val = k.val; omega
  · -- the weights' block is the whole matrix
    funext z
    unfold iblk1
    rw [View.read_apply]
    show V c main_arg2 _ = V c main_arg2 _
    congr 1
    funext a; apply Fin.ext
    match a with
    | ⟨0, _⟩ => show win1_1.index t (0 : Fin 2) * 64 + 1 * (z 0).val = (z 0).val; omega
    | ⟨1, _⟩ => show win1_1.index t (1 : Fin 2) * 64 + 1 * (z 1).val = (z 1).val; omega
  · -- the feature's block is the whole row
    funext z
    unfold iblk1
    rw [View.read_apply]
    show V c main_arg1 _ = V c main_arg1 _
    congr 1
    funext a; apply Fin.ext
    match a with
    | ⟨0, _⟩ => show win1_2.index t (0 : Fin 2) * 1 + 1 * (z 0).val = (z 0).val; omega
    | ⟨1, _⟩ => show win1_2.index t (1 : Fin 2) * 64 + 1 * (z 1).val = (z 1).val; omega
  · show win1_3.index t (0 : Fin 2) * 2000 + 1 * (y 0).val = t.val * 2000 + (y 0).val; omega
  · show win1_3.index t (1 : Fin 2) * 64 + 1 * (y 1).val = (y 1).val; omega

/-- An index of the result array is in point `t`'s block iff each coordinate is in the block's range on its axis. -/
private theorem mem_rows (t : Fin cfg1.N) (i : S50000x64.Idx) :
    i ∈ ((cfg1.win 3).blk t).view.set ↔ ∀ a : Fin 2, win1_3.index t a * S2000x64.size a ≤ (i a).val
      ∧ (i a).val < win1_3.index t a * S2000x64.size a + S2000x64.size a := by
  show i ∈ ((View.whole main_v4).slice (win1_3.rect t)).set ↔ _
  rw [View.set_slice_whole, Rect.mem_set_unit]
  exact Iff.rfl

/-- Row `r` of the result lies in the block of point `r / 2000`, and every point writes its block back. -/
private theorem rows_covered (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 25 := N_1
  obtain ⟨t, ht⟩ : ∃ t : Fin cfg1.N, t.val = (i 0).val / 2000 := ⟨⟨(i 0).val / 2000, by rw [hN]; omega⟩, rfl⟩
  refine ⟨t, flush1_3 t, ?_⟩
  rw [mem_rows]
  obtain ⟨-, -, -, -, -, -, e30, e31⟩ := block_indices t
  intro a
  match a with
  | ⟨0, _⟩ =>
    show win1_3.index t (0 : Fin 2) * 2000 ≤ (i 0).val ∧ (i 0).val < win1_3.index t (0 : Fin 2) * 2000 + 2000
    omega
  | ⟨1, _⟩ =>
    show win1_3.index t (1 : Fin 2) * 64 ≤ (i 1).val ∧ (i 1).val < win1_3.index t (1 : Fin 2) * 64 + 64
    omega

/-- The result array after the 25 points is the result function of the three arrays as the region finds them. -/
private theorem result_array (V : (c : Dev nD) → (b : Ref sig .tc) → Buf (Elt Ideal) ((c : Thread nD τ).loc b)) (c : Dev nD) :
    (dat1 (F := Ideal) V c).arrAt 3 cfg1.N = normArr (V c main_v3) (V c main_arg2) (V c main_arg1) :=
  (dat1 (F := Ideal) V c).arrAt_eq_of_cover 3 (normArr (V c main_v3) (V c main_arg2) (V c main_arg1))
    (fun t _ => written_block V c t) rows_covered

/-- The array the second kernel leaves, at `(u, j)`, from the three arrays it reads as it finds them. -/
theorem region1_value (V : (c : Dev nD) → (b : Ref sig .tc) → Buf (Elt Ideal) ((c : Thread nD τ).loc b)) (c : Dev nD) (u : Fin 50000) (j : Fin 64) :
    ((dat1 (F := Ideal) V c).arrAt 3 cfg1.N : Vec Ideal S50000x64 .f32) (ix2 u j)
      = normOut (fun u j => (V c main_v3 : Vec Ideal S50000x65 .f32) (ix2 u j))
          (fun k j => (V c main_arg2 : Vec Ideal S64x64 .f32) (ix2 k j))
          (fun k => (V c main_arg1 : Vec Ideal S1x64 .f32) (ix2 0 k)) u j := by
  exact congrFun (result_array V c) (ix2 u j)

end Cert.KernelIdeal.Edge

end
-- ==== Proof.HostPrep.lean ====
/-
  The arrays the two kernels find. The host operations before the first kernel cast the two word arrays from
  `[800000]` to a column `[800000, 1]` and change the table's float format, which over the extended reals is the
  identity; no operation and no kernel writes the weight or the edge-feature argument, and the second kernel's first
  window reads the array the first kernel wrote.
-/
import proofs.«406064_j10290741641561_2_alg».proof.Proof.Gen.KernelIdeal.Frame
import proofs.«406064_j10290741641561_2_alg».proof.Proof.Quantities
import proofs.«406064_j10290741641561_2_alg».proof.Proof.LibColumn
import Idealize.ShloMosaic.Lib.StableHlo.Run
import Idealize.ShloMosaic.Lib.ValueIdx
import Idealize.ShloMosaic.Lib.Pipeline.Value

set_option maxRecDepth 16384

noncomputable section

namespace Cert.KernelIdeal.Edge

open Idealize.ShloMosaic Idealize.ShloMosaic.StableHlo Idealize.ShloMosaic.TcCoe Idealize.ShloMosaic.ValueIdx Idealize.SL.Sem
open Cert.KernelIdeal Cert.KernelIdeal.Gen Cert.EdgeAgg
open scoped BigOperators

variable (m : (ℓ : Loc nD τ sig) → Buf (Elt Ideal) ℓ) (ρ : Dev nD → PrngReg)

/-- The source column is the source argument cast from `[800000]` to `[800000, 1]`. -/
theorem found_src_cast (c : Dev nD) :
    (V1 m ρ c main_v0 : IVec S800000x1 32)
      = shapeCast S800000x1 (m ((c.tc : Thread nD τ).loc main_arg3) : IVec S800000 32) shapeCasts_S800000_S800000x1 := by
  show StableHlo.after hostOps0 (W0 m ρ c) (Proc.devRef .tc main_v0) = _
  after_results
  rfl

/-- The destination column is the destination argument cast the same way. -/
theorem found_dst_cast (c : Dev nD) :
    (V1 m ρ c main_v1 : IVec S800000x1 32)
      = shapeCast S800000x1 (m ((c.tc : Thread nD τ).loc main_arg4) : IVec S800000 32) shapeCasts_S800000_S800000x1 := by
  show StableHlo.after hostOps0 (W0 m ρ c) (Proc.devRef .tc main_v1) = _
  after_results
  rfl

/-- The table the first kernel reads is the table argument with its format changed. -/
theorem found_tbl_trunc (c : Dev nD) :
    (V1 m ρ c main_v2 : FVec Ideal S50000x64 .bf16)
      = (truncf (F := Ideal) .bf16 (m ((c.tc : Thread nD τ).loc main_arg0) : FVec Ideal S50000x64 .f32) bitsLt_bf16_f32
          : FVec Ideal S50000x64 .bf16) := by
  show StableHlo.after hostOps0 (W0 m ρ c) (Proc.devRef .tc main_v2) = _
  after_results

/-- The source column the first kernel reads is the source argument, word by word. -/
theorem found_src (c : Dev nD) (e : Fin 800000) :
    (V1 m ρ c main_v0 : IVec S800000x1 32) (ix2 e 0) = (m ((c.tc : Thread nD τ).loc main_arg3) : IVec S800000 32) (ix1 e) := by
  rw [found_src_cast]
  exact Cert.LibColumn.shapeCast_a_a1_apply _ _ e 0

/-- The destination column likewise. -/
theorem found_dst (c : Dev nD) (e : Fin 800000) :
    (V1 m ρ c main_v1 : IVec S800000x1 32) (ix2 e 0) = (m ((c.tc : Thread nD τ).loc main_arg4) : IVec S800000 32) (ix1 e) := by
  rw [found_dst_cast]
  exact Cert.LibColumn.shapeCast_a_a1_apply _ _ e 0

/-- The table the first kernel reads is the table argument, entry by entry: a change of float format is the identity. -/
theorem found_tbl (c : Dev nD) (n : Fin 50000) (k : Fin 64) :
    (V1 m ρ c main_v2 : Vec Ideal S50000x64 .bf16) (ix2 n k) = (m ((c.tc : Thread nD τ).loc main_arg0) : Vec Ideal S50000x64 .f32) (ix2 n k) := by
  rw [found_tbl_trunc]
  rfl

/-- The second kernel finds the first one's result array, -/
theorem found_agg (c : Dev nD) : V2 m ρ c main_v3 = (dat0 (V1 m ρ) c).arrAt 3 cfg0.N :=
  (hF0 m ρ c 3).symm

/-- the weight argument: its buffer is the second kernel's second window, an input, which ends as it was found, -/
theorem found_w (c : Dev nD) : V2 m ρ c main_arg2 = m ((c.tc : Thread nD τ).loc main_arg2) :=
  ((W3_arr m ρ c 1).trans (((dat1 (V2 m ρ) c).arrAt_in 1 rfl _).trans (A_eq1 (V2 m ρ) c 1))).symm.trans (W3_main_arg2 m ρ c)

/-- and the edge-feature argument, its third window. -/
theorem found_h (c : Dev nD) : V2 m ρ c main_arg1 = m ((c.tc : Thread nD τ).loc main_arg1) :=
  ((W3_arr m ρ c 2).trans (((dat1 (V2 m ρ) c).arrAt_in 2 rfl _).trans (A_eq1 (V2 m ρ) c 2))).symm.trans (W3_main_arg1 m ρ c)

/-- The result buffer ends at the second kernel's result array. -/
theorem result_arr (c : Dev nD) : W3 m ρ c (Proc.devRef .tc main_v4) = (dat1 (V2 m ρ) c).arrAt 3 cfg1.N :=
  W3_arr m ρ c 3

end Cert.KernelIdeal.Edge

end
-- ==== Proof.KernelValue.lean ====
/-
  The kernel program's result as one function of its arguments: `normOut` of the extended aggregate of the table
  gathered by the source words and summed by the destination words. The result buffer ends at the second kernel's
  array; that kernel reads the first kernel's array, the weights and the edge feature; the first kernel reads the
  table and the two word columns, which are the arguments themselves.
-/
import proofs.«406064_j10290741641561_2_alg».proof.Proof.Gen.KernelIdeal.Frame
import proofs.«406064_j10290741641561_2_alg».proof.Proof.Quantities
import proofs.«406064_j10290741641561_2_alg».proof.Proof.EdgeTotals
import proofs.«406064_j10290741641561_2_alg».proof.Proof.Finalize
import proofs.«406064_j10290741641561_2_alg».proof.Proof.HostPrep
import Idealize.ShloMosaic.Lib.ValueIdx
import Idealize.ShloMosaic.Lib.Pipeline.Value

set_option maxRecDepth 16384

noncomputable section

namespace Cert.KernelIdeal.Edge

open Idealize.ShloMosaic Idealize.ShloMosaic.TcCoe Idealize.ShloMosaic.ValueIdx Idealize.SL.Sem
open Cert.KernelIdeal Cert.KernelIdeal.Gen Cert.EdgeAgg
open scoped BigOperators

variable (m : (ℓ : Loc nD τ sig) → Buf (Elt Ideal) ℓ) (ρ : Dev nD → PrngReg)

/-- The extended aggregate the second kernel finds, as a function of the arguments. -/
theorem found_agg_eq (c : Dev nD) :
    (fun (u : Fin 50000) (j : Fin 65) => ((dat0 (V1 m ρ) c).arrAt 3 cfg0.N : Vec Ideal S50000x65 .f32) (ix2 u j))
      = aggOf (fun n k => (m ((c.tc : Thread nD τ).loc main_arg0) : Vec Ideal S50000x64 .f32) (ix2 n k))
          (fun e => (m ((c.tc : Thread nD τ).loc main_arg3) : IVec S800000 32) (ix1 e))
          (fun e => (m ((c.tc : Thread nD τ).loc main_arg4) : IVec S800000 32) (ix1 e)) := by
  funext u j
  rw [region0_value (V1 m ρ) c u j]
  have e1 : (fun (n : Fin 50000) (k : Fin 64) => (V1 m ρ c main_v2 : Vec Ideal S50000x64 .bf16) (ix2 n k))
      = fun n k => (m ((c.tc : Thread nD τ).loc main_arg0) : Vec Ideal S50000x64 .f32) (ix2 n k) :=
    funext fun n => funext fun k => found_tbl m ρ c n k
  have e2 : (fun (e : Fin 800000) => (V1 m ρ c main_v0 : IVec S800000x1 32) (ix2 e 0))
      = fun e => (m ((c.tc : Thread nD τ).loc main_arg3) : IVec S800000 32) (ix1 e) :=
    funext fun e => found_src m ρ c e
  have e3 : (fun (e : Fin 800000) => (V1 m ρ c main_v1 : IVec S800000x1 32) (ix2 e 0))
      = fun e => (m ((c.tc : Thread nD τ).loc main_arg4) : IVec S800000 32) (ix1 e) :=
    funext fun e => found_dst m ρ c e
  rw [e1, e2, e3]

theorem kernel_value (c : Dev nD) (u : Fin 50000) (j : Fin 64) :
    (W3 m ρ c (Proc.devRef .tc main_v4) : Vec Ideal S50000x64 .f32) (ix2 u j)
      = normOut
          (aggOf (fun n k => (m ((c.tc : Thread nD τ).loc main_arg0) : Vec Ideal S50000x64 .f32) (ix2 n k))
            (fun e => (m ((c.tc : Thread nD τ).loc main_arg3) : IVec S800000 32) (ix1 e))
            (fun e => (m ((c.tc : Thread nD τ).loc main_arg4) : IVec S800000 32) (ix1 e)))
          (fun k j => (m ((c.tc : Thread nD τ).loc main_arg2) : Vec Ideal S64x64 .f32) (ix2 k j))
          (fun k => (m ((c.tc : Thread nD τ).loc main_arg1) : Vec Ideal S1x64 .f32) (ix2 0 k)) u j := by
  rw [result_arr m ρ c, region1_value (V2 m ρ) c u j, found_agg m ρ c, found_w m ρ c, found_h m ρ c, found_agg_eq m ρ c]

end Cert.KernelIdeal.Edge

end
-- ==== Proof.LibScatterGather2.lean ====
/-
  The accumulating scatter and the gather of a table of rows by a column of index words, read at an index.

  Both operations here take an operand of `N` rows and `C` columns and an `M × 1` column of index words, one word per
  update (or result) row: row `e` names row `idx[e, 0]` of the operand, the word read as a SIGNED integer, and the
  columns go straight across.
    • The scatter adds update row `e` into the operand row its word names, column by column, and drops it when the
      word names no row; so element `(u, j)` ends as its old value plus the sum, over the update rows whose word read
      signed is `u`, of their column `j`.
    • The gather reads, at `(e, j)`, column `j` of the operand row `e`'s word names, the word clamped into
      `[0, N − 1]`; when the word is already below `N` (and `N` is at most half the word range, so that the signed
      reading is the unsigned one) that is the row at the word itself.
  Nothing here depends on the sizes: every step is about the two axes, never about the `N`, `M` or `C` positions.
-/
import Idealize.ShloMosaic.PureOps.Ideal
import Idealize.ShloMosaic.PureOps.ShapeOps
import Idealize.ShloMosaic.PureOps.Contract
import Idealize.ShloMosaic.Lib.ValueIdx

noncomputable section

namespace Cert.LibScatterGather2

open Idealize.ShloMosaic Idealize.ShloMosaic.ValueIdx

/-! ## The scatter -/

section Scatter

variable {N C M w : Nat}

/-- Where update index `jj` starts and how far into its window it sits, axis by axis: on the row axis the start is
    the index word of `jj`'s row, read signed, and the window coordinate is zero (the axis is inserted); on the column
    axis the start is zero (no word names it) and the window coordinate is `jj`'s column. -/
theorem start_window (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) :
    d.start jj idx 0 = (idx (ix2 (n0 := M) (n1 := 1) (jj 0) 0)).toInt ∧ d.start jj idx 1 = 0
      ∧ d.window jj 0 = 0 ∧ d.window jj 1 = (jj 1).val := by
  cases d with
  | mk uw iw sd iv wf =>
    obtain rfl : uw = [1] := huw
    obtain rfl : iw = [0] := hiw
    obtain rfl : sd = [0] := hsd
    obtain rfl : iv = 1 := hivd
    refine ⟨?_, ?_, ?_, ?_⟩
    · unfold ScatterDims.start
      rw [dif_pos (List.mem_singleton.mpr rfl)]
      refine congrArg (fun k => (idx k).toInt) ?_
      funext b
      match b with
      | ⟨0, _⟩ => exact Fin.ext rfl
      | ⟨1, _⟩ => exact Fin.ext rfl
    · unfold ScatterDims.start
      rw [dif_neg (by decide : (1 : Fin 2) ∉ [0])]
    · unfold ScatterDims.window
      exact dif_neg (by decide : (0 : Fin 2) ∉ (List.finRange 2).filter (· ∉ [0]))
    · unfold ScatterDims.window
      refine (dif_pos (by decide : (1 : Fin 2) ∈ (List.finRange 2).filter (· ∉ [0]))).trans ?_
      rfl

/-- Update index `jj` lands on element `i` exactly when its row's index word, read signed, is `i`'s row and its
    column is `i`'s column. -/
theorem resultIdx?_iff (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) (i : (⟨2, ![N, C]⟩ : Shape).Idx) :
    d.resultIdx? jj idx = some i
      ↔ (idx (ix2 (n0 := M) (n1 := 1) (jj 0) 0)).toInt = ((i 0).val : ℤ) ∧ (jj 1).val = (i 1).val := by
  obtain ⟨hs0, hs1, hw0, hw1⟩ := start_window d huw hiw hsd hivd idx jj
  have hi0 : (i 0).val < N := (i 0).isLt
  have hi1 : (i 1).val < C := (i 1).isLt
  have hj1 : (jj 1).val < C := (jj 1).isLt
  unfold ScatterDims.resultIdx?
  constructor
  · intro h
    split at h
    · rename_i hc
      have hf := Option.some.inj h
      have h0 : (d.start jj idx 0 + (d.window jj 0 : ℤ)).toNat = (i 0).val := congrArg (fun f => (f 0).val) hf
      have h1 : (d.start jj idx 1 + (d.window jj 1 : ℤ)).toNat = (i 1).val := congrArg (fun f => (f 1).val) hf
      have hc0 := (hc 0).1
      rw [hs0, hw0] at hc0 h0
      rw [hs1, hw1] at h1
      constructor
      · omega
      · omega
    · exact absurd h (by simp)
  · rintro ⟨h, h'⟩
    have hc : ∀ a : Fin 2, 0 ≤ d.start jj idx a + (d.window jj a : ℤ)
        ∧ d.start jj idx a + (d.window jj a : ℤ) < ((⟨2, ![N, C]⟩ : Shape).size a : ℤ) := by
      intro a
      match a with
      | ⟨0, _⟩ =>
        show 0 ≤ d.start jj idx 0 + (d.window jj 0 : ℤ) ∧ d.start jj idx 0 + (d.window jj 0 : ℤ) < (N : ℤ)
        rw [hs0, hw0, h]
        constructor <;> omega
      | ⟨1, _⟩ =>
        show 0 ≤ d.start jj idx 1 + (d.window jj 1 : ℤ) ∧ d.start jj idx 1 + (d.window jj 1 : ℤ) < (C : ℤ)
        rw [hs1, hw1]
        constructor <;> omega
    rw [dif_pos hc]
    refine congrArg some ?_
    funext a
    match a with
    | ⟨0, _⟩ =>
      apply Fin.ext
      show (d.start jj idx 0 + (d.window jj 0 : ℤ)).toNat = (i 0).val
      rw [hs0, hw0, h]; simp
    | ⟨1, _⟩ =>
      apply Fin.ext
      show (d.start jj idx 1 + (d.window jj 1 : ℤ)).toNat = (i 1).val
      rw [hs1, hw1]; simpa using h'

/-- The accumulating scatter at element `(u, j)`: the old value plus column `j` of the update rows whose word,
    read signed, is `u`. -/
theorem scatterAdd_apply {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ)
    (u : Fin N) (j : Fin C) :
    Host.scatterAdd (F := Ideal) d x idx upd (ix2 u j)
      = x (ix2 u j) + ∑ e ∈ Finset.univ.filter (fun e : Fin M => (idx (ix2 e (0 : Fin 1))).toInt = (u.val : ℤ)),
          upd (ix2 e j) := by
  show Ideal.hostScatterAdd d x idx upd (ix2 u j) = _
  unfold Ideal.hostScatterAdd
  refine congrArg (x (ix2 u j) + ·) ?_
  symm
  refine Finset.sum_bij (fun e _ => ix2 e j) ?_ ?_ ?_ (fun _ _ => rfl)
  · intro e he
    rw [Finset.mem_filter] at he ⊢
    exact ⟨Finset.mem_univ _, (resultIdx?_iff d huw hiw hsd hivd idx (ix2 e j) (ix2 u j)).mpr ⟨he.2, rfl⟩⟩
  · intro e _ e' _ h
    exact congrFun h 0
  · intro jj hjj
    rw [Finset.mem_filter] at hjj
    obtain ⟨h, h'⟩ := (resultIdx?_iff d huw hiw hsd hivd idx jj (ix2 u j)).mp hjj.2
    refine ⟨jj 0, Finset.mem_filter.mpr ⟨Finset.mem_univ _, h⟩, ?_⟩
    rw [eq_ix2 jj]
    refine congrArg (ix2 (jj 0)) (Fin.ext ?_)
    exact h'.symm

end Scatter

/-! ## The gather -/

section Gather

variable {α : Type} {N C M w : Nat}

/-- The gather at `(e, j)`, whatever the word: column `j` of the row at the word read signed and clamped. -/
theorem gather_apply_clamp (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C) (hN : 0 < N) :
    Host.gather d x idx (ix2 e j)
      = x (ix2 ⟨min (idx (ix2 e (0 : Fin 1))).toInt.toNat (N - 1), by omega⟩ j) := by
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [1] := hoff
    obtain rfl : cd = [0] := hcoll
    obtain rfl : ob = [] := hob
    obtain rfl : sm = [0] := hsim
    obtain rfl : iv = 1 := hivd
    replace hsl : ss 0 = 1 := hsl
    funext a
    match a with
    | ⟨0, _⟩ =>
      apply Fin.ext
      show GatherDims.start _ (ix2 e j) idx 0 + GatherDims.batchCoord _ (ix2 e j) 0 + GatherDims.offCoord _ (ix2 e j) 0
        = min (idx (ix2 e (0 : Fin 1))).toInt.toNat (N - 1)
      rw [GatherDims.batchCoord_eq_zero _ _ _ List.not_mem_nil,
        GatherDims.offCoord_eq_zero _ _ _ (by decide : (0 : Fin 2) ∉ (List.finRange 2).filter (· ∉ [0] ++ []))]
      simp only [Nat.add_zero]
      unfold GatherDims.start
      rw [dif_pos (List.mem_singleton.mpr rfl)]
      show min (idx _).toInt.toNat (N - ss 0) = _
      rw [hsl]
      refine congrArg (fun k => min (idx k).toInt.toNat (N - 1)) ?_
      funext b
      match b with
      | ⟨0, _⟩ => exact Fin.ext rfl
      | ⟨1, _⟩ => exact Fin.ext rfl
    | ⟨1, _⟩ =>
      apply Fin.ext
      show GatherDims.start _ (ix2 e j) idx 1 + GatherDims.batchCoord _ (ix2 e j) 1 + GatherDims.offCoord _ (ix2 e j) 1
        = j.val
      rw [GatherDims.batchCoord_eq_zero _ _ _ List.not_mem_nil]
      simp only [Nat.add_zero]
      unfold GatherDims.start
      rw [dif_neg (by decide : (1 : Fin 2) ∉ [0]), Nat.zero_add]
      unfold GatherDims.offCoord
      refine (dif_pos (by decide : (1 : Fin 2) ∈ (List.finRange 2).filter (· ∉ [0] ++ []))).trans ?_
      rfl

/-- The gather at `(e, j)` when the word is a row's position: column `j` of that row. -/
theorem gather_apply (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C)
    (hN : 2 * N ≤ 2 ^ w) (h : (idx (ix2 e (0 : Fin 1))).toNat < N) :
    Host.gather d x idx (ix2 e j) = x (ix2 ⟨(idx (ix2 e (0 : Fin 1))).toNat, h⟩ j) := by
  have hN0 : 0 < N := by omega
  rw [gather_apply_clamp d hoff hcoll hob hsim hivd x idx e j hN0]
  refine congrArg x (congrArg (fun r => ix2 r j) (Fin.ext ?_))
  show min (idx (ix2 e (0 : Fin 1))).toInt.toNat (N - 1) = (idx (ix2 e (0 : Fin 1))).toNat
  rw [BitVec.toInt_eq_toNat_of_lt (by omega), Int.toNat_natCast]
  omega

end Gather

end Cert.LibScatterGather2

end
-- ==== Proof.LibCells.lean ====
/-
  Host scatters and gathers whose every update (or result) element is ONE scalar placed by index words, read at an
  index; and two columns of words joined side by side, read at an index.

    • A table of `N` entries and an `M × 1` column of index words, one scalar update per word: the accumulating scatter
      leaves at entry `u` its old value plus the sum of the updates whose word, read signed, is `u` (an update whose
      word names no entry is dropped).
    • A table of `N` rows and `C` columns and an `M × 2` array of index words (row word, column word), one scalar update
      per pair: the accumulating scatter leaves at cell `(u, v)` its old value plus the sum of the updates whose two
      words, read signed, are `u` and `v`.
    • The gather by such an `M × 2` array reads, at `e`, the table at the two words of `e`, each read signed and clamped
      into the table.
    • Two `M × 1` columns joined along the second axis: entry `(e, 0)` is the first column's, `(e, 1)` the second's.
  Nothing here depends on the sizes.
-/
import Idealize.ShloMosaic.PureOps.Ideal
import Idealize.ShloMosaic.PureOps.ShapeOps
import Idealize.ShloMosaic.PureOps.Contract
import Idealize.ShloMosaic.Lib.ValueIdx
import Idealize.ShloMosaic.Lib.Pipeline.Value

noncomputable section

namespace Cert.LibCells

open Idealize.ShloMosaic Idealize.ShloMosaic.ValueIdx
open scoped BigOperators

/-! ## Where an update lands, for any dimension numbers -/

/-- An update index lands on element `i` exactly when, on every operand axis, its start plus its window coordinate is
    `i`'s coordinate: the sum is then inside the operand because `i` is, and the landing index is read off it. -/
theorem resultIdx?_eq_some_iff {s si su : Shape} {w : Nat} (d : ScatterDims s si su) (idx : IVec si w) (jj : su.Idx)
    (i : s.Idx) :
    d.resultIdx? jj idx = some i ↔ ∀ a, d.start jj idx a + (d.window jj a : ℤ) = ((i a).val : ℤ) := by
  unfold ScatterDims.resultIdx?
  constructor
  · intro h a
    split at h
    · rename_i hin
      have hcoord : (d.start jj idx a + (d.window jj a : ℤ)).toNat = (i a).val :=
        congrArg (fun f => (f a).val) (Option.some.inj h)
      have hpos := (hin a).1
      omega
    · exact absurd h (by simp)
  · intro h
    have hin : ∀ a, 0 ≤ d.start jj idx a + (d.window jj a : ℤ)
        ∧ d.start jj idx a + (d.window jj a : ℤ) < (s.size a : ℤ) := by
      intro a
      have hlt := (i a).isLt
      rw [h a]
      constructor <;> omega
    rw [dif_pos hin]
    refine congrArg some (funext fun a => Fin.ext ?_)
    show (d.start jj idx a + (d.window jj a : ℤ)).toNat = (i a).val
    rw [h a]
    simp

/-- A sum over the rank-one indices below `M` that satisfy `p` is the sum over the positions `e < M` whose index
    `ix1 e` satisfies it: an index of rank one is its one coordinate. -/
theorem sum_filter_ix1 {M : Nat} {β : Type} [AddCommMonoid β] (p : (⟨1, ![M]⟩ : Shape).Idx → Prop) [DecidablePred p]
    (q : Fin M → Prop) [DecidablePred q] (hpq : ∀ e, p (ix1 e) ↔ q e) (f : (⟨1, ![M]⟩ : Shape).Idx → β) :
    ∑ jj ∈ Finset.univ.filter p, f jj = ∑ e ∈ Finset.univ.filter q, f (ix1 e) := by
  -- an index satisfies `p` exactly when its coordinate satisfies `q`
  have hp : ∀ jj : (⟨1, ![M]⟩ : Shape).Idx, p jj ↔ q (jj 0) := fun jj =>
    (iff_of_eq (congrArg p (eq_ix1 jj))).trans (hpq (jj 0))
  refine Finset.sum_nbij' (fun jj => (jj 0 : Fin M)) (fun e => ix1 e) ?_ ?_ ?_ ?_ ?_
  · intro jj hjj
    exact Finset.mem_filter.mpr ⟨Finset.mem_univ _, (hp jj).mp (Finset.mem_filter.mp hjj).2⟩
  · intro e he
    exact Finset.mem_filter.mpr ⟨Finset.mem_univ _, (hpq e).mpr (Finset.mem_filter.mp he).2⟩
  · intro jj _
    exact (eq_ix1 jj).symm
  · intro e _
    rfl
  · intro jj _
    exact congrArg f (eq_ix1 jj)

/-! ## One word per update: a table of entries -/

section Scatter1

variable {N M w : Nat}

/-- With the table's one axis inserted and named by the one word of a row: the start of update `jj` is the word of row
    `jj`, read signed, and its window coordinate is zero. -/
theorem start_window1 (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1) (idx : IVec ⟨2, ![M, 1]⟩ w) (jj : (⟨1, ![M]⟩ : Shape).Idx) :
    d.start jj idx 0 = (idx (ix2 (n0 := M) (n1 := 1) (jj 0) 0)).toInt ∧ d.window jj 0 = 0 := by
  cases d with
  | mk uw iw sd iv wf =>
    obtain rfl : uw = [] := huw
    obtain rfl : iw = [0] := hiw
    obtain rfl : sd = [0] := hsd
    obtain rfl : iv = 1 := hivd
    constructor
    · unfold ScatterDims.start
      rw [dif_pos (List.mem_singleton.mpr rfl)]
      refine congrArg (fun k => (idx k).toInt) (funext fun b => ?_)
      match b with
      | ⟨0, _⟩ => exact Fin.ext rfl
      | ⟨1, _⟩ => exact Fin.ext rfl
    · unfold ScatterDims.window
      exact dif_neg (by decide : (0 : Fin 1) ∉ (List.finRange 1).filter (· ∉ [0]))

/-- Update `jj` lands on entry `i` exactly when its word, read signed, is `i`'s position. -/
theorem lands1_iff (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1) (idx : IVec ⟨2, ![M, 1]⟩ w) (jj : (⟨1, ![M]⟩ : Shape).Idx)
    (i : (⟨1, ![N]⟩ : Shape).Idx) :
    d.resultIdx? jj idx = some i ↔ (idx (ix2 (n0 := M) (n1 := 1) (jj 0) 0)).toInt = ((i 0).val : ℤ) := by
  obtain ⟨hs, hw⟩ := start_window1 d huw hiw hsd hivd idx jj
  rw [resultIdx?_eq_some_iff]
  constructor
  · intro h
    have h0 := h 0
    rw [hs, hw] at h0
    simpa using h0
  · intro h a
    match a with
    | ⟨0, _⟩ =>
      show d.start jj idx 0 + (d.window jj 0 : ℤ) = ((i 0).val : ℤ)
      rw [hs, hw, h]
      simp

end Scatter1

/-- The accumulating scatter of scalars into a table of `N` entries by an `M × 1` column of words. -/
theorem scatterAdd1_apply {N M w : Nat} {φ : FTy} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![M, 1]⟩ w) (upd : FVec Ideal ⟨1, ![M]⟩ φ) (u : Fin N) :
    Host.scatterAdd (F := Ideal) d x idx upd (ix1 u)
      = x (ix1 u) + ∑ e ∈ Finset.univ.filter (fun e : Fin M => (idx (ix2 e (0 : Fin 1))).toInt = (u.val : ℤ)),
          upd (ix1 e) := by
  show Ideal.hostScatterAdd d x idx upd (ix1 u) = _
  unfold Ideal.hostScatterAdd
  refine congrArg (x (ix1 u) + ·) ?_
  exact sum_filter_ix1 _ _ (fun e => lands1_iff d huw hiw hsd hivd idx (ix1 e) (ix1 u)) upd

/-! ## Two words per update: a table of cells -/

section Scatter2

variable {N C M w : Nat}

/-- With both of the table's axes inserted, the row axis named by a pair's first word and the column axis by its
    second: the starts of update `jj` are the two words of row `jj`, read signed, and both window coordinates are
    zero. -/
theorem start_window2 (d : ScatterDims ⟨2, ![N, C]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (idx : IVec ⟨2, ![M, 2]⟩ w) (jj : (⟨1, ![M]⟩ : Shape).Idx) :
    d.start jj idx 0 = (idx (ix2 (n0 := M) (n1 := 2) (jj 0) 0)).toInt
      ∧ d.start jj idx 1 = (idx (ix2 (n0 := M) (n1 := 2) (jj 0) 1)).toInt
      ∧ d.window jj 0 = 0 ∧ d.window jj 1 = 0 := by
  cases d with
  | mk uw iw sd iv wf =>
    obtain rfl : uw = [] := huw
    obtain rfl : iw = [0, 1] := hiw
    obtain rfl : sd = [0, 1] := hsd
    obtain rfl : iv = 1 := hivd
    refine ⟨?_, ?_, ?_, ?_⟩
    · unfold ScatterDims.start
      rw [dif_pos (by decide : (0 : Fin 2) ∈ [(0 : Fin 2), 1])]
      refine congrArg (fun k => (idx k).toInt) (funext fun b => ?_)
      match b with
      | ⟨0, _⟩ => exact Fin.ext rfl
      | ⟨1, _⟩ => exact Fin.ext rfl
    · unfold ScatterDims.start
      rw [dif_pos (by decide : (1 : Fin 2) ∈ [(0 : Fin 2), 1])]
      refine congrArg (fun k => (idx k).toInt) (funext fun b => ?_)
      match b with
      | ⟨0, _⟩ => exact Fin.ext rfl
      | ⟨1, _⟩ => exact Fin.ext rfl
    · unfold ScatterDims.window
      exact dif_neg (by decide : (0 : Fin 2) ∉ (List.finRange 2).filter (· ∉ [(0 : Fin 2), 1]))
    · unfold ScatterDims.window
      exact dif_neg (by decide : (1 : Fin 2) ∉ (List.finRange 2).filter (· ∉ [(0 : Fin 2), 1]))

/-- Update `jj` lands on cell `i` exactly when its two words, read signed, are `i`'s row and column. -/
theorem lands2_iff (d : ScatterDims ⟨2, ![N, C]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (idx : IVec ⟨2, ![M, 2]⟩ w) (jj : (⟨1, ![M]⟩ : Shape).Idx) (i : (⟨2, ![N, C]⟩ : Shape).Idx) :
    d.resultIdx? jj idx = some i
      ↔ (idx (ix2 (n0 := M) (n1 := 2) (jj 0) 0)).toInt = ((i 0).val : ℤ)
        ∧ (idx (ix2 (n0 := M) (n1 := 2) (jj 0) 1)).toInt = ((i 1).val : ℤ) := by
  obtain ⟨hs0, hs1, hw0, hw1⟩ := start_window2 d huw hiw hsd hivd idx jj
  rw [resultIdx?_eq_some_iff]
  constructor
  · intro h
    have h0 := h 0
    have h1 := h 1
    rw [hs0, hw0] at h0
    rw [hs1, hw1] at h1
    exact ⟨by simpa using h0, by simpa using h1⟩
  · rintro ⟨h0, h1⟩ a
    match a with
    | ⟨0, _⟩ =>
      show d.start jj idx 0 + (d.window jj 0 : ℤ) = ((i 0).val : ℤ)
      rw [hs0, hw0, h0]
      simp
    | ⟨1, _⟩ =>
      show d.start jj idx 1 + (d.window jj 1 : ℤ) = ((i 1).val : ℤ)
      rw [hs1, hw1, h1]
      simp

end Scatter2

/-- The accumulating scatter of scalars into a table of `N × C` cells by an `M × 2` array of (row, column) words. -/
theorem scatterAdd2_apply {N C M w : Nat} {φ : FTy} (d : ScatterDims ⟨2, ![N, C]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (x : FVec Ideal ⟨2, ![N, C]⟩ φ) (idx : IVec ⟨2, ![M, 2]⟩ w) (upd : FVec Ideal ⟨1, ![M]⟩ φ) (u : Fin N) (v : Fin C) :
    Host.scatterAdd (F := Ideal) d x idx upd (ix2 u v)
      = x (ix2 u v) + ∑ e ∈ Finset.univ.filter (fun e : Fin M =>
            (idx (ix2 e (0 : Fin 2))).toInt = (u.val : ℤ) ∧ (idx (ix2 e (1 : Fin 2))).toInt = (v.val : ℤ)),
          upd (ix1 e) := by
  show Ideal.hostScatterAdd d x idx upd (ix2 u v) = _
  unfold Ideal.hostScatterAdd
  refine congrArg (x (ix2 u v) + ·) ?_
  exact sum_filter_ix1 _ _ (fun e => lands2_iff d huw hiw hsd hivd idx (ix1 e) (ix2 u v)) upd

/-! ## The gather by two words -/

/-- The gather of scalars from a table of `N × C` cells by an `M × 2` array of (row, column) words: each word read
    signed and clamped into the table. -/
theorem gather2_apply {α : Type} {N C M w : Nat} (d : GatherDims ⟨2, ![N, C]⟩ ⟨2, ![M, 2]⟩ ⟨1, ![M]⟩)
    (hoff : d.offsetDims = []) (hcoll : d.collapsedSliceDims = [0, 1]) (hob : d.operandBatchingDims = [])
    (hsim : d.startIndexMap = [0, 1]) (hivd : d.indexVectorDim = 1)
    (x : (⟨2, ![N, C]⟩ : Shape).Idx → α) (idx : IVec ⟨2, ![M, 2]⟩ w) (e : Fin M) (hN : 0 < N) (hC : 0 < C) :
    Host.gather d x idx (ix1 e)
      = x (ix2 ⟨min (idx (ix2 e (0 : Fin 2))).toInt.toNat (N - 1), by omega⟩
               ⟨min (idx (ix2 e (1 : Fin 2))).toInt.toNat (C - 1), by omega⟩) := by
  -- both axes are collapsed, so the slice taken along each is one element
  have hsl0 : d.sliceSizes 0 = 1 := d.slice_collapsed 0 (by rw [hcoll]; exact List.mem_cons.mpr (Or.inl rfl))
  have hsl1 : d.sliceSizes 1 = 1 :=
    d.slice_collapsed 1 (by rw [hcoll]; exact List.mem_cons.mpr (Or.inr (List.mem_singleton.mpr rfl)))
  unfold Host.gather
  refine congrArg x ?_
  cases d with
  | mk od cd ob sb sm iv ss wf =>
    obtain rfl : od = [] := hoff
    obtain rfl : cd = [0, 1] := hcoll
    obtain rfl : ob = [] := hob
    obtain rfl : sm = [0, 1] := hsim
    obtain rfl : iv = 1 := hivd
    replace hsl0 : ss 0 = 1 := hsl0
    replace hsl1 : ss 1 = 1 := hsl1
    funext a
    match a with
    | ⟨0, _⟩ =>
      apply Fin.ext
      show GatherDims.start _ (ix1 e) idx 0 + GatherDims.batchCoord _ (ix1 e) 0 + GatherDims.offCoord _ (ix1 e) 0
        = min (idx (ix2 e (0 : Fin 2))).toInt.toNat (N - 1)
      rw [GatherDims.batchCoord_eq_zero _ _ _ List.not_mem_nil,
        GatherDims.offCoord_eq_zero _ _ _
          (by decide : (0 : Fin 2) ∉ (List.finRange 2).filter (· ∉ [(0 : Fin 2), 1] ++ []))]
      simp only [Nat.add_zero]
      unfold GatherDims.start
      rw [dif_pos (by decide : (0 : Fin 2) ∈ [(0 : Fin 2), 1])]
      show min (idx _).toInt.toNat (N - ss 0) = _
      rw [hsl0]
      refine congrArg (fun k => min (idx k).toInt.toNat (N - 1)) (funext fun b => ?_)
      match b with
      | ⟨0, _⟩ => exact Fin.ext rfl
      | ⟨1, _⟩ => exact Fin.ext rfl
    | ⟨1, _⟩ =>
      apply Fin.ext
      show GatherDims.start _ (ix1 e) idx 1 + GatherDims.batchCoord _ (ix1 e) 1 + GatherDims.offCoord _ (ix1 e) 1
        = min (idx (ix2 e (1 : Fin 2))).toInt.toNat (C - 1)
      rw [GatherDims.batchCoord_eq_zero _ _ _ List.not_mem_nil,
        GatherDims.offCoord_eq_zero _ _ _
          (by decide : (1 : Fin 2) ∉ (List.finRange 2).filter (· ∉ [(0 : Fin 2), 1] ++ []))]
      simp only [Nat.add_zero]
      unfold GatherDims.start
      rw [dif_pos (by decide : (1 : Fin 2) ∈ [(0 : Fin 2), 1])]
      show min (idx _).toInt.toNat (C - ss 1) = _
      rw [hsl1]
      refine congrArg (fun k => min (idx k).toInt.toNat (C - 1)) (funext fun b => ?_)
      match b with
      | ⟨0, _⟩ => exact Fin.ext rfl
      | ⟨1, _⟩ => exact Fin.ext rfl

/-! ## Two columns side by side -/

/-- Two `M × 1` columns joined along the second axis, at the first column. -/
theorem concat_cols_apply0 {α : Type} {M : Nat} (a b : (⟨2, ![M, 1]⟩ : Shape).Idx → α)
    (h : Shape.Concatenates [(⟨2, ![M, 1]⟩ : Shape), ⟨2, ![M, 1]⟩] ⟨2, ![M, 2]⟩ 1) (e : Fin M) :
    concatenate ⟨2, ![M, 2]⟩ 1 [⟨⟨2, ![M, 1]⟩, a⟩, ⟨⟨2, ![M, 1]⟩, b⟩] h (ix2 e (0 : Fin 2)) = a (ix2 e (0 : Fin 1)) := by
  -- position 0 along the joined axis is below the first column's extent 1: the first column, same coordinates
  refine concatenate_pair_apply_left 1 a b h (ix2 e (0 : Fin 2)) rfl (ix2 e (0 : Fin 1)) ?_
  intro c
  match c with
  | ⟨0, _⟩ => rfl
  | ⟨1, _⟩ => rfl

/-- Two `M × 1` columns joined along the second axis, at the second column. -/
theorem concat_cols_apply1 {α : Type} {M : Nat} (a b : (⟨2, ![M, 1]⟩ : Shape).Idx → α)
    (h : Shape.Concatenates [(⟨2, ![M, 1]⟩ : Shape), ⟨2, ![M, 1]⟩] ⟨2, ![M, 2]⟩ 1) (e : Fin M) :
    concatenate ⟨2, ![M, 2]⟩ 1 [⟨⟨2, ![M, 1]⟩, a⟩, ⟨⟨2, ![M, 1]⟩, b⟩] h (ix2 e (1 : Fin 2)) = b (ix2 e (0 : Fin 1)) := by
  -- position 1 along the joined axis is past the first column's extent 1: the second column at 1 − 1 = 0
  refine concatenate_pair_apply_right 1 a b h (ix2 e (1 : Fin 2)) rfl rfl (ix2 e (0 : Fin 1)) ?_ ?_
  · intro c hc
    match c with
    | ⟨0, _⟩ => rfl
    | ⟨1, _⟩ => exact absurd rfl hc
  · rfl

end Cert.LibCells

end
-- ==== Proof.ReferenceValue.lean ====
/-
  The reference program's result as one function of its arguments.
  The gather reads row `(s e)` of the table for an edge whose source word is a row's position; the message is that
  row less the edge feature, times the weights; the two scatter-adds sum the messages, and ones, over the edges whose
  destination word read signed is the node; the quotient is the summed messages over the count clamped below by one.
-/
import proofs.«406064_j10290741641561_2_alg».proof.Proof.Gen.ReferenceIdeal.Run
import proofs.«406064_j10290741641561_2_alg».proof.Proof.Gen.ReferenceIdeal.Read
import proofs.«406064_j10290741641561_2_alg».proof.Proof.Quantities
import proofs.«406064_j10290741641561_2_alg».proof.Proof.LibScatterGather2
import proofs.«406064_j10290741641561_2_alg».proof.Proof.LibCells
import proofs.«406064_j10290741641561_2_alg».proof.Proof.LibPlainDot
import proofs.«406064_j10290741641561_2_alg».proof.Proof.LibIdealReal
import Idealize.ShloMosaic.Lib.ValueIdx
import Idealize.ShloMosaic.Lib.Pipeline.Value

set_option maxRecDepth 16384

noncomputable section

namespace Cert.ReferenceIdeal.Edge

open Idealize.ShloMosaic Idealize.ShloMosaic.TcCoe Idealize.ShloMosaic.ValueIdx Idealize.SL.Sem
open Cert.ReferenceIdeal Cert.EdgeAgg
open scoped BigOperators

/-- A word below 50000 is not negative read signed, so the wrap-around of negative positions keeps it. -/
private theorem keep_word (w : BitVec 32) (h : w.toNat < 50000) :
    Scalar.select (IntOp.cmpi .slt w 0#32) (IntOp.addi w 50000#32) w = w := by
  have hlt : ¬ (w.toInt < 0) := by
    rw [BitVec.toInt_eq_toNat_of_lt (by omega)]
    omega
  unfold Scalar.select IntOp.cmpi
  simp only [BitVec.slt, BitVec.toInt_zero, decide_eq_false hlt]
  exact if_neg (by decide)

/-- The column of source positions the gather reads, at edge `e`, is the source word itself. -/
private theorem src_word (x3 : IVec S800000 32) (e : Fin 800000) (h : (x3 (ix1 e)).toNat < 50000) :
    Read.val_main_v5 (F := Ideal) x3 (ix2 e (0 : Fin 1)) = x3 (ix1 e) := by
  have e5 : Read.idx_main_v5 (ix2 e (0 : Fin 1)) = ix1 e := funext fun a => Fin.ext (by match a with | ⟨0, _⟩ => rfl)
  rw [Read.val_main_v5_apply, e5, Read.val_main_v4_apply, Read.val_main_v1_apply, Read.val_main_v3_apply,
    Read.val_main_v0_apply, Read.val_main_c_apply, Read.val_main_v2_apply, Read.val_main_c_0_apply]
  exact keep_word _ h

/-- The column of destination words either scatter reads, at edge `e`, is the destination word. -/
private theorem dst_word11 (x4 : IVec S800000 32) (e : Fin 800000) :
    Read.val_main_v11 (F := Ideal) x4 (ix2 e (0 : Fin 1)) = x4 (ix1 e) := by
  have e11 : Read.idx_main_v11 (ix2 e (0 : Fin 1)) = ix1 e := funext fun a => Fin.ext (by match a with | ⟨0, _⟩ => rfl)
  rw [Read.val_main_v11_apply, e11]

/-- The same column as the count's scatter reads it. -/
private theorem dst_word15 (x4 : IVec S800000 32) (e : Fin 800000) :
    Read.val_main_v15 (F := Ideal) x4 (ix2 e (0 : Fin 1)) = x4 (ix1 e) := by
  have e15 : Read.idx_main_v15 (ix2 e (0 : Fin 1)) = ix1 e := funext fun a => Fin.ext (by match a with | ⟨0, _⟩ => rfl)
  rw [Read.val_main_v15_apply, e15]

/-- The gathered row of edge `e` at column `k` is the table's row at the source word. -/
private theorem gathered_at (x0 : Vec Ideal S50000x64 .f32) (x3 : IVec S800000 32) (e : Fin 800000) (k : Fin 64)
    (h : (x3 (ix1 e)).toNat < 50000) :
    Read.val_main_v6 (F := Ideal) x0 x3 (ix2 e k) = x0 (ix2 ⟨(x3 (ix1 e)).toNat, h⟩ k) := by
  have hw := src_word x3 e h
  unfold Read.val_main_v6
  rw [Cert.LibScatterGather2.gather_apply gather_S50000x64_S800000x1_S800000x64_1_0_n_n_0_1_164 rfl rfl rfl rfl rfl
    x0 (Read.val_main_v5 (F := Ideal) x3) e k (by norm_num) (by rw [hw]; exact h)]
  exact congrArg x0 (congrArg (fun r => ix2 r k) (Fin.ext (congrArg BitVec.toNat hw)))

/-- The message of edge `e` at column `k`: its gathered row less the edge feature. -/
private theorem message_at (x0 : Vec Ideal S50000x64 .f32) (x1 : Vec Ideal S1x64 .f32) (x3 : IVec S800000 32)
    (e : Fin 800000) (k : Fin 64) (h : (x3 (ix1 e)).toNat < 50000) :
    Read.val_main_v8 (F := Ideal) x0 x1 x3 (ix2 e k)
      = x0 (ix2 ⟨(x3 (ix1 e)).toNat, h⟩ k) - x1 (ix2 (0 : Fin 1) k) := by
  have e7 : Read.idx_main_v7 (ix2 e k) = ix2 (0 : Fin 1) k :=
    funext fun a => Fin.ext (by match a with | ⟨0, _⟩ => rfl | ⟨1, _⟩ => rfl)
  rw [Read.val_main_v8_apply, gathered_at x0 x3 e k h, Read.val_main_v7_apply, e7, Ideal.subf_def]

/-- The transformed message of edge `e` at column `j`: the message times the weights, summed over the row. -/
private theorem transformed_at (x0 : Vec Ideal S50000x64 .f32) (x1 : Vec Ideal S1x64 .f32) (x2 : Vec Ideal S64x64 .f32)
    (x3 : IVec S800000 32) (e : Fin 800000) (j : Fin 64) (h : (x3 (ix1 e)).toNat < 50000) :
    Read.val_main_v9 (F := Ideal) x0 x1 x2 x3 (ix2 e j)
      = ∑ k : Fin 64, (x0 (ix2 ⟨(x3 (ix1 e)).toNat, h⟩ k) - x1 (ix2 (0 : Fin 1) k)) * x2 (ix2 k j) := by
  rw [Read.val_main_v9_apply]
  refine Finset.sum_congr rfl fun k _ => ?_
  have el : Read.lidx_main_v9 (ix2 e j) k = ix2 e k :=
    funext fun a => Fin.ext (by match a with | ⟨0, _⟩ => rfl | ⟨1, _⟩ => rfl)
  have er : Read.ridx_main_v9 (ix2 e j) k = ix2 k j :=
    funext fun a => Fin.ext (by match a with | ⟨0, _⟩ => rfl | ⟨1, _⟩ => rfl)
  rw [el, er, message_at x0 x1 x3 e k h]

/-- The summed messages at `(u, j)`: over zeros, the transformed messages of the edges whose destination word read
    signed is `u`. -/
private theorem summed_at (x0 : Vec Ideal S50000x64 .f32) (x1 : Vec Ideal S1x64 .f32) (x2 : Vec Ideal S64x64 .f32)
    (x3 x4 : IVec S800000 32) (hs : ∀ e : Fin 800000, (x3 (ix1 e)).toNat < 50000) (u : Fin 50000) (j : Fin 64) :
    Read.val_main_v12 (F := Ideal) x0 x1 x2 x3 x4 (ix2 u j)
      = ∑ e ∈ Finset.univ.filter (fun e : Fin 800000 => (x4 (ix1 e)).toInt = (u.val : ℤ)),
          ∑ k : Fin 64, (x0 (ix2 ⟨(x3 (ix1 e)).toNat, hs e⟩ k) - x1 (ix2 (0 : Fin 1) k)) * x2 (ix2 k j) := by
  unfold Read.val_main_v12
  rw [Cert.LibScatterGather2.scatterAdd_apply scatter_S50000x64_S800000x1_S800000x64_1_0_0_1 rfl rfl rfl rfl,
    Read.val_main_v10_apply, Read.val_main_cst_apply, Ideal.ofBits_def, Ideal.ofBits_zero_f32, zero_add]
  have hf : (Finset.univ.filter (fun e : Fin 800000 =>
        (Read.val_main_v11 (F := Ideal) x4 (ix2 e (0 : Fin 1))).toInt = (u.val : ℤ)))
      = Finset.univ.filter (fun e : Fin 800000 => (x4 (ix1 e)).toInt = (u.val : ℤ)) :=
    Finset.filter_congr fun e _ => by rw [dst_word11]
  rw [hf]
  exact Finset.sum_congr rfl fun e _ => transformed_at x0 x1 x2 x3 e j (hs e)

/-- The count at `u`: over zero, a one for each edge whose destination word read signed is `u`. -/
private theorem count_at (x4 : IVec S800000 32) (u : Fin 50000) :
    Read.val_main_v16 (F := Ideal) x4 (ix1 u)
      = ∑ e ∈ Finset.univ.filter (fun e : Fin 800000 => (x4 (ix1 e)).toInt = (u.val : ℤ)), (1 : EReal) := by
  unfold Read.val_main_v16
  rw [Cert.LibCells.scatterAdd1_apply scatter_S50000_S800000x1_S800000_n_0_0_1 rfl rfl rfl rfl,
    Read.val_main_v14_apply, Read.val_main_cst_2_apply, Ideal.ofBits_def, Ideal.ofBits_zero_f32, zero_add]
  have hf : (Finset.univ.filter (fun e : Fin 800000 =>
        (Read.val_main_v15 (F := Ideal) x4 (ix2 e (0 : Fin 1))).toInt = (u.val : ℤ)))
      = Finset.univ.filter (fun e : Fin 800000 => (x4 (ix1 e)).toInt = (u.val : ℤ)) :=
    Finset.filter_congr fun e _ => by rw [dst_word15]
  rw [hf]
  refine Finset.sum_congr rfl fun e _ => ?_
  rw [Read.val_main_v13_apply, Read.val_main_cst_1_apply, Ideal.ofBits_def, Cert.LibIdealReal.ofBits_one]

/-- The divisor at `(u, j)`: the count at `u` clamped below by one, the same in every column. -/
private theorem divisor_at (x4 : IVec S800000 32) (u : Fin 50000) (j : Fin 64) :
    Read.val_main_v20 (F := Ideal) x4 (ix2 u j)
      = max (∑ e ∈ Finset.univ.filter (fun e : Fin 800000 => (x4 (ix1 e)).toInt = (u.val : ℤ)), (1 : EReal)) 1 := by
  have e20 : Read.idx_main_v20 (ix2 u j) = ix2 u (0 : Fin 1) :=
    funext fun a => Fin.ext (by match a with | ⟨0, _⟩ => rfl | ⟨1, _⟩ => rfl)
  have e19 : Read.idx_main_v19 (ix2 u (0 : Fin 1)) = ix1 u :=
    funext fun a => Fin.ext (by match a with | ⟨0, _⟩ => rfl)
  rw [Read.val_main_v20_apply, e20, Read.val_main_v19_apply, e19, Read.val_main_v18_apply, count_at,
    Read.val_main_v17_apply, Read.val_main_cst_3_apply, Ideal.ofBits_def, Cert.LibIdealReal.ofBits_one,
    Ideal.maximumf_def]

/-- The reference's result at `(u, j)` is `refOut` of its arguments. -/
private theorem value_at (x0 : Vec Ideal S50000x64 .f32) (x1 : Vec Ideal S1x64 .f32) (x2 : Vec Ideal S64x64 .f32)
    (x3 x4 : IVec S800000 32) (hs : ∀ e : Fin 800000, (x3 (ix1 e)).toNat < 50000) (u : Fin 50000) (j : Fin 64) :
    Read.val_main_v21 (F := Ideal) x0 x1 x2 x3 x4 (ix2 u j)
      = refOut (fun n k => x0 (ix2 n k)) (fun k => x1 (ix2 0 k)) (fun k j => x2 (ix2 k j))
          (fun e => x3 (ix1 e)) (fun e => x4 (ix1 e)) hs u j := by
  rw [Read.val_main_v21_apply, summed_at x0 x1 x2 x3 x4 hs u j, divisor_at x4 u j, Ideal.hostDivf_def]
  rfl

variable (m : (ℓ : Loc nD τ sig) → Buf (Elt Ideal) ℓ) (ρ : Dev nD → PrngReg)

/-- Every weakly fair execution of the reference terminates with the arguments as launched. -/
theorem reference_frame :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  exact (θ_run (defs (F := Ideal)) _ _).mono (fun _ h c => (h c).2) (Cert.ReferenceIdeal.Value.run (F := Ideal) m ρ)

/-- When every source word is a row's position, the result at `(u, j)` is `refOut` of the arguments. -/
theorem reference_run
    (hs : ∀ (c : Dev nD) (e : Fin 800000), ((m ((c.tc : Thread nD τ).loc main_arg3) : IVec S800000 32) (ix1 e)).toNat < 50000) :
    θ_run (defs (F := Ideal)) (onTc (τ := τ) (main (F := Ideal))) ⟨m, fun _ => 0, ρ⟩ (fun r => ∀ c : Dev nD,
      (∀ (u : Fin 50000) (j : Fin 64),
        (r.2.mem ((c.tc : Thread nD τ).loc main_v21) : Vec Ideal S50000x64 .f32) (ix2 u j)
          = refOut (fun n k => (m ((c.tc : Thread nD τ).loc main_arg0) : Vec Ideal S50000x64 .f32) (ix2 n k))
              (fun k => (m ((c.tc : Thread nD τ).loc main_arg1) : Vec Ideal S1x64 .f32) (ix2 0 k))
              (fun k j => (m ((c.tc : Thread nD τ).loc main_arg2) : Vec Ideal S64x64 .f32) (ix2 k j))
              (fun e => (m ((c.tc : Thread nD τ).loc main_arg3) : IVec S800000 32) (ix1 e))
              (fun e => (m ((c.tc : Thread nD τ).loc main_arg4) : IVec S800000 32) (ix1 e)) (hs c) u j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run (defs (F := Ideal)) _ _).mono (fun r h c => ⟨fun u j => ?_, (h c).2⟩)
    (Cert.ReferenceIdeal.Value.run (F := Ideal) m ρ)
  rw [(h c).1, Read.val_main_v21_eq]
  exact value_at _ _ _ _ _ (hs c) u j

end Cert.ReferenceIdeal.Edge

end
-- ==== Proof.Domain.lean ====
/-
  What the precondition says of the arguments: the table, the edge feature and the weights hold real numbers, and
  every source word is the position of a row of the table (it is at least zero and below 50000 read signed, so its
  unsigned value is below 50000).
-/
import proofs.«406064_j10290741641561_2_alg».proof.Pre_finite_inputs
import proofs.«406064_j10290741641561_2_alg».proof.Proof.LibIdealReal
import Idealize.ShloMosaic.PureOps.Ideal
import Idealize.ShloMosaic.Lib.ValueIdx
import Idealize.ShloMosaic.Lib.ReduceAll
import Idealize.ShloMosaic.Lib.StableHlo.Predicate

noncomputable section

namespace Cert.Pre_finite_inputs.Edge

open Idealize.ShloMosaic Idealize.ShloMosaic.ValueIdx
open Cert.Pre_finite_inputs

private instance : Subsingleton S_.Idx := ⟨fun a b => funext fun d => d.elim0⟩

/-- An extended real whose absolute value is below +∞ is a real number. -/
private theorem real_of_abs_lt (x : EReal)
    (hx : FloatOps.cmpf (F := Ideal) (φ := .f32) .olt (FloatOps.hostAbsf (F := Ideal) (φ := .f32) x)
        (FloatOps.ofBits (F := Ideal) .f32 0x7F800000#32) = 1#1) :
    ∃ r : ℝ, x = (r : EReal) := by
  have htop : Ideal.ofBits .f32 0x7F800000#32 = (⊤ : EReal) := by simp [Ideal.ofBits, Ideal.ieee]
  change Ideal.cmp .olt (max x (-x)) (Ideal.ofBits .f32 0x7F800000#32) = 1#1 at hx
  rw [htop] at hx
  induction x using EReal.rec with
  | bot => simp [Ideal.cmp] at hx
  | coe r => exact ⟨r, rfl⟩
  | top => simp [Ideal.cmp] at hx

/-- A word that is at least zero and below 50000, both read signed, is below 50000 read unsigned. -/
private theorem toNat_lt_of_signed (w : BitVec 32) (h0 : IntOp.cmpi .sge w 0#32 = 1#1)
    (h1 : IntOp.cmpi .slt w 50000#32 = 1#1) : w.toNat < 50000 := by
  rw [IntOp.cmpi_sge] at h0
  rw [IntOp.cmpi_slt] at h1
  have e0 : (0#32 : BitVec 32).toInt = 0 := by decide
  have e1 : (50000#32 : BitVec 32).toInt = 50000 := by decide
  rw [e0] at h0
  rw [e1] at h1
  have h32 := w.isLt
  unfold BitVec.toInt at h0 h1
  split at h1 <;> omega

/-- The five conjuncts of the precondition, each read at one position. -/
private theorem parts [Cert.Pre_finite_inputs.Facts]
    (a0 : FVec Ideal S50000x64 .f32) (a1 : FVec Ideal S1x64 .f32) (a2 : FVec Ideal S64x64 .f32) (a3 a4 : IVec S800000 32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, (a3 i).toNat < 50000) := by
  have h0 := congrFun h ValueIdx.ix0
  dsimp only [Cert.Pre_finite_inputs.fn, Cert.Pre_finite_inputs.fn_part1] at h0
  obtain ⟨h0, hE⟩ := IntOp.andi_eq_one.1 h0
  obtain ⟨h0, hD⟩ := IntOp.andi_eq_one.1 h0
  obtain ⟨h0, hC⟩ := IntOp.andi_eq_one.1 h0
  obtain ⟨hA, hB⟩ := IntOp.andi_eq_one.1 h0
  refine ⟨fun i => ?_, fun i => ?_, fun i => ?_, fun i => ?_⟩
  · exact real_of_abs_lt _ (Host.reduce_andi_all _ _ _ _ ix0 hA i)
  · exact real_of_abs_lt _ (Host.reduce_andi_all _ _ _ _ ix0 hB i)
  · exact real_of_abs_lt _ (Host.reduce_andi_all _ _ _ _ ix0 hC i)
  · exact toNat_lt_of_signed _ (Host.reduce_andi_all _ _ _ _ ix0 hD i) (Host.reduce_andi_all _ _ _ _ ix0 hE i)

theorem domain_of_pre [Cert.Pre_finite_inputs.Facts]
    (a0 : FVec Ideal S50000x64 .f32) (a1 : FVec Ideal S1x64 .f32) (a2 : FVec Ideal S64x64 .f32) (a3 a4 : IVec S800000 32)
    (h : Cert.Pre_finite_inputs.fn (F := Ideal) a0 a1 a2 a3 a4 = fun _ => 1#1) :
    (∃ f : Fin 50000 → Fin 64 → ℝ, ∀ n k, a0 (ix2 n k) = ((f n k : ℝ) : EReal))
    ∧ (∃ g : Fin 64 → ℝ, ∀ k, a1 (ix2 0 k) = ((g k : ℝ) : EReal))
    ∧ (∃ w : Fin 64 → Fin 64 → ℝ, ∀ k j, a2 (ix2 k j) = ((w k j : ℝ) : EReal))
    ∧ (∀ e : Fin 800000, (a3 (ix1 e)).toNat < 50000) := by
  obtain ⟨hA, hB, hC, hD⟩ := parts a0 a1 a2 a3 a4 h
  refine ⟨⟨fun n k => Classical.choose (hA (ix2 n k)), fun n k => Classical.choose_spec (hA (ix2 n k))⟩,
    ⟨fun k => Classical.choose (hB (ix2 0 k)), fun k => Classical.choose_spec (hB (ix2 0 k))⟩,
    ⟨fun k j => Classical.choose (hC (ix2 k j)), fun k j => Classical.choose_spec (hC (ix2 k j))⟩,
    fun e => hD (ix1 e)⟩

end Cert.Pre_finite_inputs.Edge

end
-- ==== Proof.Balance.lean ====
/-
  The law that joins the two programs, over real inputs.
  Write `S` for the edges into node `u` and `n` for their number. With every source word a row's position the
  gathered row of edge `e` is row `s e` of the table, so the aggregate's first 64 columns at `u` are
  `Σ_{e ∈ S} tbl (s e) k` and its 65th is `n`. The kernel forms
  `(Σ_k (Σ_{e ∈ S} tbl (s e) k) · W k j) · (1 / max n 1) − [0 < n] · Σ_k h k · W k j`;
  the reference forms `(Σ_{e ∈ S} Σ_k (tbl (s e) k − h k) · W k j) / max n 1`.
  For `n = 0` both are zero; for `n > 0` distributing the product over the sums (all terms are real numbers)
  turns the second into the first.
-/
import proofs.«406064_j10290741641561_2_alg».proof.Proof.Quantities
import proofs.«406064_j10290741641561_2_alg».proof.Proof.LibIdealReal
import Mathlib.Algebra.BigOperators.Ring.Finset
import Mathlib.Algebra.BigOperators.Group.Finset.Basic
import Mathlib.Algebra.Order.BigOperators.Group.Finset
import Mathlib.Data.Real.Basic
import Mathlib.Tactic.Ring
import Mathlib.Tactic.FieldSimp
import Mathlib.Tactic.Linarith

noncomputable section

namespace Cert.EdgeAgg

open Idealize.ShloMosaic
open Cert.LibIdealReal
open scoped BigOperators

/-! ## Words and positions -/

/-- For a node below 50000 a word read signed is the node exactly when the word is the node's word. -/
private theorem toInt_eq_iff (x : BitVec 32) (u : Fin 50000) :
    x.toInt = (u.val : ℤ) ↔ x = BitVec.ofNat 32 u.val := by
  have hu := u.isLt
  constructor
  · intro h
    have hx := x.isLt
    apply BitVec.eq_of_toNat_eq
    rw [BitVec.toNat_ofNat, Nat.mod_eq_of_lt (by omega)]
    rw [BitVec.toInt_eq_toNat_cond] at h
    split at h <;> omega
  · intro h
    subst h
    rw [BitVec.toInt_eq_toNat_cond, BitVec.toNat_ofNat, Nat.mod_eq_of_lt (by omega)]
    split <;> omega

/-- A word is the word of a position below 50000 exactly when its unsigned value is the position. -/
private theorem word_eq_iff (x : BitVec 32) (n : Fin 50000) :
    x = BitVec.ofNat 32 n.val ↔ x.toNat = n.val := by
  have hn := n.isLt
  constructor
  · intro h
    subst h
    rw [BitVec.toNat_ofNat, Nat.mod_eq_of_lt (by omega)]
  · intro h
    apply BitVec.eq_of_toNat_eq
    rw [BitVec.toNat_ofNat, Nat.mod_eq_of_lt (by omega)]
    exact h

/-- The weight of a destination word at a node is one when the word, read signed, is the node, else zero. -/
private theorem hot_dest (x : BitVec 32) (u : Fin 50000) :
    hot x (BitVec.ofNat 32 u.val) = if x.toInt = (u.val : ℤ) then 1 else 0 := by
  unfold hot
  by_cases h : x.toInt = (u.val : ℤ)
  · rw [if_pos h, if_pos ((toInt_eq_iff x u).mp h)]
  · rw [if_neg h, if_neg (fun h' => h ((toInt_eq_iff x u).mpr h'))]

/-! ## The gathered row and the aggregate -/

/-- Gathering by weights picks the table's row at the source word's position: every other row has weight zero. -/
private theorem picked_eq (f : Fin 50000 → Fin 64 → ℝ) (s : Fin 800000 → BitVec 32)
    (hs : ∀ e, (s e).toNat < 50000) (e : Fin 800000) (k : Fin 64) :
    picked (fun n k => ((f n k : ℝ) : EReal)) s e k = ((f ⟨(s e).toNat, hs e⟩ k : ℝ) : EReal) := by
  unfold picked
  rw [Finset.sum_eq_single (⟨(s e).toNat, hs e⟩ : Fin 50000)]
  · have h1 : s e = BitVec.ofNat 32 (⟨(s e).toNat, hs e⟩ : Fin 50000).val := (word_eq_iff _ _).mpr rfl
    unfold hot
    rw [if_pos h1, one_mul]
  · intro n _ hn
    have h1 : ¬ s e = BitVec.ofNat 32 n.val := by
      intro h
      apply hn
      apply Fin.ext
      exact ((word_eq_iff _ _).mp h).symm
    unfold hot
    rw [if_neg h1, zero_mul]
  · intro h
    exact absurd (Finset.mem_univ _) h

/-- A column of the aggregate below the 65th, at node `u`: the sum over the edges into `u` of the table's entry
at the edge's source row. -/
private theorem agg_col (f : Fin 50000 → Fin 64 → ℝ) (s d : Fin 800000 → BitVec 32)
    (hs : ∀ e, (s e).toNat < 50000) (u : Fin 50000) (k : Fin 64) :
    aggOf (fun n k => ((f n k : ℝ) : EReal)) s d u (Fin.castSucc k)
      = ((∑ e ∈ Finset.univ.filter (fun e : Fin 800000 => (d e).toInt = (u.val : ℤ)),
            f ⟨(s e).toNat, hs e⟩ k : ℝ) : EReal) := by
  unfold aggOf
  rw [Finset.sum_filter, ← sum_coe]
  refine Finset.sum_congr rfl (fun e _ => ?_)
  have hk : (Fin.castSucc k).val < 64 := k.isLt
  have hk' : (⟨(Fin.castSucc k).val, hk⟩ : Fin 64) = k := Fin.ext rfl
  rw [dif_pos hk, hot_dest, picked_eq f s hs, hk']
  by_cases h : (d e).toInt = (u.val : ℤ)
  · rw [if_pos h, if_pos h, one_mul]
  · rw [if_neg h, if_neg h, zero_mul, EReal.coe_zero]

/-- The 65th column of the aggregate at node `u`: the number of edges into `u`. -/
private theorem agg_last (f : Fin 50000 → Fin 64 → ℝ) (s d : Fin 800000 → BitVec 32) (u : Fin 50000) :
    aggOf (fun n k => ((f n k : ℝ) : EReal)) s d u (Fin.last 64)
      = ((((Finset.univ.filter (fun e : Fin 800000 => (d e).toInt = (u.val : ℤ))).card : ℕ) : ℝ) : EReal) := by
  unfold aggOf
  have hk : ¬ (Fin.last 64).val < 64 := by
    rw [Fin.val_last]; omega
  rw [Finset.card_eq_sum_ones, Nat.cast_sum, Finset.sum_filter, ← sum_coe]
  refine Finset.sum_congr rfl (fun e _ => ?_)
  rw [dif_neg hk, hot_dest, mul_one]
  by_cases h : (d e).toInt = (u.val : ℤ)
  · rw [if_pos h, if_pos h, Nat.cast_one, EReal.coe_one]
  · rw [if_neg h, if_neg h, EReal.coe_zero]

/-! ## The identity over the reals -/

/-- Over the reals: scaling the transformed sum by the reciprocal of the clamped count and taking off the
transformed feature where the count is positive is the transformed sum of the differences over the clamped count. -/
private theorem balance_real {ι : Type} (S : Finset ι) (F : ι → Fin 64 → ℝ) (g c : Fin 64 → ℝ) :
    (∑ k : Fin 64, (∑ e ∈ S, F e k) * c k) * (1 / max ((S.card : ℕ) : ℝ) 1)
        - (if (0 : ℝ) < ((S.card : ℕ) : ℝ) then 1 else 0) * (∑ k : Fin 64, g k * c k)
      = (∑ e ∈ S, ∑ k : Fin 64, (F e k - g k) * c k) / max ((S.card : ℕ) : ℝ) 1 := by
  have hsum : ∑ e ∈ S, ∑ k : Fin 64, (F e k - g k) * c k
      = (∑ k : Fin 64, (∑ e ∈ S, F e k) * c k) - ((S.card : ℕ) : ℝ) * ∑ k : Fin 64, g k * c k := by
    rw [Finset.sum_comm, Finset.mul_sum, ← Finset.sum_sub_distrib]
    refine Finset.sum_congr rfl (fun k _ => ?_)
    simp only [sub_mul, Finset.sum_sub_distrib, Finset.sum_const, nsmul_eq_mul, ← Finset.sum_mul]
  rw [hsum]
  rcases Nat.eq_zero_or_pos S.card with h0 | hpos
  · have hS : S = ∅ := Finset.card_eq_zero.mp h0
    subst hS
    simp
  · have h1 : (1 : ℝ) ≤ ((S.card : ℕ) : ℝ) := by exact_mod_cast hpos
    have hp : (0 : ℝ) < ((S.card : ℕ) : ℝ) := by linarith
    rw [max_eq_left h1, if_pos hp]
    field_simp

/-! ## The law -/

theorem normOut_eq_refOut (f : Fin 50000 → Fin 64 → ℝ) (g : Fin 64 → ℝ) (w : Fin 64 → Fin 64 → ℝ)
    (s d : Fin 800000 → BitVec 32) (hs : ∀ e, (s e).toNat < 50000) (u : Fin 50000) (j : Fin 64) :
    normOut (aggOf (fun n k => ((f n k : ℝ) : EReal)) s d) (fun k j => ((w k j : ℝ) : EReal)) (fun k => ((g k : ℝ) : EReal)) u j
      = refOut (fun n k => ((f n k : ℝ) : EReal)) (fun k => ((g k : ℝ) : EReal)) (fun k j => ((w k j : ℝ) : EReal)) s d hs u j := by
  unfold normOut refOut
  rw [agg_last f s d u]
  simp only [agg_col f s d hs u]
  -- the edges into `u`
  generalize hS : Finset.univ.filter (fun e : Fin 800000 => (d e).toInt = (u.val : ℤ)) = S
  -- the reference's count is the number of those edges
  have hcount : (∑ _e ∈ S, (1 : EReal)) = ((((S.card : ℕ) : ℝ)) : EReal) := by
    rw [one_coe, sum_coe, Finset.sum_const, nsmul_eq_mul, mul_one]
  -- the clamped count is at least one, so it is not zero
  have hne : max ((S.card : ℕ) : ℝ) 1 ≠ 0 := by
    have h1 : (1 : ℝ) ≤ max ((S.card : ℕ) : ℝ) 1 := le_max_right _ _
    intro h0
    rw [h0] at h1
    linarith
  -- the indicator of a positive count is the coerced real indicator
  have hind : (if (0 : EReal) < ((((S.card : ℕ) : ℝ)) : EReal) then (1 : EReal) else 0)
      = (((if (0 : ℝ) < ((S.card : ℕ) : ℝ) then 1 else 0 : ℝ)) : EReal) := by
    by_cases h : (0 : ℝ) < ((S.card : ℕ) : ℝ)
    · rw [if_pos h, if_pos (EReal.coe_pos.mpr h), EReal.coe_one]
    · rw [if_neg h, if_neg (fun h' => h (EReal.coe_pos.mp h')), EReal.coe_zero]
  rw [hcount, hind]
  -- both sides are coerced real expressions
  simp only [sub_coe, mul_coe, sum_coe]
  rw [one_coe, max_coe, div_coe _ hne, div_coe _ hne, mul_coe, sub_coe]
  rw [balance_real S (fun e k => f ⟨(s e).toNat, hs e⟩ k) g (fun k => w k j)]

end Cert.EdgeAgg

end
-- ==== Proof.lean ====
/-
  Two kernels against a jnp reference for a message-passing step over 800000 edges between 50000 nodes: an edge
  `e` carries a source word and a destination word; the reference gathers row `src e` of a [50000, 64] table, takes
  off an edge feature, multiplies by a [64, 64] weight matrix, sums the messages of the edges into each node and
  divides by their number clamped below by one.

  The kernels never index with a word. The first one weighs every row `n` of the table by "the source word is `n`"
  and sums, which is the gathered row when the word is a row's position; it weighs the gathered rows, with a column
  of ones appended, by "the destination word is `u`" and sums over all edges, 256 at a grid point, carrying the
  [50000, 65] aggregate from point to point. The second one multiplies the aggregate by the weights, scales by the
  reciprocal of the count (column 65) clamped below by one, and takes off the transformed edge feature wherever the
  count is positive. Over real inputs, and with every source word a row's position, distributing the product over the
  sums turns the reference's quotient into that difference (Proof/Balance.lean).

  The precondition says the three float inputs are finite and every source word is in 0 … 49999; destination words
  are free: both programs drop an edge whose destination word is no node.

  The frames of the two kernel programs are the generated ones; the reference's frame is its generated run. The
  ideal pass rewrote nothing, so `preserves` asks nothing. For `algebraic` the kernel's run names its result buffer
  at the last boundary's contents (Proof/KernelRun.lean), which is `normOut` of the aggregate of the arguments
  (Proof/KernelValue.lean); the reference's run ends at `refOut` of the same arguments (Proof/ReferenceValue.lean).
-/
import proofs.«406064_j10290741641561_2_alg».proof.Defs
import proofs.«406064_j10290741641561_2_alg».proof.Proof.Gen.Kernel
import proofs.«406064_j10290741641561_2_alg».proof.Proof.Gen.Kernel.Skeleton
import proofs.«406064_j10290741641561_2_alg».proof.Proof.Gen.Kernel.Loops
import proofs.«406064_j10290741641561_2_alg».proof.Proof.Gen.Kernel.Launch
import proofs.«406064_j10290741641561_2_alg».proof.Proof.Gen.Kernel.Points
import proofs.«406064_j10290741641561_2_alg».proof.Proof.Gen.Kernel.Frame
import proofs.«406064_j10290741641561_2_alg».proof.Proof.Gen.KernelIdeal
import proofs.«406064_j10290741641561_2_alg».proof.Proof.Gen.KernelIdeal.Skeleton
import proofs.«406064_j10290741641561_2_alg».proof.Proof.Gen.KernelIdeal.Loops
import proofs.«406064_j10290741641561_2_alg».proof.Proof.Gen.KernelIdeal.Launch
import proofs.«406064_j10290741641561_2_alg».proof.Proof.Gen.KernelIdeal.Points
import proofs.«406064_j10290741641561_2_alg».proof.Proof.Gen.KernelIdeal.Frame
import proofs.«406064_j10290741641561_2_alg».proof.Proof.Gen.ReferenceIdeal
import proofs.«406064_j10290741641561_2_alg».proof.Proof.Gen.Pre_finite_inputs
import proofs.«406064_j10290741641561_2_alg».proof.Proof.KernelRun
import proofs.«406064_j10290741641561_2_alg».proof.Proof.KernelValue
import proofs.«406064_j10290741641561_2_alg».proof.Proof.ReferenceValue
import proofs.«406064_j10290741641561_2_alg».proof.Proof.Domain
import proofs.«406064_j10290741641561_2_alg».proof.Proof.Balance
import Idealize.ShloMosaic.Adequacy
import Idealize.ShloMosaic.Init

noncomputable section

namespace Cert.Proof

open Idealize.ShloMosaic Idealize.ShloMosaic.ValueIdx Idealize.SL.Sem Cert.EdgeAgg

/-- `refOut` depends only on its arguments' values: equal tables, features, weights and words give equal results,
    whichever proofs say the source words are rows' positions. -/
theorem refOut_congr {tbl tbl' : Fin 50000 → Fin 64 → EReal} {h h' : Fin 64 → EReal} {W W' : Fin 64 → Fin 64 → EReal}
    {s s' d d' : Fin 800000 → BitVec 32} (e0 : tbl = tbl') (e1 : h = h') (e2 : W = W') (e3 : s = s') (e4 : d = d')
    (hs : ∀ e, (s e).toNat < 50000) (hs' : ∀ e, (s' e).toNat < 50000) (u : Fin 50000) (j : Fin 64) :
    refOut tbl h W s d hs u j = refOut tbl' h' W' s' d' hs' u j := by
  subst e0 e1 e2 e3 e4
  rfl

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ => Cert.ReferenceIdeal.Edge.reference_frame m ρ

/-- Run from memories that agree on the arguments, under the precondition, the two programs end with the same
    result: the kernel's `normOut` of the aggregate is the reference's `refOut`. -/
theorem algebraic : Cert.algebraic_KernelIdeal_ReferenceIdeal := by
  intro m ρ m' ρ' hpre hagree
  have hdom := fun c : Dev Cert.KernelIdeal.nD => Cert.Pre_finite_inputs.Edge.domain_of_pre _ _ _ _ _ (hpre c)
  have hs' : ∀ (c : Dev Cert.ReferenceIdeal.nD) (e : Fin 800000),
      ((m' ((c.tc : Thread Cert.ReferenceIdeal.nD Cert.ReferenceIdeal.τ).loc Cert.ReferenceIdeal.main_arg3)
        : IVec Cert.ReferenceIdeal.S800000 32) (ix1 e)).toNat < 50000 := fun c e => by
    rw [(hagree c).2.2.2.1]; exact (hdom c).2.2.2 e
  refine ⟨fun c => Cert.KernelIdeal.Gen.W3 m ρ c (Proc.devRef .tc Cert.KernelIdeal.main_v4),
    Cert.KernelIdeal.Gen.run m ρ, ?_⟩
  refine (θ_run Cert.ReferenceIdeal.defs _ _).mono (fun r h c => ⟨?_, (h c).2⟩)
    (Cert.ReferenceIdeal.Edge.reference_run m' ρ' hs')
  funext i
  obtain ⟨u, j, rfl⟩ : ∃ (u : Fin 50000) (j : Fin 64), i = ix2 u j := ⟨i 0, i 1, eq_ix2 i⟩
  obtain ⟨⟨f, hf⟩, ⟨g, hg⟩, ⟨w, hw⟩, hs⟩ := hdom c
  refine ((h c).1 u j).trans ?_
  refine Eq.trans ?_ (Cert.KernelIdeal.Edge.kernel_value m ρ c u j).symm
  have e0 : (fun (n : Fin 50000) (k : Fin 64) =>
      (m ((c.tc : Thread Cert.KernelIdeal.nD Cert.KernelIdeal.τ).loc Cert.KernelIdeal.main_arg0)
        : Vec Ideal Cert.KernelIdeal.S50000x64 .f32) (ix2 n k)) = fun n k => ((f n k : ℝ) : EReal) :=
    funext fun n => funext fun k => hf n k
  have e1 : (fun (k : Fin 64) =>
      (m ((c.tc : Thread Cert.KernelIdeal.nD Cert.KernelIdeal.τ).loc Cert.KernelIdeal.main_arg1)
        : Vec Ideal Cert.KernelIdeal.S1x64 .f32) (ix2 0 k)) = fun k => ((g k : ℝ) : EReal) :=
    funext fun k => hg k
  have e2 : (fun (k : Fin 64) (j : Fin 64) =>
      (m ((c.tc : Thread Cert.KernelIdeal.nD Cert.KernelIdeal.τ).loc Cert.KernelIdeal.main_arg2)
        : Vec Ideal Cert.KernelIdeal.S64x64 .f32) (ix2 k j)) = fun k j => ((w k j : ℝ) : EReal) :=
    funext fun k => funext fun j => hw k j
  rw [e0, e1, e2]
  refine Eq.trans ?_ (normOut_eq_refOut f g w _ _ hs u j).symm
  exact refOut_congr
    (by rw [(hagree c).1]; exact e0) (by rw [(hagree c).2.1]; exact e1) (by rw [(hagree c).2.2.1]; exact e2)
    (by rw [(hagree c).2.2.2.1]) (by rw [(hagree c).2.2.2.2]) _ _ u j

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
